-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S96x128 : Shape := ⟨2, ![96, 128]⟩
abbrev S128 : Shape := ⟨1, ![128]⟩
abbrev S192x128 : Shape := ⟨2, ![192, 128]⟩
abbrev S160x64 : Shape := ⟨2, ![160, 64]⟩
abbrev S64 : Shape := ⟨1, ![64]⟩
abbrev S192x64 : Shape := ⟨2, ![192, 64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg8 : FVec F S64 .f32) (main_arg9 : FVec F S192x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 4294917296#32
  fn_part3 (F := F) main_arg1 main_v48 main_v50 main_c_18

def fn_part1 {F : FTy → Type} [FloatOps F] (main_arg1 : IVec S2x800000 32) (main_arg5 : FVec F S192x128 .f32) (main_arg6 : FVec F S128 .f32) (main_arg7 : FVec F S160x64 .f32) (main_arg8 : FVec F S64 .f32) (main_arg9 : FVec F S192x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S192x128 .f32 := Host.absf main_arg5
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S160x64 .f32 := Host.absf main_arg7
  let main_cst_10 : FVec F S_ .f32 := constant S_ .f32 0x7F800000#32
  let main_v30 : FVec F S160x64 .f32 := broadcastInDim S160x64 ![] bcast_S_S160x64 main_cst_10
  let main_v31 : IVec S160x64 1 := cmpf .olt main_v29 main_v30
  let main_c_11 : IVec S_ 1 := constantI S_ 1 1#1
  let main_v32 : IVec S_ 1 := (fun x v => Host.reduce IntOp.andi x v reducesTo_S160x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x64 .f32) (main_arg1 : IVec S2x800000 32) (main_arg2 : FVec F S800000x32 .f32) (main_arg3 : FVec F S96x128 .f32) (main_arg4 : FVec F S128 .f32) (main_arg5 : FVec F S192x128 .f32) (main_arg6 : FVec F S128 .f32) (main_arg7 : FVec F S160x64 .f32) (main_arg8 : FVec F S64 .f32) (main_arg9 : FVec F S192x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S96x128 .f32 := Host.absf main_arg3
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S96x128 : Shape := ⟨2, ![96, 128]⟩
abbrev S128 : Shape := ⟨1, ![128]⟩
abbrev S192x128 : Shape := ⟨2, ![192, 128]⟩
abbrev S160x64 : Shape := ⟨2, ![160, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S64x128 : Shape := ⟨2, ![64, 128]⟩
abbrev S32x128 : Shape := ⟨2, ![32, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x128 : Shape := ⟨2, ![1, 128]⟩
abbrev S800000x128 : Shape := ⟨2, ![800000, 128]⟩
abbrev S10000x64 : Shape := ⟨2, ![10000, 64]⟩
abbrev S10000x32 : Shape := ⟨2, ![10000, 32]⟩
abbrev S10000x128 : Shape := ⟨2, ![10000, 128]⟩
abbrev S50000x128 : Shape := ⟨2, ![50000, 128]⟩
abbrev S50000x1 : Shape := ⟨2, ![50000, 1]⟩
abbrev S128x128 : Shape := ⟨2, ![128, 128]⟩
abbrev S5000x64 : Shape := ⟨2, ![5000, 64]⟩
abbrev S5000x128 : Shape := ⟨2, ![5000, 128]⟩
abbrev S128x64 : Shape := ⟨2, ![128, 64]⟩
abbrev S32x64 : Shape := ⟨2, ![32, 64]⟩
abbrev S1x64 : Shape := ⟨2, ![1, 64]⟩
abbrev S64x64 : Shape := ⟨2, ![64, 64]⟩

abbrev nBuf : Space → Nat
  | .hbm => 107
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S96x128, .f32⟩
  | .hbm, ⟨4, _⟩ => ⟨S128, .f32⟩
  | .hbm, ⟨5, _⟩ => ⟨S192x128, .f32⟩
  | .hbm, ⟨6, _⟩ => ⟨S128, .f32⟩
  | .hbm, ⟨7, _⟩ => ⟨S160x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S64x128, .f32⟩
  | .hbm, ⟨16, _⟩ => ⟨S32x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x64, .f32⟩
  | .hbm, ⟨36, _⟩ => ⟨S800000x64, .i1⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S1x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .f32⟩
  | .hbm, ⟨47, _⟩ => ⟨S800000x1, .f32⟩
  | .hbm, ⟨48, _⟩ => ⟨S_, .f32⟩
  | .hbm, ⟨49, _⟩ => ⟨S50000x1, .f32⟩
  | .hbm, ⟨50, _⟩ => ⟨S800000x1, .i32⟩
  | .hbm, ⟨51, _⟩ => ⟨S50000x1, .f32⟩
  | .hbm, ⟨52, _⟩ => ⟨S_, .f32⟩
  | .hbm, ⟨53, _⟩ => ⟨S50000x1, .f32⟩
  | .hbm, ⟨54, _⟩ => ⟨S50000x1, .f32⟩
  | .hbm, ⟨55, _⟩ => ⟨S50000x128, .f32⟩
  | .hbm, ⟨56, _⟩ => ⟨S50000x128, .f32⟩
  | .hbm, ⟨57, _⟩ => ⟨S64x128, .f32⟩
  | .hbm, ⟨58, _⟩ => ⟨S128x128, .f32⟩
  | .hbm, ⟨59, _⟩ => ⟨S1x128, .f32⟩
  | .hbm, ⟨60, _⟩ => ⟨S50000x128, .f32⟩
  | .hbm, ⟨61, _⟩ => ⟨S128x64, .f32⟩
  | .hbm, ⟨62, _⟩ => ⟨S32x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S1, .i32⟩
  | .hbm, ⟨72, _⟩ => ⟨S_, .i32⟩
  | .hbm, ⟨73, _⟩ => ⟨S800000x1, .i32⟩
  | .hbm, ⟨74, _⟩ => ⟨S800000x1, .i1⟩
  | .hbm, ⟨75, _⟩ => ⟨S1x1, .i32⟩
  | .hbm, ⟨76, _⟩ => ⟨S800000x1, .i32⟩
  | .hbm, ⟨77, _⟩ => ⟨S800000x1, .i1⟩
  | .hbm, ⟨78, _⟩ => ⟨S800000x1, .i1⟩
  | .hbm, ⟨79, _⟩ => ⟨S_, .i1⟩
  | .hbm, ⟨80, _⟩ => ⟨S800000, .i1⟩
  | .hbm, ⟨81, _⟩ => ⟨S800000x128, .f32⟩
  | .hbm, ⟨82, _⟩ => ⟨S800000x128, .i1⟩
  | .hbm, ⟨83, _⟩ => ⟨S_, .f32⟩
  | .hbm, ⟨84, _⟩ => ⟨S800000x128, .f32⟩
  | .hbm, ⟨85, _⟩ => ⟨S800000x128, .f32⟩
  | .hbm, ⟨86, _⟩ => ⟨S1x64, .f32⟩
  | .hbm, ⟨87, _⟩ => ⟨S800000x64, .f32⟩
  | .hbm, ⟨88, _⟩ => ⟨S_, .f32⟩
  | .hbm, ⟨89, _⟩ => ⟨S50000x64, .f32⟩
  | .hbm, ⟨90, _⟩ => ⟨S800000x1, .i32⟩
  | .hbm, ⟨91, _⟩ => ⟨S50000x64, .f32⟩
  | .hbm, ⟨92, _⟩ => ⟨S_, .f32⟩
  | .hbm, ⟨93, _⟩ => ⟨S800000x1, .f32⟩
  | .hbm, ⟨94, _⟩ => ⟨S_, .f32⟩
  | .hbm, ⟨95, _⟩ => ⟨S50000x1, .f32⟩
  | .hbm, ⟨96, _⟩ => ⟨S800000x1, .i32⟩
  | .hbm, ⟨97, _⟩ => ⟨S50000x1, .f32⟩
  | .hbm, ⟨98, _⟩ => ⟨S_, .f32⟩
  | .hbm, ⟨99, _⟩ => ⟨S50000x1, .f32⟩
  | .hbm, ⟨100, _⟩ => ⟨S50000x1, .f32⟩
  | .hbm, ⟨101, _⟩ => ⟨S50000x64, .f32⟩
  | .hbm, ⟨102, _⟩ => ⟨S50000x64, .f32⟩
  | .hbm, ⟨103, _⟩ => ⟨S128x64, .f32⟩
  | .hbm, ⟨104, _⟩ => ⟨S64x64, .f32⟩
  | .hbm, ⟨105, _⟩ => ⟨S1x64, .f32⟩
  | .hbm, ⟨106, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x32, .f32⟩
  | .local _ .vmem, ⟨3, _⟩ => ⟨S10000x32, .f32⟩
  | .local _ .vmem, ⟨4, _⟩ => ⟨S64x128, .f32⟩
  | .local _ .vmem, ⟨5, _⟩ => ⟨S32x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S5000x64, .f32⟩
  | .local _ .vmem, ⟨10, _⟩ => ⟨S5000x64, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S10000x128, .f32⟩
  | .local _ .vmem, ⟨19, _⟩ => ⟨S10000x128, .f32⟩
  | .local _ .vmem, ⟨20, _⟩ => ⟨S10000x32, .f32⟩
  | .local _ .vmem, ⟨21, _⟩ => ⟨S10000x32, .f32⟩
  | .local _ .vmem, ⟨22, _⟩ => ⟨S128x64, .f32⟩
  | .local _ .vmem, ⟨23, _⟩ => ⟨S32x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S5000x128, .f32⟩
  | .local _ .vmem, ⟨28, _⟩ => ⟨S5000x128, .f32⟩
  | .local _ .vmem, ⟨29, _⟩ => ⟨S5000x64, .f32⟩
  | .local _ .vmem, ⟨30, _⟩ => ⟨S5000x64, .f32⟩
  | .local _ .vmem, ⟨31, _⟩ => ⟨S128x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_0 : Ref sig .tc := ⟨.hbm, 46, rfl⟩
abbrev main_v12 : Ref sig .tc := ⟨.hbm, 47, rfl⟩
abbrev main_cst_1 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_2 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_3 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_4 : Ref sig .tc := ⟨.hbm, 92, rfl⟩
abbrev main_v32 : Ref sig .tc := ⟨.hbm, 93, rfl⟩
abbrev main_cst_5 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_cst_6 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S96x128_S64x128_0_0 : S96x128.Slices ![0, 0] S64x128
  slices_S96x128_S32x128_64_0 : S96x128.Slices ![64, 0] S32x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S192x128_S64x128_0_0 : S192x128.Slices ![0, 0] S64x128
  slices_S192x128_S128x128_64_0 : S192x128.Slices ![64, 0] S128x128
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S160x64_S128x64_0_0 : S160x64.Slices ![0, 0] S128x64
  slices_S160x64_S32x64_128_0 : S160x64.Slices ![128, 0] S32x64
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S64_S1x64 : S64.ShapeCasts S1x64
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S192x64_S128x64_0_0 : S192x64.Slices ![0, 0] S128x64
  slices_S192x64_S64x64_128_0 : S192x64.Slices ![128, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S10000x64_S64x128_S10000x128_1_0_0_1_n_n_wf : DotDims.WF S10000x64 S64x128 S10000x128 [1] [0] [0] [1] [] []
  dot_S10000x32_S32x128_S10000x128_1_0_0_1_n_n_wf : DotDims.WF S10000x32 S32x128 S10000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S10000x128_S128x64_S10000x64_1_0_0_1_n_n_wf : DotDims.WF S10000x128 S128x64 S10000x64 [1] [0] [0] [1] [] []
  dot_S10000x32_S32x64_S10000x64_1_0_0_1_n_n_wf : DotDims.WF S10000x32 S32x64 S10000x64 [1] [0] [0] [1] [] []
  scatter_S50000x64_S800000x1_S800000x64_1_0_0_1_wf : ScatterDims.WF S50000x64 S800000x1 S800000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S800000x32.size a
  hwx0_1 : ∀ i : grid0.Coords, EltTy.bits .f32 = 32 ∨ (Rect.block (s := S800000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S800000x128.size a
  hwx0_5 : ∀ i : grid0.Coords, EltTy.bits .f32 = 32 ∨ (Rect.block (s := S800000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S800000x128.size a
  hwx2_0 : ∀ i : grid2.Coords, EltTy.bits .f32 = 32 ∨ (Rect.block (s := S800000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S800000x32.size a
  hwx2_1 : ∀ i : grid2.Coords, EltTy.bits .f32 = 32 ∨ (Rect.block (s := S800000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S800000x64.size a
  hwx2_5 : ∀ i : grid2.Coords, EltTy.bits .f32 = 32 ∨ (Rect.block (s := S800000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v23) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S96x128 : Shape := ⟨2, ![96, 128]⟩
abbrev S128 : Shape := ⟨1, ![128]⟩
abbrev S192x128 : Shape := ⟨2, ![192, 128]⟩
abbrev S160x64 : Shape := ⟨2, ![160, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S800000x128 : Shape := ⟨2, ![800000, 128]⟩
abbrev S1x128 : Shape := ⟨2, ![1, 128]⟩
abbrev S50000x128 : Shape := ⟨2, ![50000, 128]⟩
abbrev S50000x1 : Shape := ⟨2, ![50000, 1]⟩
abbrev S50000x192 : Shape := ⟨2, ![50000, 192]⟩
abbrev S800000x160 : Shape := ⟨2, ![800000, 160]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S96x128, .f32⟩
  | .hbm, ⟨4, _⟩ => ⟨S128, .f32⟩
  | .hbm, ⟨5, _⟩ => ⟨S192x128, .f32⟩
  | .hbm, ⟨6, _⟩ => ⟨S128, .f32⟩
  | .hbm, ⟨7, _⟩ => ⟨S160x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S800000x96, .f32⟩
  | .hbm, ⟨25, _⟩ => ⟨S800000x128, .f32⟩
  | .hbm, ⟨26, _⟩ => ⟨S1x128, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S_, .f32⟩
  | .hbm, ⟨34, _⟩ => ⟨S800000x1, .f32⟩
  | .hbm, ⟨35, _⟩ => ⟨S_, .f32⟩
  | .hbm, ⟨36, _⟩ => ⟨S50000x1, .f32⟩
  | .hbm, ⟨37, _⟩ => ⟨S800000x1, .i32⟩
  | .hbm, ⟨38, _⟩ => ⟨S50000x1, .f32⟩
  | .hbm, ⟨39, _⟩ => ⟨S_, .f32⟩
  | .hbm, ⟨40, _⟩ => ⟨S50000x1, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x192, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S800000x160, .f32⟩
  | .hbm, ⟨62, _⟩ => ⟨S800000x64, .f32⟩
  | .hbm, ⟨63, _⟩ => ⟨S1x64, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S_, .f32⟩
  | .hbm, ⟨71, _⟩ => ⟨S800000x1, .f32⟩
  | .hbm, ⟨72, _⟩ => ⟨S_, .f32⟩
  | .hbm, ⟨73, _⟩ => ⟨S50000x1, .f32⟩
  | .hbm, ⟨74, _⟩ => ⟨S800000x1, .i32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S50000x192, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000x64, .f32⟩
  | .hbm, ⟨88, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_cst : Ref sig .tc := ⟨.hbm, 49, rfl⟩
abbrev main_call0_v0 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  concatenates_S800000x128_S800000x32_S800000x160_d1 : Shape.Concatenates [S800000x128, S800000x32] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x128_S50000x64_S50000x192_d1 : Shape.Concatenates [S50000x128, S50000x64] S50000x192 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x96_S96x128_S800000x128_1_0_0_1_n_n_wf : DotDims.WF S800000x96 S96x128 S800000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x192_S192x128_S50000x128_1_0_0_1_n_n_wf : DotDims.WF S50000x192 S192x128 S50000x128 [1] [0] [0] [1] [] []
  gather_S50000x128_S800000x1_S800000x128_1_0_n_n_0_1_1128_wf : GatherDims.WF S50000x128 S800000x1 S800000x128 [1] [0] [] [0] [] 1 ![1, 128]
  dot_S800000x160_S160x64_S800000x64_1_0_0_1_n_n_wf : DotDims.WF S800000x160 S160x64 S800000x64 [1] [0] [0] [1] [] []
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x128_S800000x128_1_0_0_1_n_n : DotDims S800000x96 S96x128 S800000x128 where
  lhsContracting := [1]
  rhsContracting := [0]
  lhsNonContracting := [0]
  rhsNonContracting := [1]
  lhsBatch := []
  rhsBatch := []
  wf := dot_S800000x96_S96x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf

class Facts : Prop extends Facts₀ where

variable [Facts]
-- ==== Proof.RefRunHand.lean ====
/-
  The reference program's run, read back stage by stage.

  @main of the reference is a straight line of 78 host operations (the two calls of the rectifier stand inline as the
  three operations of its body). The line is cut into six stretches, with a cut before every concatenation, so that a
  concatenation's operands are always buffers held from the stretch before and never terms computed in its own stretch:

      ops_a   the edge list's two rows, the wrapped source indices, the first gather            (13 operations)
      ops_b   layer 1's message map, its scatter-add, the in-degree count, the mean            (20 operations)
      ops_c   layer 1's update map and rectifier, the wrapped indices again, the second gather (17 operations)
      ops_d   layer 2's message map and its scatter-add, the constants of the second count     (12 operations)
      ops_e   the second in-degree count and the mean                                           (8 operations)
      ops_g   layer 2's update map and rectifier                                                (8 operations)

  The first four stretches are @main's first window of statements, the last two its second window.

  For each stretch, from ANY contents `W` of the buffers before it: every buffer the stretch does not write keeps its
  contents, and every buffer a later stretch reads holds the stage function of the arguments (the `val_…` functions that
  name each operation's value), provided the buffers the stretch reads hold theirs. Composing the six stretches gives
  the contents after the whole line; the run theorem then says that every weakly fair execution terminates with the
  result buffer at the last stage of the arguments' launch contents and the arguments unchanged.
-/
import proofs.«418063_j82540681494777_1_alg».proof.Proof.ReadStages
import proofs.«418063_j82540681494777_1_alg».proof.Proof.Gen.ReferenceIdeal
import Idealize.ShloMosaic.Lib.StableHlo.Run
import Idealize.ShloMosaic.Lib.Pipeline.Frame
import Idealize.ShloMosaic.Lib.Pipeline.Regions

noncomputable section

namespace Cert.ReferenceIdeal.RunHand

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-! ## @main's operations, in order, cut before every concatenation -/

abbrev ops_a : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

abbrev ops_b : List (HloOp τ sig (Elt F)) :=
  [ binary main_v10 main_arg2 main_v11 ((fun a b => concatenate S800000x96 1 [⟨S800000x64, a⟩, ⟨S800000x32, b⟩] concatenates_S800000x64_S800000x32_S800000x96_d1) : (⟨S800000x64, .f32⟩ : BufTy).Contents (Elt F) → (⟨S800000x32, .f32⟩ : BufTy).Contents (Elt F) → (⟨S800000x96, .f32⟩ : BufTy).Contents (Elt F)),
    binary main_v11 main_arg3 main_v12 ((fun l r => Host.dotGeneral dot_S800000x96_S96x128_S800000x128_1_0_0_1_n_n none l r) : (⟨S800000x96, .f32⟩ : BufTy).Contents (Elt F) → (⟨S96x128, .f32⟩ : BufTy).Contents (Elt F) → (⟨S800000x128, .f32⟩ : BufTy).Contents (Elt F)),
    unary main_arg4 main_v13 (broadcastInDim S1x128 ![1] bcast_S128_S1x128_1 : (⟨S128, .f32⟩ : BufTy).Contents (Elt F) → (⟨S1x128, .f32⟩ : BufTy).Contents (Elt F)),
    unary main_v13 main_v14 (broadcastInDim S800000x128 ![0, 1] bcast_S1x128_S800000x128_0_1 : (⟨S1x128, .f32⟩ : BufTy).Contents (Elt F) → (⟨S800000x128, .f32⟩ : BufTy).Contents (Elt F)),
    binary main_v12 main_v14 main_v15 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v16 (broadcastInDim S50000x128 ![] bcast_S_S50000x128 : (⟨S_, .f32⟩ : BufTy).Contents (Elt F) → (⟨S50000x128, .f32⟩ : BufTy).Contents (Elt F)),
    unary main_v3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v19 (broadcastInDim S800000x1 ![] bcast_S_S800000x1 : (⟨S_, .f32⟩ : BufTy).Contents (Elt F) → (⟨S800000x1, .f32⟩ : BufTy).Contents (Elt F)),
    nullary main_cst_2 (constant S_ .f32 0x00000000#32),
    unary main_cst_2 main_v20 (broadcastInDim S50000x1 ![] bcast_S_S50000x1 : (⟨S_, .f32⟩ : BufTy).Contents (Elt F) → (⟨S50000x1, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_3 (constant S_ .f32 0x3F800000#32),
    unary main_cst_3 main_v23 (broadcastInDim S50000x1 ![] bcast_S_S50000x1 : (⟨S_, .f32⟩ : BufTy).Contents (Elt F) → (⟨S50000x1, .f32⟩ : BufTy).Contents (Elt F)),
    binary main_v22 main_v23 main_v24 (maximumf : (⟨S50000x1, .f32⟩ : BufTy).Contents (Elt F) → (⟨S50000x1, .f32⟩ : BufTy).Contents (Elt F) → (⟨S50000x1, .f32⟩ : BufTy).Contents (Elt F)),
    unary main_v24 main_v25 (broadcastInDim S50000x128 ![0, 1] bcast_S50000x1_S50000x128_0_1 : (⟨S50000x1, .f32⟩ : BufTy).Contents (Elt F) → (⟨S50000x128, .f32⟩ : BufTy).Contents (Elt F)),
    binary main_v18 main_v25 main_v26 (Host.divf : (⟨S50000x128, .f32⟩ : BufTy).Contents (Elt F) → (⟨S50000x128, .f32⟩ : BufTy).Contents (Elt F) → (⟨S50000x128, .f32⟩ : BufTy).Contents (Elt F)) ]

abbrev ops_c : List (HloOp τ sig (Elt F)) :=
  [ binary main_arg0 main_v26 main_v27 ((fun a b => concatenate S50000x192 1 [⟨S50000x64, a⟩, ⟨S50000x128, b⟩] concatenates_S50000x64_S50000x128_S50000x192_d1) : (⟨S50000x64, .f32⟩ : BufTy).Contents (Elt F) → (⟨S50000x128, .f32⟩ : BufTy).Contents (Elt F) → (⟨S50000x192, .f32⟩ : BufTy).Contents (Elt F)),
    binary main_v27 main_arg5 main_v28 ((fun l r => Host.dotGeneral dot_S50000x192_S192x128_S50000x128_1_0_0_1_n_n none l r) : (⟨S50000x192, .f32⟩ : BufTy).Contents (Elt F) → (⟨S192x128, .f32⟩ : BufTy).Contents (Elt F) → (⟨S50000x128, .f32⟩ : BufTy).Contents (Elt F)),
    unary main_arg6 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v28 main_v30 main_v31 (addf : (⟨S50000x128, .f32⟩ : BufTy).Contents (Elt F) → (⟨S50000x128, .f32⟩ : BufTy).Contents (Elt F) → (⟨S50000x128, .f32⟩ : BufTy).Contents (Elt F)),
    nullary main_call0_cst (constant S_ .f32 0x00000000#32),
    unary main_call0_cst main_call0_v0 (broadcastInDim S50000x128 ![] bcast_S_S50000x128 : (⟨S_, .f32⟩ : BufTy).Contents (Elt F) → (⟨S50000x128, .f32⟩ : BufTy).Contents (Elt F)),
    binary main_v31 main_call0_v0 main_v32 (maximumf : (⟨S50000x128, .f32⟩ : BufTy).Contents (Elt F) → (⟨S50000x128, .f32⟩ : BufTy).Contents (Elt F) → (⟨S50000x128, .f32⟩ : BufTy).Contents (Elt F)),
    nullary main_c_4 (constantI S_ 32 0#32),
    unary main_c_4 main_v33 (broadcastInDim S800000 ![] bcast_S_S800000 : (⟨S_, .i32⟩ : BufTy).Contents (Elt F) → (⟨S800000, .i32⟩ : BufTy).Contents (Elt F)),
    binary main_v1 main_v33 main_v34 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v35 (broadcastInDim S800000 ![] bcast_S_S800000 : (⟨S_, .i32⟩ : BufTy).Contents (Elt F) → (⟨S800000, .i32⟩ : BufTy).Contents (Elt F)),
    binary main_v1 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v32 main_v38 main_v39 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

abbrev ops_d : List (HloOp τ sig (Elt F)) :=
  [ binary main_v39 main_arg2 main_v40 ((fun a b => concatenate S800000x160 1 [⟨S800000x128, a⟩, ⟨S800000x32, b⟩] concatenates_S800000x128_S800000x32_S800000x160_d1) : (⟨S800000x128, .f32⟩ : BufTy).Contents (Elt F) → (⟨S800000x32, .f32⟩ : BufTy).Contents (Elt F) → (⟨S800000x160, .f32⟩ : BufTy).Contents (Elt F)),
    binary main_v40 main_arg7 main_v41 ((fun l r => Host.dotGeneral dot_S800000x160_S160x64_S800000x64_1_0_0_1_n_n none l r) : (⟨S800000x160, .f32⟩ : BufTy).Contents (Elt F) → (⟨S160x64, .f32⟩ : BufTy).Contents (Elt F) → (⟨S800000x64, .f32⟩ : BufTy).Contents (Elt F)),
    unary main_arg8 main_v42 (broadcastInDim S1x64 ![1] bcast_S64_S1x64_1 : (⟨S64, .f32⟩ : BufTy).Contents (Elt F) → (⟨S1x64, .f32⟩ : BufTy).Contents (Elt F)),
    unary main_v42 main_v43 (broadcastInDim S800000x64 ![0, 1] bcast_S1x64_S800000x64_0_1 : (⟨S1x64, .f32⟩ : BufTy).Contents (Elt F) → (⟨S800000x64, .f32⟩ : BufTy).Contents (Elt F)),
    binary main_v41 main_v43 main_v44 (addf : (⟨S800000x64, .f32⟩ : BufTy).Contents (Elt F) → (⟨S800000x64, .f32⟩ : BufTy).Contents (Elt F) → (⟨S800000x64, .f32⟩ : BufTy).Contents (Elt F)),
    nullary main_cst_6 (constant S_ .f32 0x00000000#32),
    unary main_cst_6 main_v45 (broadcastInDim S50000x64 ![] bcast_S_S50000x64 : (⟨S_, .f32⟩ : BufTy).Contents (Elt F) → (⟨S50000x64, .f32⟩ : BufTy).Contents (Elt F)),
    unary main_v3 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_7 (constant S_ .f32 0x3F800000#32),
    unary main_cst_7 main_v48 (broadcastInDim S800000x1 ![] bcast_S_S800000x1 : (⟨S_, .f32⟩ : BufTy).Contents (Elt F) → (⟨S800000x1, .f32⟩ : BufTy).Contents (Elt F)),
    nullary main_cst_8 (constant S_ .f32 0x00000000#32) ]

abbrev ops_e : List (HloOp τ sig (Elt F)) :=
  [ unary main_cst_8 main_v49 (broadcastInDim S50000x1 ![] bcast_S_S50000x1 : (⟨S_, .f32⟩ : BufTy).Contents (Elt F) → (⟨S50000x1, .f32⟩ : BufTy).Contents (Elt F)),
    unary main_v3 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_9 (constant S_ .f32 0x3F800000#32),
    unary main_cst_9 main_v52 (broadcastInDim S50000x1 ![] bcast_S_S50000x1 : (⟨S_, .f32⟩ : BufTy).Contents (Elt F) → (⟨S50000x1, .f32⟩ : BufTy).Contents (Elt F)),
    binary main_v51 main_v52 main_v53 (maximumf : (⟨S50000x1, .f32⟩ : BufTy).Contents (Elt F) → (⟨S50000x1, .f32⟩ : BufTy).Contents (Elt F) → (⟨S50000x1, .f32⟩ : BufTy).Contents (Elt F)),
    unary main_v53 main_v54 (broadcastInDim S50000x64 ![0, 1] bcast_S50000x1_S50000x64_0_1 : (⟨S50000x1, .f32⟩ : BufTy).Contents (Elt F) → (⟨S50000x64, .f32⟩ : BufTy).Contents (Elt F)),
    binary main_v47 main_v54 main_v55 (Host.divf : (⟨S50000x64, .f32⟩ : BufTy).Contents (Elt F) → (⟨S50000x64, .f32⟩ : BufTy).Contents (Elt F) → (⟨S50000x64, .f32⟩ : BufTy).Contents (Elt F)) ]

abbrev ops_g : List (HloOp τ sig (Elt F)) :=
  [ binary main_v32 main_v55 main_v56 ((fun a b => concatenate S50000x192 1 [⟨S50000x128, a⟩, ⟨S50000x64, b⟩] concatenates_S50000x128_S50000x64_S50000x192_d1) : (⟨S50000x128, .f32⟩ : BufTy).Contents (Elt F) → (⟨S50000x64, .f32⟩ : BufTy).Contents (Elt F) → (⟨S50000x192, .f32⟩ : BufTy).Contents (Elt F)),
    binary main_v56 main_arg9 main_v57 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    unary main_arg10 main_v58 (broadcastInDim S1x64 ![1] bcast_S64_S1x64_1 : (⟨S64, .f32⟩ : BufTy).Contents (Elt F) → (⟨S1x64, .f32⟩ : BufTy).Contents (Elt F)),
    unary main_v58 main_v59 (broadcastInDim S50000x64 ![0, 1] bcast_S1x64_S50000x64_0_1 : (⟨S1x64, .f32⟩ : BufTy).Contents (Elt F) → (⟨S50000x64, .f32⟩ : BufTy).Contents (Elt F)),
    binary main_v57 main_v59 main_v60 (addf : (⟨S50000x64, .f32⟩ : BufTy).Contents (Elt F) → (⟨S50000x64, .f32⟩ : BufTy).Contents (Elt F) → (⟨S50000x64, .f32⟩ : BufTy).Contents (Elt F)),
    nullary main_call1_cst (constant S_ .f32 0x00000000#32),
    unary main_call1_cst main_call1_v0 (broadcastInDim S50000x64 ![] bcast_S_S50000x64 : (⟨S_, .f32⟩ : BufTy).Contents (Elt F) → (⟨S50000x64, .f32⟩ : BufTy).Contents (Elt F)),
    binary main_v60 main_call1_v0 main_v61 (maximumf : (⟨S50000x64, .f32⟩ : BufTy).Contents (Elt F) → (⟨S50000x64, .f32⟩ : BufTy).Contents (Elt F) → (⟨S50000x64, .f32⟩ : BufTy).Contents (Elt F)) ]

/-! ## Every operation touches TensorCore buffers only, and determines its results -/

theorem ops_a_sub : (ops_a : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

theorem ops_b_sub : (ops_b : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩

theorem ops_c_sub : (ops_c : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops_d_sub : (ops_d : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub ..⟩

theorem ops_e_sub : (ops_e : List (HloOp τ sig (Elt F))).Forall fun op => op.bufs ⊆ tcRefs τ sig :=
  ⟨unary_bufs_sub .., unary_bufs_sub .., ternary_bufs_sub .., nullary_bufs_sub .., unary_bufs_sub .., binary_bufs_sub .., unary_bufs_sub .., binary_bufs_sub ..⟩

theorem ops_g_sub : (ops_g : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩

theorem ops_a_fresh : (ops_a : List (HloOp τ sig (Elt F))).Forall fun op => op.fresh = ∅ :=
  ⟨rfl, rfl, rfl, rfl, rfl, rfl, rfl, rfl, rfl, rfl, rfl, rfl, rfl⟩

theorem ops_b_fresh : (ops_b : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem ops_c_fresh : (ops_c : List (HloOp τ sig (Elt F))).Forall fun op => op.fresh = ∅ :=
  ⟨rfl, rfl, rfl, rfl, rfl, rfl, rfl, rfl, rfl, rfl, rfl, rfl, rfl, rfl, rfl, rfl, rfl⟩

theorem ops_d_fresh : (ops_d : List (HloOp τ sig (Elt F))).Forall fun op => op.fresh = ∅ :=
  ⟨rfl, rfl, rfl, rfl, rfl, rfl, rfl, rfl, rfl, rfl, rfl, rfl⟩

theorem ops_e_fresh : (ops_e : List (HloOp τ sig (Elt F))).Forall fun op => op.fresh = ∅ :=
  ⟨rfl, rfl, rfl, rfl, rfl, rfl, rfl, rfl⟩

theorem ops_g_fresh : (ops_g : List (HloOp τ sig (Elt F))).Forall fun op => op.fresh = ∅ :=
  ⟨rfl, rfl, rfl, rfl, rfl, rfl, rfl, rfl⟩

theorem scopedRefs_eq : (Finset.univ.filter fun b : Ref sig .tc => b.isScoped) = ∅ := by decide
theorem scopedSems_eq : (Finset.univ.filter fun sm : SemLoc sig => sm.isScoped .tc) = ∅ := by decide

/-! ## @main is its operations run in order -/

/-- All of @main's operations: the first window's, then the second's. -/
def ops : List (HloOp τ sig (Elt F)) := (ops_a ++ ops_b ++ ops_c ++ ops_d) ++ (ops_e ++ ops_g)

theorem part0_eq (c : Dev nD) : main_part0 (F := F) c = seq (ops_a ++ ops_b ++ ops_c ++ ops_d) := by chain_rfl
theorem part1_eq (c : Dev nD) : main_part1 (F := F) c = seq (ops_e ++ ops_g) := by chain_rfl

theorem main_eq (c : Dev nD) : main (F := F) c = seq ops := by
  unfold ops
  rw [seq_append, ← part0_eq c, ← part1_eq c]
  rfl

/-! ## What each stretch leaves in the buffers, from any contents `W` before it -/

/-- A written buffer holds the stretch's function of the buffers it reads. -/
macro "val_tac" : tactic => `(tactic| first | (after_results; done) | (after_results; rfl))

variable (W : Valuation τ sig (Elt F))
  (x0 : (⟨S50000x64, .f32⟩ : BufTy).Contents (Elt F))
  (x1 : (⟨S2x800000, .i32⟩ : BufTy).Contents (Elt F))
  (x2 : (⟨S800000x32, .f32⟩ : BufTy).Contents (Elt F))
  (x3 : (⟨S96x128, .f32⟩ : BufTy).Contents (Elt F))
  (x4 : (⟨S128, .f32⟩ : BufTy).Contents (Elt F))
  (x5 : (⟨S192x128, .f32⟩ : BufTy).Contents (Elt F))
  (x6 : (⟨S128, .f32⟩ : BufTy).Contents (Elt F))
  (x7 : (⟨S160x64, .f32⟩ : BufTy).Contents (Elt F))
  (x8 : (⟨S64, .f32⟩ : BufTy).Contents (Elt F))
  (x9 : (⟨S192x64, .f32⟩ : BufTy).Contents (Elt F))
  (x10 : (⟨S64, .f32⟩ : BufTy).Contents (Elt F))

/-! ### `ops_a` -/

/-- The buffers the operations of `ops_a` write. -/
abbrev ops_a_W : List (Ref sig .tc) := [main_v0, main_v1, main_v2, main_v3, main_c, main_v4, main_v5, main_c_0, main_v6, main_v7, main_v8, main_v9, main_v10]
theorem ops_a_writes : (ops_a : List (HloOp τ sig (Elt F))).Forall fun op => op.writes ⊆ (ops_a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `ops_a` does not write keeps its contents through it. -/
theorem a_keep (r : Ref sig .tc) (h : r ∉ ops_a_W) : after ops_a W (Proc.devRef .tc r) = W (Proc.devRef .tc r) :=
  after_of_writes_sub ops_a W ops_a_writes h

theorem a_v10 (h_arg0 : W (Proc.devRef .tc main_arg0) = x0) (h_arg1 : W (Proc.devRef .tc main_arg1) = x1) :
    after ops_a W (Proc.devRef .tc main_v10) = val_main_v10 (F := F) x0 x1 := by
  subst h_arg0 h_arg1
  unfold val_main_v10 val_main_v9 val_main_v8 val_main_v5 val_main_v1 val_main_v0 val_main_v4 val_main_c val_main_v7 val_main_v6 val_main_c_0
  val_tac

theorem a_v3 (h_arg1 : W (Proc.devRef .tc main_arg1) = x1) :
    after ops_a W (Proc.devRef .tc main_v3) = val_main_v3 (F := F) x1 := by
  subst h_arg1
  unfold val_main_v3 val_main_v2
  val_tac

theorem a_v1 (h_arg1 : W (Proc.devRef .tc main_arg1) = x1) :
    after ops_a W (Proc.devRef .tc main_v1) = val_main_v1 (F := F) x1 := by
  subst h_arg1
  unfold val_main_v1 val_main_v0
  val_tac

/-! ### `ops_b` -/

/-- The buffers the operations of `ops_b` write. -/
abbrev ops_b_W : List (Ref sig .tc) := [main_v11, main_v12, main_v13, main_v14, main_v15, main_cst, main_v16, main_v17, main_v18, main_cst_1, main_v19, main_cst_2, main_v20, main_v21, main_v22, main_cst_3, main_v23, main_v24, main_v25, main_v26]
theorem ops_b_writes : (ops_b : List (HloOp τ sig (Elt F))).Forall fun op => op.writes ⊆ (ops_b_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `ops_b` does not write keeps its contents through it. -/
theorem b_keep (r : Ref sig .tc) (h : r ∉ ops_b_W) : after ops_b W (Proc.devRef .tc r) = W (Proc.devRef .tc r) :=
  after_of_writes_sub ops_b W ops_b_writes h

theorem b_v26 (h_v3 : W (Proc.devRef .tc main_v3) = val_main_v3 (F := F) x1) (h_v10 : W (Proc.devRef .tc main_v10) = val_main_v10 (F := F) x0 x1) (h_arg2 : W (Proc.devRef .tc main_arg2) = x2) (h_arg3 : W (Proc.devRef .tc main_arg3) = x3) (h_arg4 : W (Proc.devRef .tc main_arg4) = x4) :
    after ops_b W (Proc.devRef .tc main_v26) = val_main_v26 (F := F) x0 x1 x2 x3 x4 := by
  subst h_arg2 h_arg3 h_arg4
  unfold val_main_v26 val_main_v18 val_main_v16 val_main_cst val_main_v17 val_main_v15 val_main_v12 val_main_v11 val_main_v14 val_main_v13 val_main_v25 val_main_v24 val_main_v22 val_main_v20 val_main_cst_2 val_main_v21 val_main_v19 val_main_cst_1 val_main_v23 val_main_cst_3
  rw [← h_v3, ← h_v10]
  val_tac

/-! ### `ops_c` -/

/-- The buffers the operations of `ops_c` write. -/
abbrev ops_c_W : List (Ref sig .tc) := [main_v27, main_v28, main_v29, main_v30, main_v31, main_call0_cst, main_call0_v0, main_v32, main_c_4, main_v33, main_v34, main_c_5, main_v35, main_v36, main_v37, main_v38, main_v39]
theorem ops_c_writes : (ops_c : List (HloOp τ sig (Elt F))).Forall fun op => op.writes ⊆ (ops_c_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `ops_c` does not write keeps its contents through it. -/
theorem c_keep (r : Ref sig .tc) (h : r ∉ ops_c_W) : after ops_c W (Proc.devRef .tc r) = W (Proc.devRef .tc r) :=
  after_of_writes_sub ops_c W ops_c_writes h

theorem c_v39 (h_arg0 : W (Proc.devRef .tc main_arg0) = x0) (h_v26 : W (Proc.devRef .tc main_v26) = val_main_v26 (F := F) x0 x1 x2 x3 x4) (h_arg5 : W (Proc.devRef .tc main_arg5) = x5) (h_arg6 : W (Proc.devRef .tc main_arg6) = x6) (h_v1 : W (Proc.devRef .tc main_v1) = val_main_v1 (F := F) x1) :
    after ops_c W (Proc.devRef .tc main_v39) = val_main_v39 (F := F) x0 x1 x2 x3 x4 x5 x6 := by
  subst h_arg0 h_arg5 h_arg6
  unfold val_main_v39 val_main_v32 val_main_v31 val_main_v28 val_main_v27 val_main_v30 val_main_v29 val_main_call0_v0 val_main_call0_cst val_main_v38 val_main_v37 val_main_v34 val_main_v33 val_main_c_4 val_main_v36 val_main_v35 val_main_c_5
  rw [← h_v26, ← h_v1]
  val_tac

theorem c_v32 (h_arg0 : W (Proc.devRef .tc main_arg0) = x0) (h_v26 : W (Proc.devRef .tc main_v26) = val_main_v26 (F := F) x0 x1 x2 x3 x4) (h_arg5 : W (Proc.devRef .tc main_arg5) = x5) (h_arg6 : W (Proc.devRef .tc main_arg6) = x6) :
    after ops_c W (Proc.devRef .tc main_v32) = val_main_v32 (F := F) x0 x1 x2 x3 x4 x5 x6 := by
  subst h_arg0 h_arg5 h_arg6
  unfold val_main_v32 val_main_v31 val_main_v28 val_main_v27 val_main_v30 val_main_v29 val_main_call0_v0 val_main_call0_cst
  rw [← h_v26]
  val_tac

/-! ### `ops_d` -/

/-- The buffers the operations of `ops_d` write. -/
abbrev ops_d_W : List (Ref sig .tc) := [main_v40, main_v41, main_v42, main_v43, main_v44, main_cst_6, main_v45, main_v46, main_v47, main_cst_7, main_v48, main_cst_8]
theorem ops_d_writes : (ops_d : List (HloOp τ sig (Elt F))).Forall fun op => op.writes ⊆ (ops_d_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `ops_d` does not write keeps its contents through it. -/
theorem d_keep (r : Ref sig .tc) (h : r ∉ ops_d_W) : after ops_d W (Proc.devRef .tc r) = W (Proc.devRef .tc r) :=
  after_of_writes_sub ops_d W ops_d_writes h

theorem d_cst_8  :
    after ops_d W (Proc.devRef .tc main_cst_8) = val_main_cst_8 (F := F) := by
  unfold val_main_cst_8
  val_tac

theorem d_v48  :
    after ops_d W (Proc.devRef .tc main_v48) = val_main_v48 (F := F) := by
  unfold val_main_v48 val_main_cst_7
  val_tac

theorem d_v47 (h_v3 : W (Proc.devRef .tc main_v3) = val_main_v3 (F := F) x1) (h_v39 : W (Proc.devRef .tc main_v39) = val_main_v39 (F := F) x0 x1 x2 x3 x4 x5 x6) (h_arg2 : W (Proc.devRef .tc main_arg2) = x2) (h_arg7 : W (Proc.devRef .tc main_arg7) = x7) (h_arg8 : W (Proc.devRef .tc main_arg8) = x8) :
    after ops_d W (Proc.devRef .tc main_v47) = val_main_v47 (F := F) x0 x1 x2 x3 x4 x5 x6 x7 x8 := by
  subst h_arg2 h_arg7 h_arg8
  unfold val_main_v47 val_main_v45 val_main_cst_6 val_main_v46 val_main_v44 val_main_v41 val_main_v40 val_main_v43 val_main_v42
  rw [← h_v3, ← h_v39]
  val_tac

/-! ### `ops_e` -/

/-- The buffers the operations of `ops_e` write. -/
abbrev ops_e_W : List (Ref sig .tc) := [main_v49, main_v50, main_v51, main_cst_9, main_v52, main_v53, main_v54, main_v55]
theorem ops_e_writes : (ops_e : List (HloOp τ sig (Elt F))).Forall fun op => op.writes ⊆ (ops_e_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `ops_e` does not write keeps its contents through it. -/
theorem e_keep (r : Ref sig .tc) (h : r ∉ ops_e_W) : after ops_e W (Proc.devRef .tc r) = W (Proc.devRef .tc r) :=
  after_of_writes_sub ops_e W ops_e_writes h

theorem e_v55 (h_v47 : W (Proc.devRef .tc main_v47) = val_main_v47 (F := F) x0 x1 x2 x3 x4 x5 x6 x7 x8) (h_cst_8 : W (Proc.devRef .tc main_cst_8) = val_main_cst_8 (F := F)) (h_v3 : W (Proc.devRef .tc main_v3) = val_main_v3 (F := F) x1) (h_v48 : W (Proc.devRef .tc main_v48) = val_main_v48 (F := F)) :
    after ops_e W (Proc.devRef .tc main_v55) = val_main_v55 (F := F) x0 x1 x2 x3 x4 x5 x6 x7 x8 := by
  unfold val_main_v55 val_main_v54 val_main_v53 val_main_v51 val_main_v49 val_main_v50 val_main_v52 val_main_cst_9
  rw [← h_v47, ← h_cst_8, ← h_v3, ← h_v48]
  val_tac

/-! ### `ops_g` -/

/-- The buffers the operations of `ops_g` write. -/
abbrev ops_g_W : List (Ref sig .tc) := [main_v56, main_v57, main_v58, main_v59, main_v60, main_call1_cst, main_call1_v0, main_v61]
theorem ops_g_writes : (ops_g : List (HloOp τ sig (Elt F))).Forall fun op => op.writes ⊆ (ops_g_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `ops_g` does not write keeps its contents through it. -/
theorem g_keep (r : Ref sig .tc) (h : r ∉ ops_g_W) : after ops_g W (Proc.devRef .tc r) = W (Proc.devRef .tc r) :=
  after_of_writes_sub ops_g W ops_g_writes h

theorem g_v61 (h_v32 : W (Proc.devRef .tc main_v32) = val_main_v32 (F := F) x0 x1 x2 x3 x4 x5 x6) (h_v55 : W (Proc.devRef .tc main_v55) = val_main_v55 (F := F) x0 x1 x2 x3 x4 x5 x6 x7 x8) (h_arg9 : W (Proc.devRef .tc main_arg9) = x9) (h_arg10 : W (Proc.devRef .tc main_arg10) = x10) :
    after ops_g W (Proc.devRef .tc main_v61) = val_main_v61 (F := F) x0 x1 x2 x3 x4 x5 x6 x7 x8 x9 x10 := by
  subst h_arg9 h_arg10
  unfold val_main_v61 val_main_v60 val_main_v57 val_main_v56 val_main_v59 val_main_v58 val_main_call1_v0 val_main_call1_cst
  rw [← h_v32, ← h_v55]
  val_tac

/-! ## All of @main -/

theorem ops_sub : (ops : List (HloOp τ sig (Elt F))).Forall fun op => op.bufs ⊆ tcRefs τ sig :=
  List.forall_iff_forall_mem.mpr fun op h => by
    simp only [ops, List.mem_append] at h
    rcases h with (((h | h) | h) | h) | (h | h)
    exacts [List.forall_iff_forall_mem.mp ops_a_sub op h, List.forall_iff_forall_mem.mp ops_b_sub op h, List.forall_iff_forall_mem.mp ops_c_sub op h,
      List.forall_iff_forall_mem.mp ops_d_sub op h, List.forall_iff_forall_mem.mp ops_e_sub op h, List.forall_iff_forall_mem.mp ops_g_sub op h]

theorem ops_fresh : ∀ op ∈ (ops : List (HloOp τ sig (Elt F))), op.fresh = ∅ := fun op h => by
  simp only [ops, List.mem_append] at h
  rcases h with (((h | h) | h) | h) | (h | h)
  exacts [List.forall_iff_forall_mem.mp ops_a_fresh op h, List.forall_iff_forall_mem.mp ops_b_fresh op h, List.forall_iff_forall_mem.mp ops_c_fresh op h,
    List.forall_iff_forall_mem.mp ops_d_fresh op h, List.forall_iff_forall_mem.mp ops_e_fresh op h, List.forall_iff_forall_mem.mp ops_g_fresh op h]

/-- What every buffer read later, and the result, hold after all of @main's operations, from any contents `V0`. -/
theorem after_ops (V0 : Valuation τ sig (Elt F)) :
    after ops V0 (Proc.devRef .tc main_v61) = val_main_v61 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))
      ∧ after ops V0 (Proc.devRef .tc main_arg0) = V0 (Proc.devRef .tc main_arg0)
      ∧ after ops V0 (Proc.devRef .tc main_arg1) = V0 (Proc.devRef .tc main_arg1)
      ∧ after ops V0 (Proc.devRef .tc main_arg2) = V0 (Proc.devRef .tc main_arg2)
      ∧ after ops V0 (Proc.devRef .tc main_arg3) = V0 (Proc.devRef .tc main_arg3)
      ∧ after ops V0 (Proc.devRef .tc main_arg4) = V0 (Proc.devRef .tc main_arg4)
      ∧ after ops V0 (Proc.devRef .tc main_arg5) = V0 (Proc.devRef .tc main_arg5)
      ∧ after ops V0 (Proc.devRef .tc main_arg6) = V0 (Proc.devRef .tc main_arg6)
      ∧ after ops V0 (Proc.devRef .tc main_arg7) = V0 (Proc.devRef .tc main_arg7)
      ∧ after ops V0 (Proc.devRef .tc main_arg8) = V0 (Proc.devRef .tc main_arg8)
      ∧ after ops V0 (Proc.devRef .tc main_arg9) = V0 (Proc.devRef .tc main_arg9)
      ∧ after ops V0 (Proc.devRef .tc main_arg10) = V0 (Proc.devRef .tc main_arg10) := by
  unfold ops
  simp only [StableHlo.after_append]
  -- after `ops_a`
  have h1_arg0 : (after ops_a V0) (Proc.devRef .tc main_arg0) = (V0 (Proc.devRef .tc main_arg0)) := (a_keep V0 main_arg0 (by decide))
  have h1_arg1 : (after ops_a V0) (Proc.devRef .tc main_arg1) = (V0 (Proc.devRef .tc main_arg1)) := (a_keep V0 main_arg1 (by decide))
  have h1_arg2 : (after ops_a V0) (Proc.devRef .tc main_arg2) = (V0 (Proc.devRef .tc main_arg2)) := (a_keep V0 main_arg2 (by decide))
  have h1_arg3 : (after ops_a V0) (Proc.devRef .tc main_arg3) = (V0 (Proc.devRef .tc main_arg3)) := (a_keep V0 main_arg3 (by decide))
  have h1_arg4 : (after ops_a V0) (Proc.devRef .tc main_arg4) = (V0 (Proc.devRef .tc main_arg4)) := (a_keep V0 main_arg4 (by decide))
  have h1_arg5 : (after ops_a V0) (Proc.devRef .tc main_arg5) = (V0 (Proc.devRef .tc main_arg5)) := (a_keep V0 main_arg5 (by decide))
  have h1_arg6 : (after ops_a V0) (Proc.devRef .tc main_arg6) = (V0 (Proc.devRef .tc main_arg6)) := (a_keep V0 main_arg6 (by decide))
  have h1_arg7 : (after ops_a V0) (Proc.devRef .tc main_arg7) = (V0 (Proc.devRef .tc main_arg7)) := (a_keep V0 main_arg7 (by decide))
  have h1_arg8 : (after ops_a V0) (Proc.devRef .tc main_arg8) = (V0 (Proc.devRef .tc main_arg8)) := (a_keep V0 main_arg8 (by decide))
  have h1_arg9 : (after ops_a V0) (Proc.devRef .tc main_arg9) = (V0 (Proc.devRef .tc main_arg9)) := (a_keep V0 main_arg9 (by decide))
  have h1_arg10 : (after ops_a V0) (Proc.devRef .tc main_arg10) = (V0 (Proc.devRef .tc main_arg10)) := (a_keep V0 main_arg10 (by decide))
  have h1_v10 : (after ops_a V0) (Proc.devRef .tc main_v10) = val_main_v10 (F := F) (V0 (Proc.devRef .tc main_arg0)) (V0 (Proc.devRef .tc main_arg1)) := a_v10 V0 _ _ rfl rfl
  have h1_v3 : (after ops_a V0) (Proc.devRef .tc main_v3) = val_main_v3 (F := F) (V0 (Proc.devRef .tc main_arg1)) := a_v3 V0 _ rfl
  have h1_v1 : (after ops_a V0) (Proc.devRef .tc main_v1) = val_main_v1 (F := F) (V0 (Proc.devRef .tc main_arg1)) := a_v1 V0 _ rfl
  -- after `ops_b`
  have h2_arg0 : (after ops_b (after ops_a V0)) (Proc.devRef .tc main_arg0) = (V0 (Proc.devRef .tc main_arg0)) := (b_keep (after ops_a V0) main_arg0 (by decide)).trans h1_arg0
  have h2_arg1 : (after ops_b (after ops_a V0)) (Proc.devRef .tc main_arg1) = (V0 (Proc.devRef .tc main_arg1)) := (b_keep (after ops_a V0) main_arg1 (by decide)).trans h1_arg1
  have h2_arg2 : (after ops_b (after ops_a V0)) (Proc.devRef .tc main_arg2) = (V0 (Proc.devRef .tc main_arg2)) := (b_keep (after ops_a V0) main_arg2 (by decide)).trans h1_arg2
  have h2_arg3 : (after ops_b (after ops_a V0)) (Proc.devRef .tc main_arg3) = (V0 (Proc.devRef .tc main_arg3)) := (b_keep (after ops_a V0) main_arg3 (by decide)).trans h1_arg3
  have h2_arg4 : (after ops_b (after ops_a V0)) (Proc.devRef .tc main_arg4) = (V0 (Proc.devRef .tc main_arg4)) := (b_keep (after ops_a V0) main_arg4 (by decide)).trans h1_arg4
  have h2_arg5 : (after ops_b (after ops_a V0)) (Proc.devRef .tc main_arg5) = (V0 (Proc.devRef .tc main_arg5)) := (b_keep (after ops_a V0) main_arg5 (by decide)).trans h1_arg5
  have h2_arg6 : (after ops_b (after ops_a V0)) (Proc.devRef .tc main_arg6) = (V0 (Proc.devRef .tc main_arg6)) := (b_keep (after ops_a V0) main_arg6 (by decide)).trans h1_arg6
  have h2_arg7 : (after ops_b (after ops_a V0)) (Proc.devRef .tc main_arg7) = (V0 (Proc.devRef .tc main_arg7)) := (b_keep (after ops_a V0) main_arg7 (by decide)).trans h1_arg7
  have h2_arg8 : (after ops_b (after ops_a V0)) (Proc.devRef .tc main_arg8) = (V0 (Proc.devRef .tc main_arg8)) := (b_keep (after ops_a V0) main_arg8 (by decide)).trans h1_arg8
  have h2_arg9 : (after ops_b (after ops_a V0)) (Proc.devRef .tc main_arg9) = (V0 (Proc.devRef .tc main_arg9)) := (b_keep (after ops_a V0) main_arg9 (by decide)).trans h1_arg9
  have h2_arg10 : (after ops_b (after ops_a V0)) (Proc.devRef .tc main_arg10) = (V0 (Proc.devRef .tc main_arg10)) := (b_keep (after ops_a V0) main_arg10 (by decide)).trans h1_arg10
  have h2_v1 : (after ops_b (after ops_a V0)) (Proc.devRef .tc main_v1) = val_main_v1 (F := F) (V0 (Proc.devRef .tc main_arg1)) := (b_keep (after ops_a V0) main_v1 (by decide)).trans h1_v1
  have h2_v3 : (after ops_b (after ops_a V0)) (Proc.devRef .tc main_v3) = val_main_v3 (F := F) (V0 (Proc.devRef .tc main_arg1)) := (b_keep (after ops_a V0) main_v3 (by decide)).trans h1_v3
  have h2_v26 : (after ops_b (after ops_a V0)) (Proc.devRef .tc main_v26) = val_main_v26 (F := F) (V0 (Proc.devRef .tc main_arg0)) (V0 (Proc.devRef .tc main_arg1)) (V0 (Proc.devRef .tc main_arg2)) (V0 (Proc.devRef .tc main_arg3)) (V0 (Proc.devRef .tc main_arg4)) := b_v26 (after ops_a V0) _ _ _ _ _ h1_v3 h1_v10 h1_arg2 h1_arg3 h1_arg4
  -- after `ops_c`
  have h3_arg0 : (after ops_c (after ops_b (after ops_a V0))) (Proc.devRef .tc main_arg0) = (V0 (Proc.devRef .tc main_arg0)) := (c_keep (after ops_b (after ops_a V0)) main_arg0 (by decide)).trans h2_arg0
  have h3_arg1 : (after ops_c (after ops_b (after ops_a V0))) (Proc.devRef .tc main_arg1) = (V0 (Proc.devRef .tc main_arg1)) := (c_keep (after ops_b (after ops_a V0)) main_arg1 (by decide)).trans h2_arg1
  have h3_arg2 : (after ops_c (after ops_b (after ops_a V0))) (Proc.devRef .tc main_arg2) = (V0 (Proc.devRef .tc main_arg2)) := (c_keep (after ops_b (after ops_a V0)) main_arg2 (by decide)).trans h2_arg2
  have h3_arg3 : (after ops_c (after ops_b (after ops_a V0))) (Proc.devRef .tc main_arg3) = (V0 (Proc.devRef .tc main_arg3)) := (c_keep (after ops_b (after ops_a V0)) main_arg3 (by decide)).trans h2_arg3
  have h3_arg4 : (after ops_c (after ops_b (after ops_a V0))) (Proc.devRef .tc main_arg4) = (V0 (Proc.devRef .tc main_arg4)) := (c_keep (after ops_b (after ops_a V0)) main_arg4 (by decide)).trans h2_arg4
  have h3_arg5 : (after ops_c (after ops_b (after ops_a V0))) (Proc.devRef .tc main_arg5) = (V0 (Proc.devRef .tc main_arg5)) := (c_keep (after ops_b (after ops_a V0)) main_arg5 (by decide)).trans h2_arg5
  have h3_arg6 : (after ops_c (after ops_b (after ops_a V0))) (Proc.devRef .tc main_arg6) = (V0 (Proc.devRef .tc main_arg6)) := (c_keep (after ops_b (after ops_a V0)) main_arg6 (by decide)).trans h2_arg6
  have h3_arg7 : (after ops_c (after ops_b (after ops_a V0))) (Proc.devRef .tc main_arg7) = (V0 (Proc.devRef .tc main_arg7)) := (c_keep (after ops_b (after ops_a V0)) main_arg7 (by decide)).trans h2_arg7
  have h3_arg8 : (after ops_c (after ops_b (after ops_a V0))) (Proc.devRef .tc main_arg8) = (V0 (Proc.devRef .tc main_arg8)) := (c_keep (after ops_b (after ops_a V0)) main_arg8 (by decide)).trans h2_arg8
  have h3_arg9 : (after ops_c (after ops_b (after ops_a V0))) (Proc.devRef .tc main_arg9) = (V0 (Proc.devRef .tc main_arg9)) := (c_keep (after ops_b (after ops_a V0)) main_arg9 (by decide)).trans h2_arg9
  have h3_arg10 : (after ops_c (after ops_b (after ops_a V0))) (Proc.devRef .tc main_arg10) = (V0 (Proc.devRef .tc main_arg10)) := (c_keep (after ops_b (after ops_a V0)) main_arg10 (by decide)).trans h2_arg10
  have h3_v3 : (after ops_c (after ops_b (after ops_a V0))) (Proc.devRef .tc main_v3) = val_main_v3 (F := F) (V0 (Proc.devRef .tc main_arg1)) := (c_keep (after ops_b (after ops_a V0)) main_v3 (by decide)).trans h2_v3
  have h3_v39 : (after ops_c (after ops_b (after ops_a V0))) (Proc.devRef .tc main_v39) = val_main_v39 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := c_v39 (after ops_b (after ops_a V0)) _ _ _ _ _ _ _ h2_arg0 h2_v26 h2_arg5 h2_arg6 h2_v1
  have h3_v32 : (after ops_c (after ops_b (after ops_a V0))) (Proc.devRef .tc main_v32) = val_main_v32 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := c_v32 (after ops_b (after ops_a V0)) _ _ _ _ _ _ _ h2_arg0 h2_v26 h2_arg5 h2_arg6
  -- after `ops_d`
  have h4_arg0 : (after ops_d (after ops_c (after ops_b (after ops_a V0)))) (Proc.devRef .tc main_arg0) = (V0 (Proc.devRef .tc main_arg0)) := (d_keep (after ops_c (after ops_b (after ops_a V0))) main_arg0 (by decide)).trans h3_arg0
  have h4_arg1 : (after ops_d (after ops_c (after ops_b (after ops_a V0)))) (Proc.devRef .tc main_arg1) = (V0 (Proc.devRef .tc main_arg1)) := (d_keep (after ops_c (after ops_b (after ops_a V0))) main_arg1 (by decide)).trans h3_arg1
  have h4_arg2 : (after ops_d (after ops_c (after ops_b (after ops_a V0)))) (Proc.devRef .tc main_arg2) = (V0 (Proc.devRef .tc main_arg2)) := (d_keep (after ops_c (after ops_b (after ops_a V0))) main_arg2 (by decide)).trans h3_arg2
  have h4_arg3 : (after ops_d (after ops_c (after ops_b (after ops_a V0)))) (Proc.devRef .tc main_arg3) = (V0 (Proc.devRef .tc main_arg3)) := (d_keep (after ops_c (after ops_b (after ops_a V0))) main_arg3 (by decide)).trans h3_arg3
  have h4_arg4 : (after ops_d (after ops_c (after ops_b (after ops_a V0)))) (Proc.devRef .tc main_arg4) = (V0 (Proc.devRef .tc main_arg4)) := (d_keep (after ops_c (after ops_b (after ops_a V0))) main_arg4 (by decide)).trans h3_arg4
  have h4_arg5 : (after ops_d (after ops_c (after ops_b (after ops_a V0)))) (Proc.devRef .tc main_arg5) = (V0 (Proc.devRef .tc main_arg5)) := (d_keep (after ops_c (after ops_b (after ops_a V0))) main_arg5 (by decide)).trans h3_arg5
  have h4_arg6 : (after ops_d (after ops_c (after ops_b (after ops_a V0)))) (Proc.devRef .tc main_arg6) = (V0 (Proc.devRef .tc main_arg6)) := (d_keep (after ops_c (after ops_b (after ops_a V0))) main_arg6 (by decide)).trans h3_arg6
  have h4_arg7 : (after ops_d (after ops_c (after ops_b (after ops_a V0)))) (Proc.devRef .tc main_arg7) = (V0 (Proc.devRef .tc main_arg7)) := (d_keep (after ops_c (after ops_b (after ops_a V0))) main_arg7 (by decide)).trans h3_arg7
  have h4_arg8 : (after ops_d (after ops_c (after ops_b (after ops_a V0)))) (Proc.devRef .tc main_arg8) = (V0 (Proc.devRef .tc main_arg8)) := (d_keep (after ops_c (after ops_b (after ops_a V0))) main_arg8 (by decide)).trans h3_arg8
  have h4_arg9 : (after ops_d (after ops_c (after ops_b (after ops_a V0)))) (Proc.devRef .tc main_arg9) = (V0 (Proc.devRef .tc main_arg9)) := (d_keep (after ops_c (after ops_b (after ops_a V0))) main_arg9 (by decide)).trans h3_arg9
  have h4_arg10 : (after ops_d (after ops_c (after ops_b (after ops_a V0)))) (Proc.devRef .tc main_arg10) = (V0 (Proc.devRef .tc main_arg10)) := (d_keep (after ops_c (after ops_b (after ops_a V0))) main_arg10 (by decide)).trans h3_arg10
  have h4_v3 : (after ops_d (after ops_c (after ops_b (after ops_a V0)))) (Proc.devRef .tc main_v3) = val_main_v3 (F := F) (V0 (Proc.devRef .tc main_arg1)) := (d_keep (after ops_c (after ops_b (after ops_a V0))) main_v3 (by decide)).trans h3_v3
  have h4_v32 : (after ops_d (after ops_c (after ops_b (after ops_a V0)))) (Proc.devRef .tc main_v32) = val_main_v32 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := (d_keep (after ops_c (after ops_b (after ops_a V0))) main_v32 (by decide)).trans h3_v32
  have h4_cst_8 : (after ops_d (after ops_c (after ops_b (after ops_a V0)))) (Proc.devRef .tc main_cst_8) = val_main_cst_8 (F := F) := d_cst_8 (after ops_c (after ops_b (after ops_a V0)))
  have h4_v48 : (after ops_d (after ops_c (after ops_b (after ops_a V0)))) (Proc.devRef .tc main_v48) = val_main_v48 (F := F) := d_v48 (after ops_c (after ops_b (after ops_a V0)))
  have h4_v47 : (after ops_d (after ops_c (after ops_b (after ops_a V0)))) (Proc.devRef .tc main_v47) = val_main_v47 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := d_v47 (after ops_c (after ops_b (after ops_a V0))) _ _ _ _ _ _ _ _ _ h3_v3 h3_v39 h3_arg2 h3_arg7 h3_arg8
  -- after `ops_e`
  have h5_arg0 : (after ops_e (after ops_d (after ops_c (after ops_b (after ops_a V0))))) (Proc.devRef .tc main_arg0) = (V0 (Proc.devRef .tc main_arg0)) := (e_keep (after ops_d (after ops_c (after ops_b (after ops_a V0)))) main_arg0 (by decide)).trans h4_arg0
  have h5_arg1 : (after ops_e (after ops_d (after ops_c (after ops_b (after ops_a V0))))) (Proc.devRef .tc main_arg1) = (V0 (Proc.devRef .tc main_arg1)) := (e_keep (after ops_d (after ops_c (after ops_b (after ops_a V0)))) main_arg1 (by decide)).trans h4_arg1
  have h5_arg2 : (after ops_e (after ops_d (after ops_c (after ops_b (after ops_a V0))))) (Proc.devRef .tc main_arg2) = (V0 (Proc.devRef .tc main_arg2)) := (e_keep (after ops_d (after ops_c (after ops_b (after ops_a V0)))) main_arg2 (by decide)).trans h4_arg2
  have h5_arg3 : (after ops_e (after ops_d (after ops_c (after ops_b (after ops_a V0))))) (Proc.devRef .tc main_arg3) = (V0 (Proc.devRef .tc main_arg3)) := (e_keep (after ops_d (after ops_c (after ops_b (after ops_a V0)))) main_arg3 (by decide)).trans h4_arg3
  have h5_arg4 : (after ops_e (after ops_d (after ops_c (after ops_b (after ops_a V0))))) (Proc.devRef .tc main_arg4) = (V0 (Proc.devRef .tc main_arg4)) := (e_keep (after ops_d (after ops_c (after ops_b (after ops_a V0)))) main_arg4 (by decide)).trans h4_arg4
  have h5_arg5 : (after ops_e (after ops_d (after ops_c (after ops_b (after ops_a V0))))) (Proc.devRef .tc main_arg5) = (V0 (Proc.devRef .tc main_arg5)) := (e_keep (after ops_d (after ops_c (after ops_b (after ops_a V0)))) main_arg5 (by decide)).trans h4_arg5
  have h5_arg6 : (after ops_e (after ops_d (after ops_c (after ops_b (after ops_a V0))))) (Proc.devRef .tc main_arg6) = (V0 (Proc.devRef .tc main_arg6)) := (e_keep (after ops_d (after ops_c (after ops_b (after ops_a V0)))) main_arg6 (by decide)).trans h4_arg6
  have h5_arg7 : (after ops_e (after ops_d (after ops_c (after ops_b (after ops_a V0))))) (Proc.devRef .tc main_arg7) = (V0 (Proc.devRef .tc main_arg7)) := (e_keep (after ops_d (after ops_c (after ops_b (after ops_a V0)))) main_arg7 (by decide)).trans h4_arg7
  have h5_arg8 : (after ops_e (after ops_d (after ops_c (after ops_b (after ops_a V0))))) (Proc.devRef .tc main_arg8) = (V0 (Proc.devRef .tc main_arg8)) := (e_keep (after ops_d (after ops_c (after ops_b (after ops_a V0)))) main_arg8 (by decide)).trans h4_arg8
  have h5_arg9 : (after ops_e (after ops_d (after ops_c (after ops_b (after ops_a V0))))) (Proc.devRef .tc main_arg9) = (V0 (Proc.devRef .tc main_arg9)) := (e_keep (after ops_d (after ops_c (after ops_b (after ops_a V0)))) main_arg9 (by decide)).trans h4_arg9
  have h5_arg10 : (after ops_e (after ops_d (after ops_c (after ops_b (after ops_a V0))))) (Proc.devRef .tc main_arg10) = (V0 (Proc.devRef .tc main_arg10)) := (e_keep (after ops_d (after ops_c (after ops_b (after ops_a V0)))) main_arg10 (by decide)).trans h4_arg10
  have h5_v32 : (after ops_e (after ops_d (after ops_c (after ops_b (after ops_a V0))))) (Proc.devRef .tc main_v32) = val_main_v32 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := (e_keep (after ops_d (after ops_c (after ops_b (after ops_a V0)))) main_v32 (by decide)).trans h4_v32
  have h5_v55 : (after ops_e (after ops_d (after ops_c (after ops_b (after ops_a V0))))) (Proc.devRef .tc main_v55) = val_main_v55 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := e_v55 (after ops_d (after ops_c (after ops_b (after ops_a V0)))) _ _ _ _ _ _ _ _ _ h4_v47 h4_cst_8 h4_v3 h4_v48
  -- after `ops_g`
  have h6_arg0 : (after ops_g (after ops_e (after ops_d (after ops_c (after ops_b (after ops_a V0)))))) (Proc.devRef .tc main_arg0) = (V0 (Proc.devRef .tc main_arg0)) := (g_keep (after ops_e (after ops_d (after ops_c (after ops_b (after ops_a V0))))) main_arg0 (by decide)).trans h5_arg0
  have h6_arg1 : (after ops_g (after ops_e (after ops_d (after ops_c (after ops_b (after ops_a V0)))))) (Proc.devRef .tc main_arg1) = (V0 (Proc.devRef .tc main_arg1)) := (g_keep (after ops_e (after ops_d (after ops_c (after ops_b (after ops_a V0))))) main_arg1 (by decide)).trans h5_arg1
  have h6_arg2 : (after ops_g (after ops_e (after ops_d (after ops_c (after ops_b (after ops_a V0)))))) (Proc.devRef .tc main_arg2) = (V0 (Proc.devRef .tc main_arg2)) := (g_keep (after ops_e (after ops_d (after ops_c (after ops_b (after ops_a V0))))) main_arg2 (by decide)).trans h5_arg2
  have h6_arg3 : (after ops_g (after ops_e (after ops_d (after ops_c (after ops_b (after ops_a V0)))))) (Proc.devRef .tc main_arg3) = (V0 (Proc.devRef .tc main_arg3)) := (g_keep (after ops_e (after ops_d (after ops_c (after ops_b (after ops_a V0))))) main_arg3 (by decide)).trans h5_arg3
  have h6_arg4 : (after ops_g (after ops_e (after ops_d (after ops_c (after ops_b (after ops_a V0)))))) (Proc.devRef .tc main_arg4) = (V0 (Proc.devRef .tc main_arg4)) := (g_keep (after ops_e (after ops_d (after ops_c (after ops_b (after ops_a V0))))) main_arg4 (by decide)).trans h5_arg4
  have h6_arg5 : (after ops_g (after ops_e (after ops_d (after ops_c (after ops_b (after ops_a V0)))))) (Proc.devRef .tc main_arg5) = (V0 (Proc.devRef .tc main_arg5)) := (g_keep (after ops_e (after ops_d (after ops_c (after ops_b (after ops_a V0))))) main_arg5 (by decide)).trans h5_arg5
  have h6_arg6 : (after ops_g (after ops_e (after ops_d (after ops_c (after ops_b (after ops_a V0)))))) (Proc.devRef .tc main_arg6) = (V0 (Proc.devRef .tc main_arg6)) := (g_keep (after ops_e (after ops_d (after ops_c (after ops_b (after ops_a V0))))) main_arg6 (by decide)).trans h5_arg6
  have h6_arg7 : (after ops_g (after ops_e (after ops_d (after ops_c (after ops_b (after ops_a V0)))))) (Proc.devRef .tc main_arg7) = (V0 (Proc.devRef .tc main_arg7)) := (g_keep (after ops_e (after ops_d (after ops_c (after ops_b (after ops_a V0))))) main_arg7 (by decide)).trans h5_arg7
  have h6_arg8 : (after ops_g (after ops_e (after ops_d (after ops_c (after ops_b (after ops_a V0)))))) (Proc.devRef .tc main_arg8) = (V0 (Proc.devRef .tc main_arg8)) := (g_keep (after ops_e (after ops_d (after ops_c (after ops_b (after ops_a V0))))) main_arg8 (by decide)).trans h5_arg8
  have h6_arg9 : (after ops_g (after ops_e (after ops_d (after ops_c (after ops_b (after ops_a V0)))))) (Proc.devRef .tc main_arg9) = (V0 (Proc.devRef .tc main_arg9)) := (g_keep (after ops_e (after ops_d (after ops_c (after ops_b (after ops_a V0))))) main_arg9 (by decide)).trans h5_arg9
  have h6_arg10 : (after ops_g (after ops_e (after ops_d (after ops_c (after ops_b (after ops_a V0)))))) (Proc.devRef .tc main_arg10) = (V0 (Proc.devRef .tc main_arg10)) := (g_keep (after ops_e (after ops_d (after ops_c (after ops_b (after ops_a V0))))) main_arg10 (by decide)).trans h5_arg10
  have h6_v61 : (after ops_g (after ops_e (after ops_d (after ops_c (after ops_b (after ops_a V0)))))) (Proc.devRef .tc main_v61) = val_main_v61 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := g_v61 (after ops_e (after ops_d (after ops_c (after ops_b (after ops_a V0))))) _ _ _ _ _ _ _ _ _ _ _ h5_v32 h5_v55 h5_arg9 h5_arg10
  exact ⟨h6_v61, h6_arg0, h6_arg1, h6_arg2, h6_arg3, h6_arg4, h6_arg5, h6_arg6, h6_arg7, h6_arg8, h6_arg9, h6_arg10⟩

/-- On every device, from any memory with zero counters: every weakly fair execution of @main terminates with the
    result buffer at the last stage of the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨e61, e0, e1, e2, e3, e4, e5, e6, e7, e8, e9, e10⟩ := after_ops (F := F) (launchContents m c)
      exact ⟨(h c main_v61).trans e61, (h c main_arg0).trans e0, (h c main_arg1).trans e1, (h c main_arg2).trans e2, (h c main_arg3).trans e3, (h c main_arg4).trans e4, (h c main_arg5).trans e5, (h c main_arg6).trans e6, (h c main_arg7).trans e7, (h c main_arg8).trans e8, (h c main_arg9).trans e9, (h c main_arg10).trans e10⟩)
    (run_seq scopedRefs_eq scopedSems_eq defs main (fun _ => ops) main_eq (fun _ => ops_sub) m ρ (fun _ => ops_fresh))

end Cert.ReferenceIdeal.RunHand

end
-- ==== Proof.HostDefs.lean ====
/-
  The host-side pieces of the kernel program between its four pallas_calls, as functions of arrays.

  `srcOf` / `dstOf` are rows 0 and 1 of the edge list.  `srcWrap` is the source row with a negative index moved up by the
  table's 50000 rows, as a column of start indices.  `take64` / `take128` gather whole rows of a [50000, ·] table at those
  indices and overwrite with the not-a-number pattern every row whose wrapped index falls outside [0, 49999]
  (`inRange` is that test, one bit a row).  `aggr128` / `aggr64` are the mean over incoming edges: the scatter-add of the
  edge messages into their destination rows, divided by the number of incoming edges or by 1 where there is none.
-/
import proofs.«418063_j82540681494777_1_alg».proof.Proof.Gen.KernelIdeal
import Idealize.ShloMosaic.PureOps.Ideal
import Idealize.ShloMosaic.Lib.ValueIdx

noncomputable section

namespace Cert.KernelIdeal.Host

open Cert.KernelIdeal Cert.KernelIdeal.Facts₀ Cert.KernelIdeal.Facts
open Idealize.ShloMosaic

variable {F : FTy → Type} [FloatOps F]

/-- Row 0 of the edge list: the source node of every edge. -/
def srcOf (x1 : IVec S2x800000 32) : IVec S800000 32 :=
  shapeCast S800000 (extractStridedSlice S1x800000 ![0, 0] x1 slices_S2x800000_S1x800000_0_0) shapeCasts_S1x800000_S800000

/-- Row 1 of the edge list: the destination node of every edge. -/
def dstOf (x1 : IVec S2x800000 32) : IVec S800000 32 :=
  shapeCast S800000 (extractStridedSlice S1x800000 ![1, 0] x1 slices_S2x800000_S1x800000_1_0) shapeCasts_S1x800000_S800000

/-- Every source index names a row of the 50000-row table, counting from the front (0 … 49999) or from the back
    (-50000 … -1): the domain on which indexing the table is defined. -/
def SrcOk (v : IVec S800000 32) : Prop :=
  ∀ e : Fin 800000, -50000 ≤ (v (ValueIdx.ix1 e)).toInt ∧ (v (ValueIdx.ix1 e)).toInt < 50000

/-- The source indices with a negative one moved up by 50000, as the [800000, 1] column of start indices a gather takes. -/
def srcWrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- One bit per edge: its start index lies in [0, 49999]. -/
def inRange (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Rows of a [50000, 64] table at the wrapped source indices; a row whose index is out of range is the not-a-number pattern. -/
def take64 (x : FVec F S50000x64 .f32) (v : IVec S800000 32) : FVec F S800000x64 .f32 :=
  select (broadcastInDim S800000x64 ![0] bcast_S800000_S800000x64_0 (inRange (srcWrap v)))
    (Host.gather gather_S50000x64_S800000x1_S800000x64_1_0_n_n_0_1_164 x (srcWrap v))
    (broadcastInDim S800000x64 ![] bcast_S_S800000x64 (constant S_ .f32 0x7FC00000#32))

/-- The same over a [50000, 128] table. -/
def take128 (x : FVec F S50000x128 .f32) (v : IVec S800000 32) : FVec F S800000x128 .f32 :=
  select (broadcastInDim S800000x128 ![0] bcast_S800000_S800000x128_0 (inRange (srcWrap v)))
    (Host.gather gather_S50000x128_S800000x1_S800000x128_1_0_n_n_0_1_1128 x (srcWrap v))
    (broadcastInDim S800000x128 ![] bcast_S_S800000x128 (constant S_ .f32 0x7FC00000#32))

/-- The number of edges arriving at each node, at least 1, as a [50000, 1] column. -/
def degree (d : IVec S800000 32) : FVec F S50000x1 .f32 :=
  maximumf
    (Host.scatterAdd scatter_S50000x1_S800000x1_S800000x1_1_0_0_1
      (broadcastInDim S50000x1 ![] bcast_S_S50000x1 (constant S_ .f32 0x00000000#32))
      (broadcastInDim S800000x1 ![0] bcast_S800000_S800000x1_0 d)
      (broadcastInDim S800000x1 ![] bcast_S_S800000x1 (constant S_ .f32 0x3F800000#32)))
    (broadcastInDim S50000x1 ![] bcast_S_S50000x1 (constant S_ .f32 0x3F800000#32))

/-- The mean of the 128-wide messages arriving at each node. -/
def aggr128 (msg : FVec F S800000x128 .f32) (d : IVec S800000 32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d) msg)
    (broadcastInDim S50000x128 ![0, 1] bcast_S50000x1_S50000x128_0_1 (degree d))

/-- The mean of the 64-wide messages arriving at each node. -/
def aggr64 (msg : FVec F S800000x64 .f32) (d : IVec S800000 32) : FVec F S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 d) msg)
    (broadcastInDim S50000x64 ![0, 1] bcast_S50000x1_S50000x64_0_1 (degree d))

end Cert.KernelIdeal.Host

end
-- ==== Proof.Stretch.lean ====
/-
  What each stretch of host operations of the kernel program leaves in the buffers the pallas_calls and the later
  stretches read, from ANY contents `W` of the buffers before the stretch: each written buffer as the stretch's function of
  the buffers it reads, every buffer the stretch does not write as it was.
-/
import proofs.«418063_j82540681494777_1_alg».proof.Proof.Gen.KernelIdeal.Frame
import proofs.«418063_j82540681494777_1_alg».proof.Proof.HostDefs
import Idealize.ShloMosaic.Lib.StableHlo.Run

set_option maxRecDepth 16384

noncomputable section

namespace Cert.KernelIdeal.Stretch

open Cert.KernelIdeal Cert.KernelIdeal.Gen Cert.KernelIdeal.Host
open Idealize.ShloMosaic Idealize.ShloMosaic.TcCoe Idealize.SL.Sem Idealize.ShloMosaic.StableHlo

/-- A buffer no operation of the stretch writes keeps its contents. -/
macro "keep_tac" : tactic => `(tactic| first | (after_results; done) | (after_results_simp; done) | (after_results_simp <;> rfl))
/-- A written buffer holds the stretch's function of the buffers it reads. -/
macro "val_tac" : tactic => `(tactic| first | (after_results; done) | (after_results; rfl))

variable {F : FTy → Type} [FloatOps F] (W : Valuation τ sig (Elt F))

/-- A value carried to a typed reference's buffer and back is the value. -/
theorem ofBuf_toBuf {T : BufTy} (x : TRef sig T) (v : T.Contents (Elt F)) : x.ofBuf (x.toBuf v) = v := by
  obtain ⟨r, h, h2, h3⟩ := x
  subst h
  rfl
/-- Carrying a value to the buffer of a reference whose type is the value's changes nothing … -/
theorem toBuf_lit {T : BufTy} (x : TRef sig T) (v : T.Contents (Elt F)) : HEq (x.toBuf v) v := cast_heq _ _
/-- … nor does carrying it from the buffer. -/
theorem ofBuf_lit {T : BufTy} (x : TRef sig T) (v : x.ref.ty.Contents (Elt F)) : HEq (x.ofBuf v) v := cast_heq _ _

/-! ## Before the first call: the edge list's two rows, the first message weights' two row blocks -/

theorem s0_v1 : after hostOps0 W (Proc.devRef .tc main_v1) = srcOf (W (Proc.devRef .tc main_arg1)) := by val_tac
theorem s0_v3 : after hostOps0 W (Proc.devRef .tc main_v3) = dstOf (W (Proc.devRef .tc main_arg1)) := by val_tac
theorem s0_v4 : after hostOps0 W (Proc.devRef .tc main_v4) = extractStridedSlice S64x128 ![0, 0] (W (Proc.devRef .tc main_arg3)) Facts₀.slices_S96x128_S64x128_0_0 := by val_tac
theorem s0_v5 : after hostOps0 W (Proc.devRef .tc main_v5) = extractStridedSlice S32x128 ![64, 0] (W (Proc.devRef .tc main_arg3)) Facts₀.slices_S96x128_S32x128_64_0 := by val_tac
theorem s0_arg0 : after hostOps0 W (Proc.devRef .tc main_arg0) = W (Proc.devRef .tc main_arg0) := by keep_tac
theorem s0_arg2 : after hostOps0 W (Proc.devRef .tc main_arg2) = W (Proc.devRef .tc main_arg2) := by keep_tac
theorem s0_arg3 : after hostOps0 W (Proc.devRef .tc main_arg3) = W (Proc.devRef .tc main_arg3) := by keep_tac
theorem s0_arg4 : after hostOps0 W (Proc.devRef .tc main_arg4) = W (Proc.devRef .tc main_arg4) := by keep_tac
theorem s0_arg5 : after hostOps0 W (Proc.devRef .tc main_arg5) = W (Proc.devRef .tc main_arg5) := by keep_tac
theorem s0_arg6 : after hostOps0 W (Proc.devRef .tc main_arg6) = W (Proc.devRef .tc main_arg6) := by keep_tac
theorem s0_arg7 : after hostOps0 W (Proc.devRef .tc main_arg7) = W (Proc.devRef .tc main_arg7) := by keep_tac
theorem s0_arg8 : after hostOps0 W (Proc.devRef .tc main_arg8) = W (Proc.devRef .tc main_arg8) := by keep_tac
theorem s0_arg9 : after hostOps0 W (Proc.devRef .tc main_arg9) = W (Proc.devRef .tc main_arg9) := by keep_tac
theorem s0_arg10 : after hostOps0 W (Proc.devRef .tc main_arg10) = W (Proc.devRef .tc main_arg10) := by keep_tac

/-! ## The first gather of source rows -/

set_option maxHeartbeats 8000000 in
theorem s01_v6_raw : after hostOps0_1 W (Proc.devRef .tc main_v6)
    = (TRef.of main_v6 : TRef sig ⟨S800000x64, .f32⟩).toBuf (take64 ((TRef.of main_arg0 : TRef sig ⟨S50000x64, .f32⟩).ofBuf (W (Proc.devRef .tc main_arg0))) ((TRef.of main_v1 : TRef sig ⟨S800000, .i32⟩).ofBuf (W (Proc.devRef .tc main_v1)))) := by
  unfold take64 inRange srcWrap
  after_results
  simp only [ofBuf_toBuf]

theorem s01_v6 : after hostOps0_1 W (Proc.devRef .tc main_v6) = take64 (W (Proc.devRef .tc main_arg0)) (W (Proc.devRef .tc main_v1)) := by
  refine (s01_v6_raw W).trans ?_
  refine (eq_of_heq (toBuf_lit (F := F) (TRef.of main_v6 : TRef sig ⟨S800000x64, .f32⟩) _)).trans ?_
  have e0 : (TRef.of main_arg0 : TRef sig ⟨S50000x64, .f32⟩).ofBuf (W (Proc.devRef .tc main_arg0)) = W (Proc.devRef .tc main_arg0) := eq_of_heq (ofBuf_lit _ _)
  have e1 : (TRef.of main_v1 : TRef sig ⟨S800000, .i32⟩).ofBuf (W (Proc.devRef .tc main_v1)) = W (Proc.devRef .tc main_v1) := eq_of_heq (ofBuf_lit _ _)
  rw [e0, e1]
theorem s01_v1 : after hostOps0_1 W (Proc.devRef .tc main_v1) = W (Proc.devRef .tc main_v1) := by keep_tac
theorem s01_v3 : after hostOps0_1 W (Proc.devRef .tc main_v3) = W (Proc.devRef .tc main_v3) := by keep_tac
theorem s01_v4 : after hostOps0_1 W (Proc.devRef .tc main_v4) = W (Proc.devRef .tc main_v4) := by keep_tac
theorem s01_v5 : after hostOps0_1 W (Proc.devRef .tc main_v5) = W (Proc.devRef .tc main_v5) := by keep_tac
theorem s01_arg0 : after hostOps0_1 W (Proc.devRef .tc main_arg0) = W (Proc.devRef .tc main_arg0) := by keep_tac
theorem s01_arg2 : after hostOps0_1 W (Proc.devRef .tc main_arg2) = W (Proc.devRef .tc main_arg2) := by keep_tac
theorem s01_arg3 : after hostOps0_1 W (Proc.devRef .tc main_arg3) = W (Proc.devRef .tc main_arg3) := by keep_tac
theorem s01_arg4 : after hostOps0_1 W (Proc.devRef .tc main_arg4) = W (Proc.devRef .tc main_arg4) := by keep_tac
theorem s01_arg5 : after hostOps0_1 W (Proc.devRef .tc main_arg5) = W (Proc.devRef .tc main_arg5) := by keep_tac
theorem s01_arg6 : after hostOps0_1 W (Proc.devRef .tc main_arg6) = W (Proc.devRef .tc main_arg6) := by keep_tac
theorem s01_arg7 : after hostOps0_1 W (Proc.devRef .tc main_arg7) = W (Proc.devRef .tc main_arg7) := by keep_tac
theorem s01_arg8 : after hostOps0_1 W (Proc.devRef .tc main_arg8) = W (Proc.devRef .tc main_arg8) := by keep_tac
theorem s01_arg9 : after hostOps0_1 W (Proc.devRef .tc main_arg9) = W (Proc.devRef .tc main_arg9) := by keep_tac
theorem s01_arg10 : after hostOps0_1 W (Proc.devRef .tc main_arg10) = W (Proc.devRef .tc main_arg10) := by keep_tac

/-! ## The first message bias as a row -/

theorem s02_v7 : after hostOps0_2 W (Proc.devRef .tc main_v7) = shapeCast S1x128 (W (Proc.devRef .tc main_arg4)) Facts₀.shapeCasts_S128_S1x128 := by val_tac
theorem s02_v1 : after hostOps0_2 W (Proc.devRef .tc main_v1) = W (Proc.devRef .tc main_v1) := by keep_tac
theorem s02_v3 : after hostOps0_2 W (Proc.devRef .tc main_v3) = W (Proc.devRef .tc main_v3) := by keep_tac
theorem s02_v4 : after hostOps0_2 W (Proc.devRef .tc main_v4) = W (Proc.devRef .tc main_v4) := by keep_tac
theorem s02_v5 : after hostOps0_2 W (Proc.devRef .tc main_v5) = W (Proc.devRef .tc main_v5) := by keep_tac
theorem s02_v6 : after hostOps0_2 W (Proc.devRef .tc main_v6) = W (Proc.devRef .tc main_v6) := by keep_tac
theorem s02_arg0 : after hostOps0_2 W (Proc.devRef .tc main_arg0) = W (Proc.devRef .tc main_arg0) := by keep_tac
theorem s02_arg2 : after hostOps0_2 W (Proc.devRef .tc main_arg2) = W (Proc.devRef .tc main_arg2) := by keep_tac
theorem s02_arg3 : after hostOps0_2 W (Proc.devRef .tc main_arg3) = W (Proc.devRef .tc main_arg3) := by keep_tac
theorem s02_arg4 : after hostOps0_2 W (Proc.devRef .tc main_arg4) = W (Proc.devRef .tc main_arg4) := by keep_tac
theorem s02_arg5 : after hostOps0_2 W (Proc.devRef .tc main_arg5) = W (Proc.devRef .tc main_arg5) := by keep_tac
theorem s02_arg6 : after hostOps0_2 W (Proc.devRef .tc main_arg6) = W (Proc.devRef .tc main_arg6) := by keep_tac
theorem s02_arg7 : after hostOps0_2 W (Proc.devRef .tc main_arg7) = W (Proc.devRef .tc main_arg7) := by keep_tac
theorem s02_arg8 : after hostOps0_2 W (Proc.devRef .tc main_arg8) = W (Proc.devRef .tc main_arg8) := by keep_tac
theorem s02_arg9 : after hostOps0_2 W (Proc.devRef .tc main_arg9) = W (Proc.devRef .tc main_arg9) := by keep_tac
theorem s02_arg10 : after hostOps0_2 W (Proc.devRef .tc main_arg10) = W (Proc.devRef .tc main_arg10) := by keep_tac

/-! ## Between the first message call and the first update call: the mean over incoming edges, the update weights' blocks -/

theorem s1_v19 : after hostOps1 W (Proc.devRef .tc main_v19) = aggr128 (W (Proc.devRef .tc main_v8)) (W (Proc.devRef .tc main_v3)) := by
  unfold aggr128 degree
  after_results
theorem s1_v20 : after hostOps1 W (Proc.devRef .tc main_v20) = extractStridedSlice S64x128 ![0, 0] (W (Proc.devRef .tc main_arg5)) Facts₀.slices_S192x128_S64x128_0_0 := by val_tac
theorem s1_v21 : after hostOps1 W (Proc.devRef .tc main_v21) = extractStridedSlice S128x128 ![64, 0] (W (Proc.devRef .tc main_arg5)) Facts₀.slices_S192x128_S128x128_64_0 := by val_tac
theorem s1_v22 : after hostOps1 W (Proc.devRef .tc main_v22) = shapeCast S1x128 (W (Proc.devRef .tc main_arg6)) Facts₀.shapeCasts_S128_S1x128 := by val_tac
theorem s1_v1 : after hostOps1 W (Proc.devRef .tc main_v1) = W (Proc.devRef .tc main_v1) := by keep_tac
theorem s1_v3 : after hostOps1 W (Proc.devRef .tc main_v3) = W (Proc.devRef .tc main_v3) := by keep_tac
theorem s1_arg0 : after hostOps1 W (Proc.devRef .tc main_arg0) = W (Proc.devRef .tc main_arg0) := by keep_tac
theorem s1_arg2 : after hostOps1 W (Proc.devRef .tc main_arg2) = W (Proc.devRef .tc main_arg2) := by keep_tac
theorem s1_arg7 : after hostOps1 W (Proc.devRef .tc main_arg7) = W (Proc.devRef .tc main_arg7) := by keep_tac
theorem s1_arg8 : after hostOps1 W (Proc.devRef .tc main_arg8) = W (Proc.devRef .tc main_arg8) := by keep_tac
theorem s1_arg9 : after hostOps1 W (Proc.devRef .tc main_arg9) = W (Proc.devRef .tc main_arg9) := by keep_tac
theorem s1_arg10 : after hostOps1 W (Proc.devRef .tc main_arg10) = W (Proc.devRef .tc main_arg10) := by keep_tac

/-! ## Before the second message call -/

theorem s2_v24 : after hostOps2 W (Proc.devRef .tc main_v24) = extractStridedSlice S128x64 ![0, 0] (W (Proc.devRef .tc main_arg7)) Facts₀.slices_S160x64_S128x64_0_0 := by val_tac
theorem s2_v25 : after hostOps2 W (Proc.devRef .tc main_v25) = extractStridedSlice S32x64 ![128, 0] (W (Proc.devRef .tc main_arg7)) Facts₀.slices_S160x64_S32x64_128_0 := by val_tac
theorem s2_v1 : after hostOps2 W (Proc.devRef .tc main_v1) = W (Proc.devRef .tc main_v1) := by keep_tac
theorem s2_v3 : after hostOps2 W (Proc.devRef .tc main_v3) = W (Proc.devRef .tc main_v3) := by keep_tac
theorem s2_v23 : after hostOps2 W (Proc.devRef .tc main_v23) = W (Proc.devRef .tc main_v23) := by keep_tac
theorem s2_arg2 : after hostOps2 W (Proc.devRef .tc main_arg2) = W (Proc.devRef .tc main_arg2) := by keep_tac
theorem s2_arg8 : after hostOps2 W (Proc.devRef .tc main_arg8) = W (Proc.devRef .tc main_arg8) := by keep_tac
theorem s2_arg9 : after hostOps2 W (Proc.devRef .tc main_arg9) = W (Proc.devRef .tc main_arg9) := by keep_tac
theorem s2_arg10 : after hostOps2 W (Proc.devRef .tc main_arg10) = W (Proc.devRef .tc main_arg10) := by keep_tac

set_option maxHeartbeats 8000000 in
theorem s21_v26_raw : after hostOps2_1 W (Proc.devRef .tc main_v26)
    = (TRef.of main_v26 : TRef sig ⟨S800000x128, .f32⟩).toBuf (take128 ((TRef.of main_v23 : TRef sig ⟨S50000x128, .f32⟩).ofBuf (W (Proc.devRef .tc main_v23))) ((TRef.of main_v1 : TRef sig ⟨S800000, .i32⟩).ofBuf (W (Proc.devRef .tc main_v1)))) := by
  unfold take128 inRange srcWrap
  after_results
  simp only [ofBuf_toBuf]

theorem s21_v26 : after hostOps2_1 W (Proc.devRef .tc main_v26) = take128 (W (Proc.devRef .tc main_v23)) (W (Proc.devRef .tc main_v1)) := by
  refine (s21_v26_raw W).trans ?_
  refine (eq_of_heq (toBuf_lit (F := F) (TRef.of main_v26 : TRef sig ⟨S800000x128, .f32⟩) _)).trans ?_
  have e0 : (TRef.of main_v23 : TRef sig ⟨S50000x128, .f32⟩).ofBuf (W (Proc.devRef .tc main_v23)) = W (Proc.devRef .tc main_v23) := eq_of_heq (ofBuf_lit _ _)
  have e1 : (TRef.of main_v1 : TRef sig ⟨S800000, .i32⟩).ofBuf (W (Proc.devRef .tc main_v1)) = W (Proc.devRef .tc main_v1) := eq_of_heq (ofBuf_lit _ _)
  rw [e0, e1]
theorem s21_v3 : after hostOps2_1 W (Proc.devRef .tc main_v3) = W (Proc.devRef .tc main_v3) := by keep_tac
theorem s21_v23 : after hostOps2_1 W (Proc.devRef .tc main_v23) = W (Proc.devRef .tc main_v23) := by keep_tac
theorem s21_v24 : after hostOps2_1 W (Proc.devRef .tc main_v24) = W (Proc.devRef .tc main_v24) := by keep_tac
theorem s21_v25 : after hostOps2_1 W (Proc.devRef .tc main_v25) = W (Proc.devRef .tc main_v25) := by keep_tac
theorem s21_arg2 : after hostOps2_1 W (Proc.devRef .tc main_arg2) = W (Proc.devRef .tc main_arg2) := by keep_tac
theorem s21_arg8 : after hostOps2_1 W (Proc.devRef .tc main_arg8) = W (Proc.devRef .tc main_arg8) := by keep_tac
theorem s21_arg9 : after hostOps2_1 W (Proc.devRef .tc main_arg9) = W (Proc.devRef .tc main_arg9) := by keep_tac
theorem s21_arg10 : after hostOps2_1 W (Proc.devRef .tc main_arg10) = W (Proc.devRef .tc main_arg10) := by keep_tac

theorem s22_v27 : after hostOps2_2 W (Proc.devRef .tc main_v27) = shapeCast S1x64 (W (Proc.devRef .tc main_arg8)) Facts₀.shapeCasts_S64_S1x64 := by val_tac
theorem s22_v3 : after hostOps2_2 W (Proc.devRef .tc main_v3) = W (Proc.devRef .tc main_v3) := by keep_tac
theorem s22_v23 : after hostOps2_2 W (Proc.devRef .tc main_v23) = W (Proc.devRef .tc main_v23) := by keep_tac
theorem s22_v24 : after hostOps2_2 W (Proc.devRef .tc main_v24) = W (Proc.devRef .tc main_v24) := by keep_tac
theorem s22_v25 : after hostOps2_2 W (Proc.devRef .tc main_v25) = W (Proc.devRef .tc main_v25) := by keep_tac
theorem s22_v26 : after hostOps2_2 W (Proc.devRef .tc main_v26) = W (Proc.devRef .tc main_v26) := by keep_tac
theorem s22_arg2 : after hostOps2_2 W (Proc.devRef .tc main_arg2) = W (Proc.devRef .tc main_arg2) := by keep_tac
theorem s22_arg9 : after hostOps2_2 W (Proc.devRef .tc main_arg9) = W (Proc.devRef .tc main_arg9) := by keep_tac
theorem s22_arg10 : after hostOps2_2 W (Proc.devRef .tc main_arg10) = W (Proc.devRef .tc main_arg10) := by keep_tac

/-! ## Between the second message call and the second update call -/

set_option maxHeartbeats 4000000 in
theorem s3_v39 : after hostOps3 W (Proc.devRef .tc main_v39) = aggr64 (W (Proc.devRef .tc main_v28)) (W (Proc.devRef .tc main_v3)) := by
  unfold aggr64 degree
  after_results
theorem s3_v40 : after hostOps3 W (Proc.devRef .tc main_v40) = extractStridedSlice S128x64 ![0, 0] (W (Proc.devRef .tc main_arg9)) Facts₀.slices_S192x64_S128x64_0_0 := by val_tac
theorem s3_v41 : after hostOps3 W (Proc.devRef .tc main_v41) = extractStridedSlice S64x64 ![128, 0] (W (Proc.devRef .tc main_arg9)) Facts₀.slices_S192x64_S64x64_128_0 := by val_tac
theorem s3_v42 : after hostOps3 W (Proc.devRef .tc main_v42) = shapeCast S1x64 (W (Proc.devRef .tc main_arg10)) Facts₀.shapeCasts_S64_S1x64 := by val_tac
theorem s3_v23 : after hostOps3 W (Proc.devRef .tc main_v23) = W (Proc.devRef .tc main_v23) := by keep_tac

end Cert.KernelIdeal.Stretch

end
-- ==== Proof.Boundary.lean ====
/-
  The contents of the kernel program's buffers at each of its twelve segment boundaries, read back to the launch memory:
  boundary by boundary, each buffer a later segment reads is the stretch's function of earlier buffers (a written one),
  or what it was at the boundary before (a kept one); a pallas_call's output array is named K8, K23, K28, K43.
-/
import proofs.«418063_j82540681494777_1_alg».proof.Proof.Gen.KernelIdeal.Frame
import proofs.«418063_j82540681494777_1_alg».proof.Proof.Stretch
import proofs.«418063_j82540681494777_1_alg».proof.Proof.HostDefs

set_option maxRecDepth 16384

noncomputable section

namespace Cert.KernelIdeal.Boundary

open Cert.KernelIdeal Cert.KernelIdeal.Gen Cert.KernelIdeal.Host
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first message call's output array after its last grid point. -/
abbrev K8 : FVec Ideal S800000x128 .f32 := (dat0 (V3 m ρ) c).arrAt 5 cfg0.N
/-- The first update call's output array. -/
abbrev K23 : FVec Ideal S50000x128 .f32 := (dat1 (V5 m ρ) c).arrAt 5 cfg1.N
/-- The second message call's output array. -/
abbrev K28 : FVec Ideal S800000x64 .f32 := (dat2 (V9 m ρ) c).arrAt 5 cfg2.N
/-- The second update call's output array: the program's result. -/
abbrev K43 : FVec Ideal S50000x64 .f32 := (dat3 (V11 m ρ) c).arrAt 5 cfg3.N

/-! ## At launch -/

theorem w0_arg0 : W0 m ρ c (Proc.devRef .tc main_arg0) = (m ((c : Thread nD τ).loc main_arg0)) := rfl
theorem w0_arg1 : W0 m ρ c (Proc.devRef .tc main_arg1) = (m ((c : Thread nD τ).loc main_arg1)) := rfl
theorem w0_arg2 : W0 m ρ c (Proc.devRef .tc main_arg2) = (m ((c : Thread nD τ).loc main_arg2)) := rfl
theorem w0_arg3 : W0 m ρ c (Proc.devRef .tc main_arg3) = (m ((c : Thread nD τ).loc main_arg3)) := rfl
theorem w0_arg4 : W0 m ρ c (Proc.devRef .tc main_arg4) = (m ((c : Thread nD τ).loc main_arg4)) := rfl
theorem w0_arg5 : W0 m ρ c (Proc.devRef .tc main_arg5) = (m ((c : Thread nD τ).loc main_arg5)) := rfl
theorem w0_arg6 : W0 m ρ c (Proc.devRef .tc main_arg6) = (m ((c : Thread nD τ).loc main_arg6)) := rfl
theorem w0_arg7 : W0 m ρ c (Proc.devRef .tc main_arg7) = (m ((c : Thread nD τ).loc main_arg7)) := rfl
theorem w0_arg8 : W0 m ρ c (Proc.devRef .tc main_arg8) = (m ((c : Thread nD τ).loc main_arg8)) := rfl
theorem w0_arg9 : W0 m ρ c (Proc.devRef .tc main_arg9) = (m ((c : Thread nD τ).loc main_arg9)) := rfl
theorem w0_arg10 : W0 m ρ c (Proc.devRef .tc main_arg10) = (m ((c : Thread nD τ).loc main_arg10)) := rfl

/-! ## Boundary 1 -/

theorem w1_v1 : W1 m ρ c (Proc.devRef .tc main_v1) = srcOf (m ((c : Thread nD τ).loc main_arg1)) :=
  (Stretch.s0_v1 (W0 m ρ c)).trans (by rw [w0_arg1 m ρ c])
theorem w1_v3 : W1 m ρ c (Proc.devRef .tc main_v3) = dstOf (m ((c : Thread nD τ).loc main_arg1)) :=
  (Stretch.s0_v3 (W0 m ρ c)).trans (by rw [w0_arg1 m ρ c])
theorem w1_v4 : W1 m ρ c (Proc.devRef .tc main_v4) = extractStridedSlice S64x128 ![0, 0] (m ((c : Thread nD τ).loc main_arg3)) Facts₀.slices_S96x128_S64x128_0_0 :=
  (Stretch.s0_v4 (W0 m ρ c)).trans (by rw [w0_arg3 m ρ c])
theorem w1_v5 : W1 m ρ c (Proc.devRef .tc main_v5) = extractStridedSlice S32x128 ![64, 0] (m ((c : Thread nD τ).loc main_arg3)) Facts₀.slices_S96x128_S32x128_64_0 :=
  (Stretch.s0_v5 (W0 m ρ c)).trans (by rw [w0_arg3 m ρ c])
theorem w1_arg0 : W1 m ρ c (Proc.devRef .tc main_arg0) = (m ((c : Thread nD τ).loc main_arg0)) :=
  (Stretch.s0_arg0 (W0 m ρ c)).trans (w0_arg0 m ρ c)
theorem w1_arg2 : W1 m ρ c (Proc.devRef .tc main_arg2) = (m ((c : Thread nD τ).loc main_arg2)) :=
  (Stretch.s0_arg2 (W0 m ρ c)).trans (w0_arg2 m ρ c)
theorem w1_arg4 : W1 m ρ c (Proc.devRef .tc main_arg4) = (m ((c : Thread nD τ).loc main_arg4)) :=
  (Stretch.s0_arg4 (W0 m ρ c)).trans (w0_arg4 m ρ c)
theorem w1_arg5 : W1 m ρ c (Proc.devRef .tc main_arg5) = (m ((c : Thread nD τ).loc main_arg5)) :=
  (Stretch.s0_arg5 (W0 m ρ c)).trans (w0_arg5 m ρ c)
theorem w1_arg6 : W1 m ρ c (Proc.devRef .tc main_arg6) = (m ((c : Thread nD τ).loc main_arg6)) :=
  (Stretch.s0_arg6 (W0 m ρ c)).trans (w0_arg6 m ρ c)
theorem w1_arg7 : W1 m ρ c (Proc.devRef .tc main_arg7) = (m ((c : Thread nD τ).loc main_arg7)) :=
  (Stretch.s0_arg7 (W0 m ρ c)).trans (w0_arg7 m ρ c)
theorem w1_arg8 : W1 m ρ c (Proc.devRef .tc main_arg8) = (m ((c : Thread nD τ).loc main_arg8)) :=
  (Stretch.s0_arg8 (W0 m ρ c)).trans (w0_arg8 m ρ c)
theorem w1_arg9 : W1 m ρ c (Proc.devRef .tc main_arg9) = (m ((c : Thread nD τ).loc main_arg9)) :=
  (Stretch.s0_arg9 (W0 m ρ c)).trans (w0_arg9 m ρ c)
theorem w1_arg10 : W1 m ρ c (Proc.devRef .tc main_arg10) = (m ((c : Thread nD τ).loc main_arg10)) :=
  (Stretch.s0_arg10 (W0 m ρ c)).trans (w0_arg10 m ρ c)

/-! ## Boundary 2 -/

theorem w2_v6 : W2 m ρ c (Proc.devRef .tc main_v6) = take64 (F := Ideal) (m ((c : Thread nD τ).loc main_arg0)) (srcOf (m ((c : Thread nD τ).loc main_arg1))) :=
  (Stretch.s01_v6 (W1 m ρ c)).trans (by rw [w1_arg0 m ρ c, w1_v1 m ρ c])
theorem w2_v1 : W2 m ρ c (Proc.devRef .tc main_v1) = srcOf (m ((c : Thread nD τ).loc main_arg1)) :=
  (Stretch.s01_v1 (W1 m ρ c)).trans (w1_v1 m ρ c)
theorem w2_v3 : W2 m ρ c (Proc.devRef .tc main_v3) = dstOf (m ((c : Thread nD τ).loc main_arg1)) :=
  (Stretch.s01_v3 (W1 m ρ c)).trans (w1_v3 m ρ c)
theorem w2_v4 : W2 m ρ c (Proc.devRef .tc main_v4) = extractStridedSlice S64x128 ![0, 0] (m ((c : Thread nD τ).loc main_arg3)) Facts₀.slices_S96x128_S64x128_0_0 :=
  (Stretch.s01_v4 (W1 m ρ c)).trans (w1_v4 m ρ c)
theorem w2_v5 : W2 m ρ c (Proc.devRef .tc main_v5) = extractStridedSlice S32x128 ![64, 0] (m ((c : Thread nD τ).loc main_arg3)) Facts₀.slices_S96x128_S32x128_64_0 :=
  (Stretch.s01_v5 (W1 m ρ c)).trans (w1_v5 m ρ c)
theorem w2_arg0 : W2 m ρ c (Proc.devRef .tc main_arg0) = (m ((c : Thread nD τ).loc main_arg0)) :=
  (Stretch.s01_arg0 (W1 m ρ c)).trans (w1_arg0 m ρ c)
theorem w2_arg2 : W2 m ρ c (Proc.devRef .tc main_arg2) = (m ((c : Thread nD τ).loc main_arg2)) :=
  (Stretch.s01_arg2 (W1 m ρ c)).trans (w1_arg2 m ρ c)
theorem w2_arg4 : W2 m ρ c (Proc.devRef .tc main_arg4) = (m ((c : Thread nD τ).loc main_arg4)) :=
  (Stretch.s01_arg4 (W1 m ρ c)).trans (w1_arg4 m ρ c)
theorem w2_arg5 : W2 m ρ c (Proc.devRef .tc main_arg5) = (m ((c : Thread nD τ).loc main_arg5)) :=
  (Stretch.s01_arg5 (W1 m ρ c)).trans (w1_arg5 m ρ c)
theorem w2_arg6 : W2 m ρ c (Proc.devRef .tc main_arg6) = (m ((c : Thread nD τ).loc main_arg6)) :=
  (Stretch.s01_arg6 (W1 m ρ c)).trans (w1_arg6 m ρ c)
theorem w2_arg7 : W2 m ρ c (Proc.devRef .tc main_arg7) = (m ((c : Thread nD τ).loc main_arg7)) :=
  (Stretch.s01_arg7 (W1 m ρ c)).trans (w1_arg7 m ρ c)
theorem w2_arg8 : W2 m ρ c (Proc.devRef .tc main_arg8) = (m ((c : Thread nD τ).loc main_arg8)) :=
  (Stretch.s01_arg8 (W1 m ρ c)).trans (w1_arg8 m ρ c)
theorem w2_arg9 : W2 m ρ c (Proc.devRef .tc main_arg9) = (m ((c : Thread nD τ).loc main_arg9)) :=
  (Stretch.s01_arg9 (W1 m ρ c)).trans (w1_arg9 m ρ c)
theorem w2_arg10 : W2 m ρ c (Proc.devRef .tc main_arg10) = (m ((c : Thread nD τ).loc main_arg10)) :=
  (Stretch.s01_arg10 (W1 m ρ c)).trans (w1_arg10 m ρ c)

/-! ## Boundary 3 -/

theorem w3_v7 : W3 m ρ c (Proc.devRef .tc main_v7) = shapeCast S1x128 (m ((c : Thread nD τ).loc main_arg4)) Facts₀.shapeCasts_S128_S1x128 :=
  (Stretch.s02_v7 (W2 m ρ c)).trans (by rw [w2_arg4 m ρ c])
theorem w3_v1 : W3 m ρ c (Proc.devRef .tc main_v1) = srcOf (m ((c : Thread nD τ).loc main_arg1)) :=
  (Stretch.s02_v1 (W2 m ρ c)).trans (w2_v1 m ρ c)
theorem w3_v3 : W3 m ρ c (Proc.devRef .tc main_v3) = dstOf (m ((c : Thread nD τ).loc main_arg1)) :=
  (Stretch.s02_v3 (W2 m ρ c)).trans (w2_v3 m ρ c)
theorem w3_v4 : W3 m ρ c (Proc.devRef .tc main_v4) = extractStridedSlice S64x128 ![0, 0] (m ((c : Thread nD τ).loc main_arg3)) Facts₀.slices_S96x128_S64x128_0_0 :=
  (Stretch.s02_v4 (W2 m ρ c)).trans (w2_v4 m ρ c)
theorem w3_v5 : W3 m ρ c (Proc.devRef .tc main_v5) = extractStridedSlice S32x128 ![64, 0] (m ((c : Thread nD τ).loc main_arg3)) Facts₀.slices_S96x128_S32x128_64_0 :=
  (Stretch.s02_v5 (W2 m ρ c)).trans (w2_v5 m ρ c)
theorem w3_v6 : W3 m ρ c (Proc.devRef .tc main_v6) = take64 (F := Ideal) (m ((c : Thread nD τ).loc main_arg0)) (srcOf (m ((c : Thread nD τ).loc main_arg1))) :=
  (Stretch.s02_v6 (W2 m ρ c)).trans (w2_v6 m ρ c)
theorem w3_arg0 : W3 m ρ c (Proc.devRef .tc main_arg0) = (m ((c : Thread nD τ).loc main_arg0)) :=
  (Stretch.s02_arg0 (W2 m ρ c)).trans (w2_arg0 m ρ c)
theorem w3_arg2 : W3 m ρ c (Proc.devRef .tc main_arg2) = (m ((c : Thread nD τ).loc main_arg2)) :=
  (Stretch.s02_arg2 (W2 m ρ c)).trans (w2_arg2 m ρ c)
theorem w3_arg5 : W3 m ρ c (Proc.devRef .tc main_arg5) = (m ((c : Thread nD τ).loc main_arg5)) :=
  (Stretch.s02_arg5 (W2 m ρ c)).trans (w2_arg5 m ρ c)
theorem w3_arg6 : W3 m ρ c (Proc.devRef .tc main_arg6) = (m ((c : Thread nD τ).loc main_arg6)) :=
  (Stretch.s02_arg6 (W2 m ρ c)).trans (w2_arg6 m ρ c)
theorem w3_arg7 : W3 m ρ c (Proc.devRef .tc main_arg7) = (m ((c : Thread nD τ).loc main_arg7)) :=
  (Stretch.s02_arg7 (W2 m ρ c)).trans (w2_arg7 m ρ c)
theorem w3_arg8 : W3 m ρ c (Proc.devRef .tc main_arg8) = (m ((c : Thread nD τ).loc main_arg8)) :=
  (Stretch.s02_arg8 (W2 m ρ c)).trans (w2_arg8 m ρ c)
theorem w3_arg9 : W3 m ρ c (Proc.devRef .tc main_arg9) = (m ((c : Thread nD τ).loc main_arg9)) :=
  (Stretch.s02_arg9 (W2 m ρ c)).trans (w2_arg9 m ρ c)
theorem w3_arg10 : W3 m ρ c (Proc.devRef .tc main_arg10) = (m ((c : Thread nD τ).loc main_arg10)) :=
  (Stretch.s02_arg10 (W2 m ρ c)).trans (w2_arg10 m ρ c)

/-! ## Boundary 4 -/

theorem w4_v8 : W4 m ρ c (Proc.devRef .tc main_v8) = K8 m ρ c := W4_arr m ρ c 5
theorem w4_arg2 : W4 m ρ c (Proc.devRef .tc main_arg2) = (m ((c : Thread nD τ).loc main_arg2)) :=
  ((W4_arr m ρ c 1).trans (((dat0 (V3 m ρ) c).arrAt_in 1 rfl _).trans (A_eq0 (V3 m ρ) c 1))).trans (w3_arg2 m ρ c)
theorem w4_v1 : W4 m ρ c (Proc.devRef .tc main_v1) = srcOf (m ((c : Thread nD τ).loc main_arg1)) :=
  (W4_of_ne m ρ c main_v1 (by decide)).trans (w3_v1 m ρ c)
theorem w4_v3 : W4 m ρ c (Proc.devRef .tc main_v3) = dstOf (m ((c : Thread nD τ).loc main_arg1)) :=
  (W4_of_ne m ρ c main_v3 (by decide)).trans (w3_v3 m ρ c)
theorem w4_arg0 : W4 m ρ c (Proc.devRef .tc main_arg0) = (m ((c : Thread nD τ).loc main_arg0)) :=
  (W4_of_ne m ρ c main_arg0 (by decide)).trans (w3_arg0 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)

/-! ## Boundary 5 -/

theorem w5_v19 : W5 m ρ c (Proc.devRef .tc main_v19) = aggr128 (F := Ideal) (K8 m ρ c) (dstOf (m ((c : Thread nD τ).loc main_arg1))) :=
  (Stretch.s1_v19 (W4 m ρ c)).trans (by rw [w4_v8 m ρ c, w4_v3 m ρ c])
theorem w5_v20 : W5 m ρ c (Proc.devRef .tc main_v20) = extractStridedSlice S64x128 ![0, 0] (m ((c : Thread nD τ).loc main_arg5)) Facts₀.slices_S192x128_S64x128_0_0 :=
  (Stretch.s1_v20 (W4 m ρ c)).trans (by rw [w4_arg5 m ρ c])
theorem w5_v21 : W5 m ρ c (Proc.devRef .tc main_v21) = extractStridedSlice S128x128 ![64, 0] (m ((c : Thread nD τ).loc main_arg5)) Facts₀.slices_S192x128_S128x128_64_0 :=
  (Stretch.s1_v21 (W4 m ρ c)).trans (by rw [w4_arg5 m ρ c])
theorem w5_v22 : W5 m ρ c (Proc.devRef .tc main_v22) = shapeCast S1x128 (m ((c : Thread nD τ).loc main_arg6)) Facts₀.shapeCasts_S128_S1x128 :=
  (Stretch.s1_v22 (W4 m ρ c)).trans (by rw [w4_arg6 m ρ c])
theorem w5_v1 : W5 m ρ c (Proc.devRef .tc main_v1) = srcOf (m ((c : Thread nD τ).loc main_arg1)) :=
  (Stretch.s1_v1 (W4 m ρ c)).trans (w4_v1 m ρ c)
theorem w5_v3 : W5 m ρ c (Proc.devRef .tc main_v3) = dstOf (m ((c : Thread nD τ).loc main_arg1)) :=
  (Stretch.s1_v3 (W4 m ρ c)).trans (w4_v3 m ρ c)
theorem w5_arg0 : W5 m ρ c (Proc.devRef .tc main_arg0) = (m ((c : Thread nD τ).loc main_arg0)) :=
  (Stretch.s1_arg0 (W4 m ρ c)).trans (w4_arg0 m ρ c)
theorem w5_arg2 : W5 m ρ c (Proc.devRef .tc main_arg2) = (m ((c : Thread nD τ).loc main_arg2)) :=
  (Stretch.s1_arg2 (W4 m ρ c)).trans (w4_arg2 m ρ c)
theorem w5_arg7 : W5 m ρ c (Proc.devRef .tc main_arg7) = (m ((c : Thread nD τ).loc main_arg7)) :=
  (Stretch.s1_arg7 (W4 m ρ c)).trans (w4_arg7 m ρ c)
theorem w5_arg8 : W5 m ρ c (Proc.devRef .tc main_arg8) = (m ((c : Thread nD τ).loc main_arg8)) :=
  (Stretch.s1_arg8 (W4 m ρ c)).trans (w4_arg8 m ρ c)
theorem w5_arg9 : W5 m ρ c (Proc.devRef .tc main_arg9) = (m ((c : Thread nD τ).loc main_arg9)) :=
  (Stretch.s1_arg9 (W4 m ρ c)).trans (w4_arg9 m ρ c)
theorem w5_arg10 : W5 m ρ c (Proc.devRef .tc main_arg10) = (m ((c : Thread nD τ).loc main_arg10)) :=
  (Stretch.s1_arg10 (W4 m ρ c)).trans (w4_arg10 m ρ c)

/-! ## Boundary 6 -/

theorem w6_v23 : W6 m ρ c (Proc.devRef .tc main_v23) = K23 m ρ c := W6_arr m ρ c 5
theorem w6_v1 : W6 m ρ c (Proc.devRef .tc main_v1) = srcOf (m ((c : Thread nD τ).loc main_arg1)) :=
  (W6_of_ne m ρ c main_v1 (by decide)).trans (w5_v1 m ρ c)
theorem w6_v3 : W6 m ρ c (Proc.devRef .tc main_v3) = dstOf (m ((c : Thread nD τ).loc main_arg1)) :=
  (W6_of_ne m ρ c main_v3 (by decide)).trans (w5_v3 m ρ c)
theorem w6_arg2 : W6 m ρ c (Proc.devRef .tc main_arg2) = (m ((c : Thread nD τ).loc main_arg2)) :=
  (W6_of_ne m ρ c main_arg2 (by decide)).trans (w5_arg2 m ρ c)
theorem w6_arg7 : W6 m ρ c (Proc.devRef .tc main_arg7) = (m ((c : Thread nD τ).loc main_arg7)) :=
  (W6_of_ne m ρ c main_arg7 (by decide)).trans (w5_arg7 m ρ c)
theorem w6_arg8 : W6 m ρ c (Proc.devRef .tc main_arg8) = (m ((c : Thread nD τ).loc main_arg8)) :=
  (W6_of_ne m ρ c main_arg8 (by decide)).trans (w5_arg8 m ρ c)
theorem w6_arg9 : W6 m ρ c (Proc.devRef .tc main_arg9) = (m ((c : Thread nD τ).loc main_arg9)) :=
  (W6_of_ne m ρ c main_arg9 (by decide)).trans (w5_arg9 m ρ c)
theorem w6_arg10 : W6 m ρ c (Proc.devRef .tc main_arg10) = (m ((c : Thread nD τ).loc main_arg10)) :=
  (W6_of_ne m ρ c main_arg10 (by decide)).trans (w5_arg10 m ρ c)

/-! ## Boundary 7 -/

theorem w7_v24 : W7 m ρ c (Proc.devRef .tc main_v24) = extractStridedSlice S128x64 ![0, 0] (m ((c : Thread nD τ).loc main_arg7)) Facts₀.slices_S160x64_S128x64_0_0 :=
  (Stretch.s2_v24 (W6 m ρ c)).trans (by rw [w6_arg7 m ρ c])
theorem w7_v25 : W7 m ρ c (Proc.devRef .tc main_v25) = extractStridedSlice S32x64 ![128, 0] (m ((c : Thread nD τ).loc main_arg7)) Facts₀.slices_S160x64_S32x64_128_0 :=
  (Stretch.s2_v25 (W6 m ρ c)).trans (by rw [w6_arg7 m ρ c])
theorem w7_v1 : W7 m ρ c (Proc.devRef .tc main_v1) = srcOf (m ((c : Thread nD τ).loc main_arg1)) :=
  (Stretch.s2_v1 (W6 m ρ c)).trans (w6_v1 m ρ c)
theorem w7_v3 : W7 m ρ c (Proc.devRef .tc main_v3) = dstOf (m ((c : Thread nD τ).loc main_arg1)) :=
  (Stretch.s2_v3 (W6 m ρ c)).trans (w6_v3 m ρ c)
theorem w7_v23 : W7 m ρ c (Proc.devRef .tc main_v23) = K23 m ρ c :=
  (Stretch.s2_v23 (W6 m ρ c)).trans (w6_v23 m ρ c)
theorem w7_arg2 : W7 m ρ c (Proc.devRef .tc main_arg2) = (m ((c : Thread nD τ).loc main_arg2)) :=
  (Stretch.s2_arg2 (W6 m ρ c)).trans (w6_arg2 m ρ c)
theorem w7_arg8 : W7 m ρ c (Proc.devRef .tc main_arg8) = (m ((c : Thread nD τ).loc main_arg8)) :=
  (Stretch.s2_arg8 (W6 m ρ c)).trans (w6_arg8 m ρ c)
theorem w7_arg9 : W7 m ρ c (Proc.devRef .tc main_arg9) = (m ((c : Thread nD τ).loc main_arg9)) :=
  (Stretch.s2_arg9 (W6 m ρ c)).trans (w6_arg9 m ρ c)
theorem w7_arg10 : W7 m ρ c (Proc.devRef .tc main_arg10) = (m ((c : Thread nD τ).loc main_arg10)) :=
  (Stretch.s2_arg10 (W6 m ρ c)).trans (w6_arg10 m ρ c)

/-! ## Boundary 8 -/

theorem w8_v26 : W8 m ρ c (Proc.devRef .tc main_v26) = take128 (F := Ideal) (K23 m ρ c) (srcOf (m ((c : Thread nD τ).loc main_arg1))) :=
  (Stretch.s21_v26 (W7 m ρ c)).trans (by rw [w7_v23 m ρ c, w7_v1 m ρ c])
theorem w8_v3 : W8 m ρ c (Proc.devRef .tc main_v3) = dstOf (m ((c : Thread nD τ).loc main_arg1)) :=
  (Stretch.s21_v3 (W7 m ρ c)).trans (w7_v3 m ρ c)
theorem w8_v23 : W8 m ρ c (Proc.devRef .tc main_v23) = K23 m ρ c :=
  (Stretch.s21_v23 (W7 m ρ c)).trans (w7_v23 m ρ c)
theorem w8_v24 : W8 m ρ c (Proc.devRef .tc main_v24) = extractStridedSlice S128x64 ![0, 0] (m ((c : Thread nD τ).loc main_arg7)) Facts₀.slices_S160x64_S128x64_0_0 :=
  (Stretch.s21_v24 (W7 m ρ c)).trans (w7_v24 m ρ c)
theorem w8_v25 : W8 m ρ c (Proc.devRef .tc main_v25) = extractStridedSlice S32x64 ![128, 0] (m ((c : Thread nD τ).loc main_arg7)) Facts₀.slices_S160x64_S32x64_128_0 :=
  (Stretch.s21_v25 (W7 m ρ c)).trans (w7_v25 m ρ c)
theorem w8_arg2 : W8 m ρ c (Proc.devRef .tc main_arg2) = (m ((c : Thread nD τ).loc main_arg2)) :=
  (Stretch.s21_arg2 (W7 m ρ c)).trans (w7_arg2 m ρ c)
theorem w8_arg8 : W8 m ρ c (Proc.devRef .tc main_arg8) = (m ((c : Thread nD τ).loc main_arg8)) :=
  (Stretch.s21_arg8 (W7 m ρ c)).trans (w7_arg8 m ρ c)
theorem w8_arg9 : W8 m ρ c (Proc.devRef .tc main_arg9) = (m ((c : Thread nD τ).loc main_arg9)) :=
  (Stretch.s21_arg9 (W7 m ρ c)).trans (w7_arg9 m ρ c)
theorem w8_arg10 : W8 m ρ c (Proc.devRef .tc main_arg10) = (m ((c : Thread nD τ).loc main_arg10)) :=
  (Stretch.s21_arg10 (W7 m ρ c)).trans (w7_arg10 m ρ c)

/-! ## Boundary 9 -/

theorem w9_v27 : W9 m ρ c (Proc.devRef .tc main_v27) = shapeCast S1x64 (m ((c : Thread nD τ).loc main_arg8)) Facts₀.shapeCasts_S64_S1x64 :=
  (Stretch.s22_v27 (W8 m ρ c)).trans (by rw [w8_arg8 m ρ c])
theorem w9_v3 : W9 m ρ c (Proc.devRef .tc main_v3) = dstOf (m ((c : Thread nD τ).loc main_arg1)) :=
  (Stretch.s22_v3 (W8 m ρ c)).trans (w8_v3 m ρ c)
theorem w9_v23 : W9 m ρ c (Proc.devRef .tc main_v23) = K23 m ρ c :=
  (Stretch.s22_v23 (W8 m ρ c)).trans (w8_v23 m ρ c)
theorem w9_v24 : W9 m ρ c (Proc.devRef .tc main_v24) = extractStridedSlice S128x64 ![0, 0] (m ((c : Thread nD τ).loc main_arg7)) Facts₀.slices_S160x64_S128x64_0_0 :=
  (Stretch.s22_v24 (W8 m ρ c)).trans (w8_v24 m ρ c)
theorem w9_v25 : W9 m ρ c (Proc.devRef .tc main_v25) = extractStridedSlice S32x64 ![128, 0] (m ((c : Thread nD τ).loc main_arg7)) Facts₀.slices_S160x64_S32x64_128_0 :=
  (Stretch.s22_v25 (W8 m ρ c)).trans (w8_v25 m ρ c)
theorem w9_v26 : W9 m ρ c (Proc.devRef .tc main_v26) = take128 (F := Ideal) (K23 m ρ c) (srcOf (m ((c : Thread nD τ).loc main_arg1))) :=
  (Stretch.s22_v26 (W8 m ρ c)).trans (w8_v26 m ρ c)
theorem w9_arg2 : W9 m ρ c (Proc.devRef .tc main_arg2) = (m ((c : Thread nD τ).loc main_arg2)) :=
  (Stretch.s22_arg2 (W8 m ρ c)).trans (w8_arg2 m ρ c)
theorem w9_arg9 : W9 m ρ c (Proc.devRef .tc main_arg9) = (m ((c : Thread nD τ).loc main_arg9)) :=
  (Stretch.s22_arg9 (W8 m ρ c)).trans (w8_arg9 m ρ c)
theorem w9_arg10 : W9 m ρ c (Proc.devRef .tc main_arg10) = (m ((c : Thread nD τ).loc main_arg10)) :=
  (Stretch.s22_arg10 (W8 m ρ c)).trans (w8_arg10 m ρ c)

/-! ## Boundary 10 -/

theorem w10_v28 : W10 m ρ c (Proc.devRef .tc main_v28) = K28 m ρ c := W10_arr m ρ c 5
theorem w10_v3 : W10 m ρ c (Proc.devRef .tc main_v3) = dstOf (m ((c : Thread nD τ).loc main_arg1)) :=
  (W10_of_ne m ρ c main_v3 (by decide)).trans (w9_v3 m ρ c)
theorem w10_v23 : W10 m ρ c (Proc.devRef .tc main_v23) = K23 m ρ c :=
  (W10_of_ne m ρ c main_v23 (by decide)).trans (w9_v23 m ρ c)
theorem w10_arg9 : W10 m ρ c (Proc.devRef .tc main_arg9) = (m ((c : Thread nD τ).loc main_arg9)) :=
  (W10_of_ne m ρ c main_arg9 (by decide)).trans (w9_arg9 m ρ c)
theorem w10_arg10 : W10 m ρ c (Proc.devRef .tc main_arg10) = (m ((c : Thread nD τ).loc main_arg10)) :=
  (W10_of_ne m ρ c main_arg10 (by decide)).trans (w9_arg10 m ρ c)

/-! ## Boundary 11 -/

theorem w11_v39 : W11 m ρ c (Proc.devRef .tc main_v39) = aggr64 (F := Ideal) (K28 m ρ c) (dstOf (m ((c : Thread nD τ).loc main_arg1))) :=
  (Stretch.s3_v39 (W10 m ρ c)).trans (by rw [w10_v28 m ρ c, w10_v3 m ρ c])
theorem w11_v40 : W11 m ρ c (Proc.devRef .tc main_v40) = extractStridedSlice S128x64 ![0, 0] (m ((c : Thread nD τ).loc main_arg9)) Facts₀.slices_S192x64_S128x64_0_0 :=
  (Stretch.s3_v40 (W10 m ρ c)).trans (by rw [w10_arg9 m ρ c])
theorem w11_v41 : W11 m ρ c (Proc.devRef .tc main_v41) = extractStridedSlice S64x64 ![128, 0] (m ((c : Thread nD τ).loc main_arg9)) Facts₀.slices_S192x64_S64x64_128_0 :=
  (Stretch.s3_v41 (W10 m ρ c)).trans (by rw [w10_arg9 m ρ c])
theorem w11_v42 : W11 m ρ c (Proc.devRef .tc main_v42) = shapeCast S1x64 (m ((c : Thread nD τ).loc main_arg10)) Facts₀.shapeCasts_S64_S1x64 :=
  (Stretch.s3_v42 (W10 m ρ c)).trans (by rw [w10_arg10 m ρ c])
theorem w11_v23 : W11 m ρ c (Proc.devRef .tc main_v23) = K23 m ρ c :=
  (Stretch.s3_v23 (W10 m ρ c)).trans (w10_v23 m ρ c)

/-! ## Boundary 12 -/

theorem w12_v43 : W12 m ρ c (Proc.devRef .tc main_v43) = K43 m ρ c := W12_arr m ρ c 5

end Cert.KernelIdeal.Boundary

end
-- ==== Proof.Spec.lean ====
/-
  The two linear maps of a graph-convolution layer, as functions of whole arrays read one entry at a time on the
  extended reals.

  Both maps multiply the row-wise concatenation of two blocks `x : [n, a]` and `y : [n, b]` with one weight matrix
  `W : [c, o]` whose first `a` rows meet `x` and whose next `b` rows meet `y`, and add a bias row:

      lin x y W bias p q = (Σ_{k < a} x p k · W k q  +  Σ_{k < b} y p k · W (a + k) q)  +  bias q .

  The edge "message" map is `lin` itself; the node "update" map is `max (lin …) 0`.  A product with the concatenated
  block, Σ_{k < a + b} [x | y] p k · W k q, is the same number: a finite sum over `a + b` indices splits into the sum over
  the first `a` and the sum over the last `b` (`sum_split`), which needs only that addition of extended reals is
  commutative and associative — no finiteness.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `n` rows and `m` columns, indexed as the programs index their arrays. -/
abbrev Mat (n m : Nat) : Type := (⟨2, ![n, m]⟩ : Shape).Idx → EReal
/-- A row of `n` extended reals. -/
abbrev Row (n : Nat) : Type := (⟨1, ![n]⟩ : Shape).Idx → EReal

/-- Entry `(p, q)` of `[x | y] · W + bias`, written as the two partial products it splits into: rows `0 … a-1` of `W`
    against `x`, rows `a … a+b-1` against `y`. -/
def lin {n a b c o : Nat} (hc : a + b ≤ c) (x : Mat n a) (y : Mat n b) (W : Mat c o) (bias : Row o) (p : Fin n) (q : Fin o) : EReal :=
  (∑ k : Fin a, x (ix2 p k) * W (ix2 (⟨k.val, by omega⟩ : Fin c) q)
    + ∑ k : Fin b, y (ix2 p k) * W (ix2 (⟨a + k.val, by omega⟩ : Fin c) q))
  + bias (ix1 q)

/-- Entry `(p, q)` of `relu ([x | y] · W + bias)`. -/
def linRelu {n a b c o : Nat} (hc : a + b ≤ c) (x : Mat n a) (y : Mat n b) (W : Mat c o) (bias : Row o) (p : Fin n) (q : Fin o) : EReal :=
  max (lin hc x y W bias p q) 0

/-- A sum over `a + b` consecutive indices is the sum over the first `a` plus the sum over the remaining `b`. -/
theorem sum_split {M : Type*} [AddCommMonoid M] {a b c : Nat} (h : a + b = c) (f : Fin c → M) :
    ∑ k : Fin c, f k = ∑ k : Fin a, f ⟨k.val, by omega⟩ + ∑ k : Fin b, f ⟨a + k.val, by omega⟩ := by
  subst h
  rw [Fin.sum_univ_add]
  rfl

/-- Two arrays of rank 2 are equal when they agree at every pair of coordinates. -/
theorem mat_ext {n m : Nat} {A B : Mat n m} (h : ∀ (p : Fin n) (q : Fin m), A (ix2 p q) = B (ix2 p q)) : A = B := by
  funext j
  rw [eq_ix2 j]
  exact h _ _

end Cert.Spec

end
-- ==== Proof.Region0.lean ====
import proofs.«418063_j82540681494777_1_alg».proof.Proof.Gen.KernelIdeal.Frame
import proofs.«418063_j82540681494777_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two block products at an entry

Each product contracts the left block's column axis with the right matrix's row axis; the other two axes are the
result's row and column. On the extended reals a product into a zero accumulator is the plain sum over the contracted
coordinate. -/

/-- The left operand's row, in the product with the first weight slice, is the result's row. -/
theorem lhsX_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- Its column is the contracted coordinate. -/
theorem lhsX_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
/-- The right operand's row is the contracted coordinate. -/
theorem rhsX_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
/-- Its column is the result's column. -/
theorem rhsX_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- Entry `(p, q)` of the `[10000, 64] · [64, 128]` product into zero: the sum over the 64 contracted coordinates. -/
theorem matmulX_apply (lhs : FVec Ideal S10000x64 .bf16) (rhs : FVec Ideal S64x128 .bf16) (p : Fin 10000) (q : Fin 128) :
    matmul dot_S10000x64_S64x128_S10000x128_1_0_0_1_n_n none lhs rhs (constant (F := Ideal) S10000x128 .f32 0x00000000#32) (ix2 p q)
      = ∑ k : Fin 64, lhs (ix2 p k) * rhs (ix2 k q) := by
  simp only [matmul]
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 p q) ((ValueIdx.contrEquiv1 dot_S10000x64_S64x128_S10000x128_1_0_0_1_n_n 64 rfl rfl).symm k) = ix2 p k := funext fun a => Fin.ext (by
    match a with
    | ⟨0, _⟩ => exact lhsX_0 _ _
    | ⟨1, _⟩ => exact (lhsX_1 _ _).trans hk)
  have er : dot_S10000x64_S64x128_S10000x128_1_0_0_1_n_n.rhsIdx (ix2 p q) ((ValueIdx.contrEquiv1 dot_S10000x64_S64x128_S10000x128_1_0_0_1_n_n 64 rfl rfl).symm k) = ix2 k q := funext fun a => Fin.ext (by
    match a with
    | ⟨0, _⟩ => exact (rhsX_0 _ _).trans hk
    | ⟨1, _⟩ => exact rhsX_1 _ _)
  rw [el, er]

/-- The left operand's row, in the product with the second weight slice, is the result's row. -/
theorem lhsY_0 (i : S10000x128.Idx) (q : dot_S10000x32_S32x128_S10000x128_1_0_0_1_n_n.contr.Idx) :
    (dot_S10000x32_S32x128_S10000x128_1_0_0_1_n_n.lhsIdx i q 0).val = (i 0).val := by
  unfold DotDims.lhsIdx
  rw [dif_neg (show ¬(0 : Fin S10000x32.rank) ∈ dot_S10000x32_S32x128_S10000x128_1_0_0_1_n_n.lhsBatch by decide), dif_pos (show (0 : Fin S10000x32.rank) ∈ dot_S10000x32_S32x128_S10000x128_1_0_0_1_n_n.lhsNonContracting by decide)]
  rfl
/-- Its column is the contracted coordinate. -/
theorem lhsY_1 (i : S10000x128.Idx) (q : dot_S10000x32_S32x128_S10000x128_1_0_0_1_n_n.contr.Idx) :
    (dot_S10000x32_S32x128_S10000x128_1_0_0_1_n_n.lhsIdx i q 1).val = (q ⟨0, by decide⟩).val :=
  dot_S10000x32_S32x128_S10000x128_1_0_0_1_n_n.lhsIdx_val_of_single rfl i q
/-- The right operand's row is the contracted coordinate. -/
theorem rhsY_0 (i : S10000x128.Idx) (q : dot_S10000x32_S32x128_S10000x128_1_0_0_1_n_n.contr.Idx) :
    (dot_S10000x32_S32x128_S10000x128_1_0_0_1_n_n.rhsIdx i q 0).val = (q ⟨0, by decide⟩).val :=
  dot_S10000x32_S32x128_S10000x128_1_0_0_1_n_n.rhsIdx_val_of_single rfl i q
/-- Its column is the result's column. -/
theorem rhsY_1 (i : S10000x128.Idx) (q : dot_S10000x32_S32x128_S10000x128_1_0_0_1_n_n.contr.Idx) :
    (dot_S10000x32_S32x128_S10000x128_1_0_0_1_n_n.rhsIdx i q 1).val = (i 1).val := by
  unfold DotDims.rhsIdx
  rw [dif_neg (show ¬(1 : Fin S32x128.rank) ∈ dot_S10000x32_S32x128_S10000x128_1_0_0_1_n_n.rhsBatch by decide), dif_pos (show (1 : Fin S32x128.rank) ∈ dot_S10000x32_S32x128_S10000x128_1_0_0_1_n_n.rhsNonContracting by decide)]
  rfl

/-- Entry `(p, q)` of the `[10000, 32] · [32, 128]` product into zero: the sum over the 32 contracted coordinates. -/
theorem matmulY_apply (lhs : FVec Ideal S10000x32 .bf16) (rhs : FVec Ideal S32x128 .bf16) (p : Fin 10000) (q : Fin 128) :
    matmul dot_S10000x32_S32x128_S10000x128_1_0_0_1_n_n none lhs rhs (constant (F := Ideal) S10000x128 .f32 0x00000000#32) (ix2 p q)
      = ∑ k : Fin 32, lhs (ix2 p k) * rhs (ix2 k q) := by
  simp only [matmul]
  rw [Ideal.matmul_constant_zero_apply, ← Equiv.sum_comp (ValueIdx.contrEquiv1 dot_S10000x32_S32x128_S10000x128_1_0_0_1_n_n 32 rfl rfl).symm]
  refine Finset.sum_congr rfl fun k _ => ?_
  have hk := ValueIdx.contrEquiv1_symm_val dot_S10000x32_S32x128_S10000x128_1_0_0_1_n_n 32 rfl rfl k
  have el : dot_S10000x32_S32x128_S10000x128_1_0_0_1_n_n.lhsIdx (ix2 p q) ((ValueIdx.contrEquiv1 dot_S10000x32_S32x128_S10000x128_1_0_0_1_n_n 32 rfl rfl).symm k) = ix2 p k := funext fun a => Fin.ext (by
    match a with
    | ⟨0, _⟩ => exact lhsY_0 _ _
    | ⟨1, _⟩ => exact (lhsY_1 _ _).trans hk)
  have er : dot_S10000x32_S32x128_S10000x128_1_0_0_1_n_n.rhsIdx (ix2 p q) ((ValueIdx.contrEquiv1 dot_S10000x32_S32x128_S10000x128_1_0_0_1_n_n 32 rfl rfl).symm k) = ix2 k q := funext fun a => Fin.ext (by
    match a with
    | ⟨0, _⟩ => exact (rhsY_0 _ _).trans hk
    | ⟨1, _⟩ => exact rhsY_1 _ _)
  rw [el, er]

/-! ## The body's arithmetic at an entry

The body casts each block to its own shape, rounds to the narrow format (the identity on the extended reals), forms
the two products into zero accumulators, adds them, and adds the bias row broadcast down the rows. -/

/-- Entry `(p, q)` of what the body stores: `(Σ_k x p k · wx k q + Σ_k y p k · wy k q) + b 0 q`. -/
theorem pay_apply (x0 : Vec Ideal S10000x64 .f32) (x1 : Vec Ideal S10000x32 .f32) (x2 : Vec Ideal S64x128 .f32)
    (x3 : Vec Ideal S32x128 .f32) (x4 : Vec Ideal S1x128 .f32) (p : Fin 10000) (q : Fin 128) :
    (k0_pay1 (F := Ideal) x0 x1 x2 x3 x4 : S10000x128.Idx → EReal) (ix2 p q)
      = ((∑ k : Fin 64, (x0 : S10000x64.Idx → EReal) (ix2 p k) * (x2 : S64x128.Idx → EReal) (ix2 k q))
          + ∑ k : Fin 32, (x1 : S10000x32.Idx → EReal) (ix2 p k) * (x3 : S32x128.Idx → EReal) (ix2 k q))
        + (x4 : S1x128.Idx → EReal) (ix2 (0 : Fin 1) q) := by
  unfold k0_pay1
  simp only [shapeCast_self]
  rw [addf_apply, addf_apply, matmulX_apply, matmulY_apply, broadcastTo_1b_ab_apply]
  simp only [truncf_apply]

variable (V : (c : Dev nD) → (b : Ref sig .tc) → Buf (Elt Ideal) ((c : Thread nD τ).loc b))

/-! ## The arrays the region finds, at their literal types -/

/-- The first row array, `[800000, 64]`. -/
abbrev xarr (c : Dev nD) : Vec Ideal S800000x64 .f32 := V c main_v6
/-- The second row array, `[800000, 32]`. -/
abbrev yarr (c : Dev nD) : Vec Ideal S800000x32 .f32 := V c main_arg2
/-- The first weight slice, `[64, 128]`. -/
abbrev wxarr (c : Dev nD) : Vec Ideal S64x128 .f32 := V c main_v4
/-- The second weight slice, `[32, 128]`. -/
abbrev wyarr (c : Dev nD) : Vec Ideal S32x128 .f32 := V c main_v5
/-- The bias row, `[1, 128]`. -/
abbrev barr (c : Dev nD) : Vec Ideal S1x128 .f32 := V c main_v7

/-! ## The blocks as parts of the arrays

Point `t` of the 80 reads rows `10000 t … 10000 t + 9999` of the two row arrays and the whole of the two weight
slices and of the bias row, and writes rows `10000 t … 10000 t + 9999` of the result. -/

theorem hz : (![0, 0] : Fin 2 → Nat) = fun _ => 0 := funext fun a => by
  match a with
  | ⟨0, _⟩ => rfl
  | ⟨1, _⟩ => rfl

/-- The index maps, decided over the grid: the row windows' block index is `(t, 0)`, the whole windows' is `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `(p, k)` of the first row window's block at point `t` is entry `(10000 t + p, k)` of its array. -/
theorem xblk_apply (c : Dev nD) (t : Fin cfg0.N) (p : Fin 10000) (k : Fin 64) (r : Fin 800000)
    (hr : r.val = t.val * 10000 + p.val) :
    (iblk0 V c 0 t : S10000x64.Idx → EReal) (ix2 p k) = xarr V c (ix2 r k) := by
  obtain ⟨e0, e1, -⟩ := idx_facts t
  unfold iblk0
  rw [View.read_apply]
  show xarr V c (((cfg0.win 0).blk t).view.emb (ix2 p k)) = _
  refine congrArg _ (funext fun a => Fin.ext ?_)
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- Entry `(p, k)` of the second row window's block at point `t` is entry `(10000 t + p, k)` of its array. -/
theorem yblk_apply (c : Dev nD) (t : Fin cfg0.N) (p : Fin 10000) (k : Fin 32) (r : Fin 800000)
    (hr : r.val = t.val * 10000 + p.val) :
    (iblk0 V c 1 t : S10000x32.Idx → EReal) (ix2 p k) = yarr V c (ix2 r k) := by
  obtain ⟨-, -, e0, e1, -⟩ := idx_facts t
  unfold iblk0
  rw [View.read_apply]
  show yarr V c (((cfg0.win 1).blk t).view.emb (ix2 p k)) = _
  refine congrArg _ (funext fun a => Fin.ext ?_)
  match a with
  | ⟨0, _⟩ => show win0_1.index t (0 : Fin 2) * 10000 + 1 * p.val = r.val; rw [e0, hr]; omega
  | ⟨1, _⟩ => show win0_1.index t (1 : Fin 2) * 32 + 1 * k.val = k.val; rw [e1]; omega

/-- The first weight window's block at any point is its whole array. -/
theorem wxblk_apply (c : Dev nD) (t : Fin cfg0.N) (k : Fin 64) (q : Fin 128) :
    (iblk0 V c 2 t : S64x128.Idx → EReal) (ix2 k q) = wxarr V c (ix2 k q) := by
  obtain ⟨-, -, -, -, e0, e1, -⟩ := idx_facts t
  unfold iblk0
  rw [View.read_apply]
  show wxarr V c (((cfg0.win 2).blk t).view.emb (ix2 k q)) = _
  refine congrArg _ (funext fun a => Fin.ext ?_)
  match a with
  | ⟨0, _⟩ => show win0_2.index t (0 : Fin 2) * 64 + 1 * k.val = k.val; rw [e0]; omega
  | ⟨1, _⟩ => show win0_2.index t (1 : Fin 2) * 128 + 1 * q.val = q.val; rw [e1]; omega

/-- The second weight window's block at any point is its whole array. -/
theorem wyblk_apply (c : Dev nD) (t : Fin cfg0.N) (k : Fin 32) (q : Fin 128) :
    (iblk0 V c 3 t : S32x128.Idx → EReal) (ix2 k q) = wyarr V c (ix2 k q) := by
  obtain ⟨-, -, -, -, -, -, e0, e1, -⟩ := idx_facts t
  unfold iblk0
  rw [View.read_apply]
  show wyarr V c (((cfg0.win 3).blk t).view.emb (ix2 k q)) = _
  refine congrArg _ (funext fun a => Fin.ext ?_)
  match a with
  | ⟨0, _⟩ => show win0_3.index t (0 : Fin 2) * 32 + 1 * k.val = k.val; rw [e0]; omega
  | ⟨1, _⟩ => show win0_3.index t (1 : Fin 2) * 128 + 1 * q.val = q.val; rw [e1]; omega

/-- The bias window's block at any point is its whole one-row array. -/
theorem bblk_apply (c : Dev nD) (t : Fin cfg0.N) (q : Fin 128) :
    (iblk0 V c 4 t : S1x128.Idx → EReal) (ix2 (0 : Fin 1) q) = barr V c (ix2 (0 : Fin 1) q) := by
  obtain ⟨-, -, -, -, -, -, -, -, e0, e1, -⟩ := idx_facts t
  unfold iblk0
  rw [View.read_apply]
  show barr V c (((cfg0.win 4).blk t).view.emb (ix2 (0 : Fin 1) q)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-! ## The result array as one function of the arrays the region finds -/

/-- Entry `i` of the result: the row `i 0` of the two row arrays against the two weight slices, plus the bias row,
    at column `i 1`. -/
abbrev G (c : Dev nD) : Vec Ideal S800000x128 .f32 := fun i =>
  ((∑ k : Fin 64, xarr V c (ix2 (⟨(i 0).val, idx2_lt0 i⟩ : Fin 800000) k) * wxarr V c (ix2 k (⟨(i 1).val, idx2_lt1 i⟩ : Fin 128)))
    + ∑ k : Fin 32, yarr V c (ix2 (⟨(i 0).val, idx2_lt0 i⟩ : Fin 800000) k) * wyarr V c (ix2 k (⟨(i 1).val, idx2_lt1 i⟩ : Fin 128)))
  + barr V c (ix2 (0 : Fin 1) (⟨(i 1).val, idx2_lt1 i⟩ : Fin 128))

/-- `G` at coordinates. -/
theorem G_apply (c : Dev nD) (r : Fin 800000) (q : Fin 128) :
    G V c (ix2 r q) = ((∑ k : Fin 64, xarr V c (ix2 r k) * wxarr V c (ix2 k q)) + ∑ k : Fin 32, yarr V c (ix2 r k) * wyarr V c (ix2 k q))
      + barr V c (ix2 (0 : Fin 1) q) := rfl

/-- Entry `(p, q)` of what point `t` leaves in the result window's buffer is entry `(10000 t + p, q)` of `G`. -/
theorem out_apply (c : Dev nD) (t : Fin cfg0.N) (p : Fin 10000) (q : Fin 128) (r : Fin 800000)
    (hr : r.val = t.val * 10000 + p.val) :
    (k0_pay1 (F := Ideal) (iblk0 V c 0 t) (iblk0 V c 1 t) (iblk0 V c 2 t) (iblk0 V c 3 t) (iblk0 V c 4 t) : S10000x128.Idx → EReal) (ix2 p q)
      = G V c (ix2 r q) := by
  refine (pay_apply (iblk0 V c 0 t) (iblk0 V c 1 t) (iblk0 V c 2 t) (iblk0 V c 3 t) (iblk0 V c 4 t) p q).trans ?_
  rw [G_apply V c r q, bblk_apply V c t q]
  refine congrArg (· + _) (congrArg₂ (· + ·) ?_ ?_)
  · exact Finset.sum_congr rfl fun k _ => by rw [xblk_apply V c t p k r hr, wxblk_apply V c t k q]
  · exact Finset.sum_congr rfl fun k _ => by rw [yblk_apply V c t p k r hr, wyblk_apply V c t k q]

/-- WHAT POINT `t` WRITES BACK is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S10000x64) hz, View.ld_unit_zero (S := S10000x32) hz, View.ld_unit_zero (S := S64x128) hz,
    View.ld_unit_zero (S := S32x128) hz, View.ld_unit_zero (S := S1x128) hz]
  obtain ⟨-, -, -, -, -, -, -, -, -, -, e0, e1⟩ := idx_facts t
  have hN : grid0.N = 80 := N_0
  have ht : t.val < 80 := hN ▸ t.isLt
  funext j
  obtain ⟨p, q, rfl⟩ : ∃ (p : Fin 10000) (q : Fin 128), j = ix2 p q := ⟨j 0, j 1, eq_ix2 (n0 := 10000) (n1 := 128) j⟩
  have hp : p.val < 10000 := p.isLt
  show (k0_pay1 (F := Ideal) (iblk0 V c 0 t) (iblk0 V c 1 t) (iblk0 V c 2 t) (iblk0 V c 3 t) (iblk0 V c 4 t) : S10000x128.Idx → EReal) (ix2 p q)
    = G V c (((cfg0.win 5).blk t).view.emb (ix2 p q))
  have hemb : ((cfg0.win 5).blk t).view.emb (ix2 p q) = (ix2 (⟨t.val * 10000 + p.val, by omega⟩ : Fin 800000) q : S800000x128.Idx) := by
    funext a; apply Fin.ext
    match a with
    | ⟨0, _⟩ => show win0_5.index t (0 : Fin 2) * 10000 + 1 * p.val = t.val * 10000 + p.val; rw [e0]; omega
    | ⟨1, _⟩ => show win0_5.index t (1 : Fin 2) * 128 + 1 * q.val = q.val; rw [e1]; omega
  rw [hemb]
  exact out_apply V c t p q _ rfl

/-! ## From the blocks to the array

Every row `r` of the result lies in the block of point `r / 10000`, and every point writes its block back: after the
80 points the array is `G`. -/

/-- An index of the result array is in point `t`'s block iff each coordinate is in the block's range on its axis. -/
theorem mem_blk (t : Fin cfg0.N) (i : S800000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v8).slice (win0_5.rect t)).set ↔ _
  rw [View.set_slice_whole, Rect.mem_set_unit]
  exact Iff.rfl

/-- Every index of the result array is in the block some point writes back. -/
theorem cover (i : S800000x128.Idx) :
    ∃ t : Fin cfg0.N, (cfg0.win 5).flush t = true ∧ i ∈ ((cfg0.win 5).blk t).view.set := by
  have hi0 : (i 0).val < 800000 := idx2_lt0 i
  have hi1 : (i 1).val < 128 := idx2_lt1 i
  have hN : grid0.N = 80 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 128 ≤ (i 1).val ∧ (i 1).val < win0_5.index t (1 : Fin 2) * 128 + 128
    rw [e1]; omega

/-- THE RESULT ARRAY after the 80 points is `G`. -/
theorem final (c : Dev nD) : (dat0 (F := Ideal) V c).arrAt 5 cfg0.N = G V c :=
  (dat0 (F := Ideal) V c).arrAt_eq_of_cover 5 (G V c) (fun t _ => flushed_eq V c t) cover

/-! ## The entry against the specification

Where the two weight slices are rows `0 … 63` and `64 … 95` of one matrix and the bias row is one vector, `G` is the
specification's linear map entry by entry. -/

theorem value (c : Dev nD) (W : Cert.Spec.Mat 96 128) (bias : Cert.Spec.Row 128)
    (hWx : ∀ (k : Fin 64) (q : Fin 128), (V c main_v4 : S64x128.Idx → EReal) (ix2 k q) = W (ix2 (⟨k.val, by omega⟩ : Fin 96) q))
    (hWy : ∀ (k : Fin 32) (q : Fin 128), (V c main_v5 : S32x128.Idx → EReal) (ix2 k q) = W (ix2 (⟨64 + k.val, by omega⟩ : Fin 96) q))
    (hb : ∀ q : Fin 128, (V c main_v7 : S1x128.Idx → EReal) (ix2 (0 : Fin 1) q) = bias (ix1 q))
    (p : Fin 800000) (q : Fin 128) :
    ((dat0 (F := Ideal) V c).arrAt 5 cfg0.N : S800000x128.Idx → EReal) (ix2 p q)
      = Cert.Spec.lin (a := 64) (b := 32) (by norm_num) (V c main_v6) (V c main_arg2) W bias p q := by
  refine (congrFun (final V c) (ix2 p q)).trans ?_
  rw [G_apply V c p q]
  unfold Cert.Spec.lin
  refine congrArg₂ (· + ·) (congrArg₂ (· + ·) ?_ ?_) (hb q)
  · exact Finset.sum_congr rfl fun k _ => congrArg (xarr V c (ix2 p k) * ·) (hWx k q)
  · exact Finset.sum_congr rfl fun k _ => congrArg (yarr V c (ix2 p k) * ·) (hWy k q)

end Cert.KernelIdeal.Region0

end
-- ==== Proof.Region1.lean ====
import proofs.«418063_j82540681494777_1_alg».proof.Proof.Gen.KernelIdeal.Frame
import proofs.«418063_j82540681494777_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two block products at an index

Each product contracts the left block's axis 1 against the right block's axis 0, so the element at row `p`, column `q`
is the sum over `k` of the left block at `(p, k)` times the right block at `(k, q)`.  The contraction's index set has one
axis; the sum is re-indexed by its one coordinate. -/

theorem lhs_x_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_x_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_x_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_x_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product of the `[5000, 64]` block with the `[64, 128]` weights into a zero accumulator, at `(p, q)`. -/
theorem matmul_x_apply (x : FVec Ideal S5000x64 .bf16) (w : FVec Ideal S64x128 .bf16) (p : Fin 5000) (q : Fin 128) :
    FloatOps.matmul dot_S5000x64_S64x128_S5000x128_1_0_0_1_n_n none x w (constant (F := Ideal) S5000x128 .f32 0x00000000#32) (ix2 p q)
      = ∑ k : Fin 64, x (ix2 p k) * w (ix2 k q) := by
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_x_0 _ _
    | ⟨1, _⟩ => exact (lhs_x_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_x_0 _ _).trans hk
    | ⟨1, _⟩ => exact rhs_x_1 _ _)
  rw [el, er]

theorem lhs_y_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_y_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_y_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_y_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of the `[5000, 128]` block with the `[128, 128]` weights into a zero accumulator, at `(p, q)`. -/
theorem matmul_y_apply (y : FVec Ideal S5000x128 .bf16) (w : FVec Ideal S128x128 .bf16) (p : Fin 5000) (q : Fin 128) :
    FloatOps.matmul dot_S5000x128_S128x128_S5000x128_1_0_0_1_n_n none y w (constant (F := Ideal) S5000x128 .f32 0x00000000#32) (ix2 p q)
      = ∑ k : Fin 128, y (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_y_0 _ _
    | ⟨1, _⟩ => exact (lhs_y_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_y_0 _ _).trans hk
    | ⟨1, _⟩ => exact rhs_y_1 _ _)
  rw [el, er]

/-! ## The body's arithmetic at an index -/

/-- What the body stores, at row `p` and column `q` of the block: the two partial products, the bias row's entry,
    and the maximum against zero.  On the extended reals the roundings to the narrower format are the identity, and
    the casts to the same shape change nothing. -/
theorem pay_apply (x0 : Vec Ideal S5000x64 .f32) (x1 : Vec Ideal S5000x128 .f32) (x2 : Vec Ideal S64x128 .f32)
    (x3 : Vec Ideal S128x128 .f32) (x4 : Vec Ideal S1x128 .f32) (p : Fin 5000) (q : Fin 128) :
    (k1_pay1 (F := Ideal) x0 x1 x2 x3 x4 : S5000x128.Idx → EReal) (ix2 p q)
      = max (((∑ k : Fin 64, (x0 : S5000x64.Idx → EReal) (ix2 p k) * (x2 : S64x128.Idx → EReal) (ix2 k q))
              + ∑ k : Fin 128, (x1 : S5000x128.Idx → EReal) (ix2 p k) * (x3 : S128x128.Idx → EReal) (ix2 k q))
             + (x4 : S1x128.Idx → EReal) (ix2 (0 : Fin 1) q)) 0 := by
  unfold k1_pay1
  simp only [shapeCast_self]
  show max ((FloatOps.matmul dot_S5000x64_S64x128_S5000x128_1_0_0_1_n_n none (truncf .bf16 x0 bitsLt_bf16_f32) (truncf .bf16 x2 bitsLt_bf16_f32) (constant (F := Ideal) S5000x128 .f32 0x00000000#32) (ix2 p q)
        + FloatOps.matmul dot_S5000x128_S128x128_S5000x128_1_0_0_1_n_n none (truncf .bf16 x1 bitsLt_bf16_f32) (truncf .bf16 x3 bitsLt_bf16_f32) (constant (F := Ideal) S5000x128 .f32 0x00000000#32) (ix2 p q))
      + broadcastTo S5000x128 x4 broadcasts_S1x128_S5000x128 (ix2 p q)) (Ideal.ofBits .f32 0x00000000#32) = _
  rw [matmul_x_apply, matmul_y_apply, broadcastTo_1b_ab_apply, Ideal.ofBits_zero_f32]
  rfl

/-! ## The windows' blocks read off their arrays

Point `t` of the grid of ten points holds rows `5000 t … 5000 t + 4999` of the two row-blocked inputs and of the
output, and the whole of the two weight matrices and of the bias row. -/

theorem hz : (![0, 0] : Fin 2 → Nat) = fun _ => 0 := funext fun a => by fin_cases a <;> rfl

/-- The printed index maps over the grid: the row-blocked windows' block index is the point's number on the
    row axis and zero on the column axis; the three small windows' is zero on both. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of window 0's block at point `t` is row `5000 t + p` of its array. -/
theorem blk0_apply (c : Dev nD) (t : Fin cfg1.N) (p : Fin 5000) (k : Fin 64) (P : Fin 50000) (hP : P.val = t.val * 5000 + p.val) :
    (iblk1 (F := Ideal) V c 0 t : S5000x64.Idx → EReal) (ix2 p k) = (V c main_arg0 : S50000x64.Idx → EReal) (ix2 P k) := by
  obtain ⟨e0, e1, -⟩ := idx_facts t
  show (V c main_arg0 : S50000x64.Idx → EReal) (((cfg1.win 0).blk t).view.emb (ix2 p k)) = _
  refine congrArg (V c main_arg0 : S50000x64.Idx → EReal) (funext fun a => Fin.ext ?_)
  match a with
  | ⟨0, _⟩ => show win1_0.index t (0 : Fin 2) * 5000 + 1 * p.val = P.val; omega
  | ⟨1, _⟩ => show win1_0.index t (1 : Fin 2) * 64 + 1 * k.val = k.val; omega

/-- Row `p` of window 1's block at point `t` is row `5000 t + p` of its array. -/
theorem blk1_apply (c : Dev nD) (t : Fin cfg1.N) (p : Fin 5000) (k : Fin 128) (P : Fin 50000) (hP : P.val = t.val * 5000 + p.val) :
    (iblk1 (F := Ideal) V c 1 t : S5000x128.Idx → EReal) (ix2 p k) = (V c main_v19 : S50000x128.Idx → EReal) (ix2 P k) := by
  obtain ⟨-, -, e0, e1, -⟩ := idx_facts t
  show (V c main_v19 : S50000x128.Idx → EReal) (((cfg1.win 1).blk t).view.emb (ix2 p k)) = _
  refine congrArg (V c main_v19 : S50000x128.Idx → EReal) (funext fun a => Fin.ext ?_)
  match a with
  | ⟨0, _⟩ => show win1_1.index t (0 : Fin 2) * 5000 + 1 * p.val = P.val; omega
  | ⟨1, _⟩ => show win1_1.index t (1 : Fin 2) * 128 + 1 * k.val = k.val; omega

/-- Window 2's block at every point is its whole array. -/
theorem blk2_apply (c : Dev nD) (t : Fin cfg1.N) (k : Fin 64) (q : Fin 128) :
    (iblk1 (F := Ideal) V c 2 t : S64x128.Idx → EReal) (ix2 k q) = (V c main_v20 : S64x128.Idx → EReal) (ix2 k q) := by
  obtain ⟨-, -, -, -, e0, e1, -⟩ := idx_facts t
  show (V c main_v20 : S64x128.Idx → EReal) (((cfg1.win 2).blk t).view.emb (ix2 k q)) = _
  refine congrArg (V c main_v20 : S64x128.Idx → EReal) (funext fun a => Fin.ext ?_)
  match a with
  | ⟨0, _⟩ => show win1_2.index t (0 : Fin 2) * 64 + 1 * k.val = k.val; omega
  | ⟨1, _⟩ => show win1_2.index t (1 : Fin 2) * 128 + 1 * q.val = q.val; omega

/-- Window 3's block at every point is its whole array. -/
theorem blk3_apply (c : Dev nD) (t : Fin cfg1.N) (k : Fin 128) (q : Fin 128) :
    (iblk1 (F := Ideal) V c 3 t : S128x128.Idx → EReal) (ix2 k q) = (V c main_v21 : S128x128.Idx → EReal) (ix2 k q) := by
  obtain ⟨-, -, -, -, -, -, e0, e1, -⟩ := idx_facts t
  show (V c main_v21 : S128x128.Idx → EReal) (((cfg1.win 3).blk t).view.emb (ix2 k q)) = _
  refine congrArg (V c main_v21 : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Window 4's block at every point is its whole array, the bias row. -/
theorem blk4_apply (c : Dev nD) (t : Fin cfg1.N) (q : Fin 128) :
    (iblk1 (F := Ideal) V c 4 t : S1x128.Idx → EReal) (ix2 (0 : Fin 1) q) = (V c main_v22 : S1x128.Idx → EReal) (ix2 (0 : Fin 1) q) := by
  obtain ⟨-, -, -, -, -, -, -, -, e0, e1, -⟩ := idx_facts t
  show (V c main_v22 : S1x128.Idx → EReal) (((cfg1.win 4).blk t).view.emb (ix2 (0 : Fin 1) q)) = _
  refine congrArg (V c main_v22 : S1x128.Idx → EReal) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-! ## From the blocks to the array -/

/-- The output array as one function of the arrays the region finds: entry `(P, q)` is the rectified linear map of
    row `P` of the two inputs. -/
abbrev G (c : Dev nD) (W : Cert.Spec.Mat 192 128) (bias : Cert.Spec.Row 128) : S50000x128.Idx → EReal :=
  fun i => Cert.Spec.linRelu (a := 64) (b := 128) (by norm_num) (V c main_arg0) (V c main_v19) W bias
    (⟨(i 0).val, idx2_lt0 i⟩ : Fin 50000) (⟨(i 1).val, idx2_lt1 i⟩ : Fin 128)

/-- What the body leaves at `(p, q)` of the output block at point `t`, from the input blocks, is the specification's
    entry at row `5000 t + p`: each block entry is read off its array, and the weights and the bias are the slices
    of `W` and `bias` the hypotheses name. -/
theorem block_value (c : Dev nD) (W : Cert.Spec.Mat 192 128) (bias : Cert.Spec.Row 128)
    (hWx : ∀ (k : Fin 64) (q : Fin 128), (V c main_v20 : S64x128.Idx → EReal) (ix2 k q) = W (ix2 (⟨k.val, by omega⟩ : Fin 192) q))
    (hWy : ∀ (k : Fin 128) (q : Fin 128), (V c main_v21 : S128x128.Idx → EReal) (ix2 k q) = W (ix2 (⟨64 + k.val, by omega⟩ : Fin 192) q))
    (hb : ∀ q : Fin 128, (V c main_v22 : S1x128.Idx → EReal) (ix2 (0 : Fin 1) q) = bias (ix1 q))
    (t : Fin cfg1.N) (p : Fin 5000) (q : Fin 128) (P : Fin 50000) (hP : P.val = t.val * 5000 + p.val) :
    (k1_pay1 (F := Ideal) (iblk1 V c 0 t) (iblk1 V c 1 t) (iblk1 V c 2 t) (iblk1 V c 3 t) (iblk1 V c 4 t) : S5000x128.Idx → EReal) (ix2 p q)
      = Cert.Spec.linRelu (a := 64) (b := 128) (by norm_num) (V c main_arg0) (V c main_v19) W bias P q := by
  refine (pay_apply (iblk1 V c 0 t) (iblk1 V c 1 t) (iblk1 V c 2 t) (iblk1 V c 3 t) (iblk1 V c 4 t) p q).trans ?_
  unfold Cert.Spec.linRelu Cert.Spec.lin
  refine congrArg (fun z : EReal => max z 0) ?_
  refine congrArg₂ (fun u v : EReal => u + v) (congrArg₂ (fun u v : EReal => u + v) ?_ ?_) ?_
  · refine Finset.sum_congr rfl fun k _ => ?_
    refine congrArg₂ (fun u v : EReal => u * v) (blk0_apply V c t p k P hP) ((blk2_apply V c t k q).trans (hWx k q))
  · refine Finset.sum_congr rfl fun k _ => ?_
    refine congrArg₂ (fun u v : EReal => u * v) (blk1_apply V c t p k P hP) ((blk3_apply V c t k q).trans (hWy k q))
  · exact (blk4_apply V c t q).trans (hb q)

/-- What point `t` writes back to the output array is block `t` of `G`. -/
theorem flushed_eq (c : Dev nD) (W : Cert.Spec.Mat 192 128) (bias : Cert.Spec.Row 128)
    (hWx : ∀ (k : Fin 64) (q : Fin 128), (V c main_v20 : S64x128.Idx → EReal) (ix2 k q) = W (ix2 (⟨k.val, by omega⟩ : Fin 192) q))
    (hWy : ∀ (k : Fin 128) (q : Fin 128), (V c main_v21 : S128x128.Idx → EReal) (ix2 k q) = W (ix2 (⟨64 + k.val, by omega⟩ : Fin 192) q))
    (hb : ∀ q : Fin 128, (V c main_v22 : S1x128.Idx → EReal) (ix2 (0 : Fin 1) q) = bias (ix1 q))
    (t : Fin cfg1.N) :
    (dat1 (F := Ideal) V c).flushed 5 t = ((cfg1.win 5).blk t).view.read (Elt Ideal) (G V c W bias) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S5000x128) hz, View.ld_unit_zero (S := S64x128) hz,
    View.ld_unit_zero (S := S128x128) hz, View.ld_unit_zero (S := S1x128) hz]
  obtain ⟨-, -, -, -, -, -, -, -, -, -, e0, e1⟩ := idx_facts t
  have ht : t.val < grid1.N := t.isLt
  rw [N_1] at ht
  funext j
  have hj0 : (j 0).val < 5000 := (j 0).isLt
  have hj1 : (j 1).val < 128 := (j 1).isLt
  have ej : (cfg1.win 5).xinj (grid1.coords t) j = ix2 (⟨(j 0).val, hj0⟩ : Fin 5000) (⟨(j 1).val, hj1⟩ : Fin 128) :=
    funext fun a => by match a with | ⟨0, _⟩ => rfl | ⟨1, _⟩ => rfl
  have hP : t.val * 5000 + (j 0).val < 50000 := by omega
  refine (congrArg (k1_pay1 (F := Ideal) (iblk1 V c 0 t) (iblk1 V c 1 t) (iblk1 V c 2 t) (iblk1 V c 3 t) (iblk1 V c 4 t) : S5000x128.Idx → EReal) ej).trans ?_
  refine (block_value V c W bias hWx hWy hb t ⟨(j 0).val, hj0⟩ ⟨(j 1).val, hj1⟩ ⟨t.val * 5000 + (j 0).val, hP⟩ rfl).trans ?_
  have eP : (⟨t.val * 5000 + (j 0).val, hP⟩ : Fin 50000) = ⟨((((cfg1.win 5).blk t).view.emb j) 0).val, idx2_lt0 (((cfg1.win 5).blk t).view.emb j)⟩ :=
    Fin.ext (by show t.val * 5000 + (j 0).val = win1_5.index t (0 : Fin 2) * 5000 + 1 * (j 0).val; omega)
  have eQ : (⟨(j 1).val, hj1⟩ : Fin 128) = ⟨((((cfg1.win 5).blk t).view.emb j) 1).val, idx2_lt1 (((cfg1.win 5).blk t).view.emb j)⟩ :=
    Fin.ext (by show (j 1).val = win1_5.index t (1 : Fin 2) * 128 + 1 * (j 1).val; omega)
  exact congrArg₂ (fun (P : Fin 50000) (Q : Fin 128) => Cert.Spec.linRelu (a := 64) (b := 128) (by norm_num) (V c main_arg0) (V c main_v19) W bias P Q) eP eQ

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v23).slice (win1_5.rect t)).set ↔ _
  rw [View.set_slice_whole, Rect.mem_set_unit]
  exact Iff.rfl

/-- Every row of the output array is in some point's block: row `r` is in the block of point `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < grid1.N := by rw [N_1]; omega
  obtain ⟨-, -, -, -, -, -, -, -, -, -, e0, e1⟩ := idx_facts ⟨(i 0).val / 5000, hN⟩
  have e0' : win1_5.index ⟨(i 0).val / 5000, hN⟩ (0 : Fin 2) = (i 0).val / 5000 := e0
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    omega

/-- The output array after all ten points is `G`. -/
theorem final (c : Dev nD) (W : Cert.Spec.Mat 192 128) (bias : Cert.Spec.Row 128)
    (hWx : ∀ (k : Fin 64) (q : Fin 128), (V c main_v20 : S64x128.Idx → EReal) (ix2 k q) = W (ix2 (⟨k.val, by omega⟩ : Fin 192) q))
    (hWy : ∀ (k : Fin 128) (q : Fin 128), (V c main_v21 : S128x128.Idx → EReal) (ix2 k q) = W (ix2 (⟨64 + k.val, by omega⟩ : Fin 192) q))
    (hb : ∀ q : Fin 128, (V c main_v22 : S1x128.Idx → EReal) (ix2 (0 : Fin 1) q) = bias (ix1 q)) :
    (dat1 (F := Ideal) V c).arrAt 5 cfg1.N = G V c W bias :=
  (dat1 (F := Ideal) V c).arrAt_eq_of_cover 5 (G V c W bias) (fun t _ => flushed_eq V c W bias hWx hWy hb t) cover

theorem value (c : Dev nD) (W : Cert.Spec.Mat 192 128) (bias : Cert.Spec.Row 128)
    (hWx : ∀ (k : Fin 64) (q : Fin 128), (V c main_v20 : S64x128.Idx → EReal) (ix2 k q) = W (ix2 (⟨k.val, by omega⟩ : Fin 192) q))
    (hWy : ∀ (k : Fin 128) (q : Fin 128), (V c main_v21 : S128x128.Idx → EReal) (ix2 k q) = W (ix2 (⟨64 + k.val, by omega⟩ : Fin 192) q))
    (hb : ∀ q : Fin 128, (V c main_v22 : S1x128.Idx → EReal) (ix2 (0 : Fin 1) q) = bias (ix1 q))
    (p : Fin 50000) (q : Fin 128) :
    ((dat1 (F := Ideal) V c).arrAt 5 cfg1.N : S50000x128.Idx → EReal) (ix2 p q)
      = Cert.Spec.linRelu (a := 64) (b := 128) (by norm_num) (V c main_arg0) (V c main_v19) W bias p q :=
  congrFun (final V c W bias hWx hWy hb) (ix2 p q)

end Cert.KernelIdeal.Region1

end
-- ==== Proof.Region2.lean ====
import proofs.«418063_j82540681494777_1_alg».proof.Proof.Gen.KernelIdeal.Frame
import proofs.«418063_j82540681494777_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two products of the body, one entry at a time

Each matrix product of the body contracts axis 1 of its left operand with axis 0 of its right operand into a zero
accumulator, so on the extended reals its entry `(p, q)` is the plain sum over the contracted coordinate `k` of
`lhs (p, k) * rhs (k, q)`. The contraction's index set has one axis; the sum is carried over to `Fin 128`
(resp. `Fin 32`) along the bijection between that one-axis index set and its coordinate. -/

theorem lhs_x_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_x_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_x_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_x_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry `(p, q)` of the product of a `[10000, 128]` block with a `[128, 64]` matrix into the zero accumulator. -/
theorem matmul_x_apply (l : FVec Ideal S10000x128 .bf16) (r : FVec Ideal S128x64 .bf16) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_x_0 _ _
    | ⟨1, _⟩ => exact (lhs_x_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_x_0 _ _).trans hk
    | ⟨1, _⟩ => exact rhs_x_1 _ _)
  rw [el, er]

theorem lhs_y_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs_y_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs_y_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs_y_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- Entry `(p, q)` of the product of a `[10000, 32]` block with a `[32, 64]` matrix into the zero accumulator. -/
theorem matmul_y_apply (l : FVec Ideal S10000x32 .bf16) (r : FVec Ideal S32x64 .bf16) (p : Fin 10000) (q : Fin 64) :
    matmul dot_S10000x32_S32x64_S10000x64_1_0_0_1_n_n none l r (constant (F := Ideal) S10000x64 .f32 0x00000000#32) (ix2 p q)
      = ∑ k : Fin 32, l (ix2 p k) * r (ix2 k q) := by
  simp only [matmul]
  rw [Ideal.matmul_constant_zero_apply, ← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx (ix2 p q) ((ValueIdx.contrEquiv1 dot_S10000x32_S32x64_S10000x64_1_0_0_1_n_n 32 rfl rfl).symm k) = ix2 p k := funext fun a => Fin.ext (by
    match a with
    | ⟨0, _⟩ => exact lhs_y_0 _ _
    | ⟨1, _⟩ => exact (lhs_y_1 _ _).trans hk)
  have er : dot_S10000x32_S32x64_S10000x64_1_0_0_1_n_n.rhsIdx (ix2 p q) ((ValueIdx.contrEquiv1 dot_S10000x32_S32x64_S10000x64_1_0_0_1_n_n 32 rfl rfl).symm k) = ix2 k q := funext fun a => Fin.ext (by
    match a with
    | ⟨0, _⟩ => exact (rhs_y_0 _ _).trans hk
    | ⟨1, _⟩ => exact rhs_y_1 _ _)
  rw [el, er]

/-! ## The body's result, one entry at a time

On the extended reals the change of float format is the identity, a cast to the same shape is the identity, and
the bias row is repeated on every row; so entry `(p, q)` of what the body stores is
`(Σ_k x (p, k) · Wx (k, q) + Σ_k y (p, k) · Wy (k, q)) + b (0, q)`. -/

theorem payload_apply (x : Vec Ideal S10000x128 .f32) (y : Vec Ideal S10000x32 .f32) (wx : Vec Ideal S128x64 .f32)
    (wy : Vec Ideal S32x64 .f32) (b : Vec Ideal S1x64 .f32) (p : Fin 10000) (q : Fin 64) :
    (k2_pay1 (F := Ideal) x y wx wy b : S10000x64.Idx → EReal) (ix2 p q)
      = ((∑ k : Fin 128, (x : S10000x128.Idx → EReal) (ix2 p k) * (wx : S128x64.Idx → EReal) (ix2 k q))
          + ∑ k : Fin 32, (y : S10000x32.Idx → EReal) (ix2 p k) * (wy : S32x64.Idx → EReal) (ix2 k q))
        + (b : S1x64.Idx → EReal) (ix2 (0 : Fin 1) q) := by
  unfold k2_pay1
  refine congrArg₂ (· + ·) (congrArg₂ (· + ·) ((matmul_x_apply _ _ p q).trans ?_) ((matmul_y_apply _ _ p q).trans ?_)) ?_
  · rw [shapeCast_self, shapeCast_self]; rfl
  · rw [shapeCast_self]; rfl
  · rw [shapeCast_self]
    exact broadcastTo_1b_ab_apply _ _ p q

/-! ## One block of rows

`blockLin` is the linear form of one block of 10000 rows against the two weight matrices and the bias row, entry by
entry; the buffer the body leaves behind is this form of the five input blocks. -/

/-- Entry `(p, q)` of `(x · wx + y · wy) + b` for one block of rows. -/
def blockLin (x : Vec Ideal S10000x128 .f32) (y : Vec Ideal S10000x32 .f32) (wx : Vec Ideal S128x64 .f32)
    (wy : Vec Ideal S32x64 .f32) (b : Vec Ideal S1x64 .f32) (p : Fin 10000) (q : Fin 64) : EReal :=
  ((∑ k : Fin 128, (x : S10000x128.Idx → EReal) (ix2 p k) * (wx : S128x64.Idx → EReal) (ix2 k q))
      + ∑ k : Fin 32, (y : S10000x32.Idx → EReal) (ix2 p k) * (wy : S32x64.Idx → EReal) (ix2 k q))
    + (b : S1x64.Idx → EReal) (ix2 (0 : Fin 1) q)

/-- The zero offsets of a whole-buffer access, as a constant function. -/
theorem zero_offsets : (![0, 0] : Fin 2 → Nat) = fun _ => 0 :=
  funext fun a => by match a with | ⟨0, _⟩ => rfl | ⟨1, _⟩ => rfl

/-- The body loads its five buffers whole and stores once, whole: what it leaves is `blockLin` of what it loaded. -/
theorem out_eq (x : Vec Ideal S10000x128 .f32) (y : Vec Ideal S10000x32 .f32) (wx : Vec Ideal S128x64 .f32)
    (wy : Vec Ideal S32x64 .f32) (b : Vec Ideal S1x64 .f32) :
    out2_5 (F := Ideal) x y wx wy b = fun j => blockLin x y wx wy b (j 0) (j 1) := by
  unfold out2_5
  rw [View.canon_unit_zero zero_offsets]
  simp only [View.ld_unit_zero (S := S10000x128) zero_offsets, View.ld_unit_zero (S := S10000x32) zero_offsets,
    View.ld_unit_zero (S := S128x64) zero_offsets, View.ld_unit_zero (S := S32x64) zero_offsets,
    View.ld_unit_zero (S := S1x64) zero_offsets]
  funext j
  obtain ⟨p, q, rfl⟩ : ∃ (p : Fin 10000) (q : Fin 64), j = ix2 p q := ⟨j 0, j 1, eq_ix2 j⟩
  exact payload_apply x y wx wy b p q

/-! ## Where each window's block sits in its array

Point `t` of the grid takes rows `10000 t … 10000 t + 9999` of the two row arrays and of the output, and the three
small arrays whole: the block index of windows 0, 1 and 5 is `(t, 0)`, that of windows 2, 3 and 4 is `(0, 0)`. -/

theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The five input blocks of a point, named at their literal types. -/
abbrev xblk (c : Dev nD) (t : Fin cfg2.N) : Vec Ideal S10000x128 .f32 := iblk2 V c 0 t
abbrev yblk (c : Dev nD) (t : Fin cfg2.N) : Vec Ideal S10000x32 .f32 := iblk2 V c 1 t
abbrev wxblk (c : Dev nD) (t : Fin cfg2.N) : Vec Ideal S128x64 .f32 := iblk2 V c 2 t
abbrev wyblk (c : Dev nD) (t : Fin cfg2.N) : Vec Ideal S32x64 .f32 := iblk2 V c 3 t
abbrev bblk (c : Dev nD) (t : Fin cfg2.N) : Vec Ideal S1x64 .f32 := iblk2 V c 4 t

/-- Row `p` of the first row block at point `t` is row `10000 t + p` of its array. An element of a block sits in the
    array, on each axis, at block index × block size + 1 × its coordinate in the block. -/
theorem xblk_apply (c : Dev nD) (t : Fin cfg2.N) (p : Fin 10000) (k : Fin 128) (P : Fin 800000)
    (hP : P.val = t.val * 10000 + p.val) :
    xblk V c t (ix2 p k) = (V c main_v26 : S800000x128.Idx → EReal) (ix2 P k) := by
  obtain ⟨e0, e1, -⟩ := block_indices t
  show (V c main_v26 : S800000x128.Idx → EReal) (((cfg2.win 0).blk t).view.emb (ix2 p k)) = _
  refine congrArg (V c main_v26 : S800000x128.Idx → EReal) (funext fun a => Fin.ext ?_)
  match a with
  | ⟨0, _⟩ => show win2_0.index t (0 : Fin 2) * 10000 + 1 * p.val = P.val; omega
  | ⟨1, _⟩ => show win2_0.index t (1 : Fin 2) * 128 + 1 * k.val = k.val; omega

/-- Row `p` of the second row block at point `t` is row `10000 t + p` of its array. -/
theorem yblk_apply (c : Dev nD) (t : Fin cfg2.N) (p : Fin 10000) (k : Fin 32) (P : Fin 800000)
    (hP : P.val = t.val * 10000 + p.val) :
    yblk V c t (ix2 p k) = (V c main_arg2 : S800000x32.Idx → EReal) (ix2 P k) := by
  obtain ⟨-, -, e0, e1, -⟩ := block_indices t
  show (V c main_arg2 : S800000x32.Idx → EReal) (((cfg2.win 1).blk t).view.emb (ix2 p k)) = _
  refine congrArg (V c main_arg2 : S800000x32.Idx → EReal) (funext fun a => Fin.ext ?_)
  match a with
  | ⟨0, _⟩ => show win2_1.index t (0 : Fin 2) * 10000 + 1 * p.val = P.val; omega
  | ⟨1, _⟩ => show win2_1.index t (1 : Fin 2) * 32 + 1 * k.val = k.val; omega

/-- The first weight block is its whole array at every point. -/
theorem wxblk_apply (c : Dev nD) (t : Fin cfg2.N) (k : Fin 128) (q : Fin 64) :
    wxblk V c t (ix2 k q) = (V c main_v24 : S128x64.Idx → EReal) (ix2 k q) := by
  obtain ⟨-, -, -, -, e0, e1, -⟩ := block_indices t
  show (V c main_v24 : S128x64.Idx → EReal) (((cfg2.win 2).blk t).view.emb (ix2 k q)) = _
  refine congrArg (V c main_v24 : S128x64.Idx → EReal) (funext fun a => Fin.ext ?_)
  match a with
  | ⟨0, _⟩ => show win2_2.index t (0 : Fin 2) * 128 + 1 * k.val = k.val; omega
  | ⟨1, _⟩ => show win2_2.index t (1 : Fin 2) * 64 + 1 * q.val = q.val; omega

/-- The second weight block is its whole array at every point. -/
theorem wyblk_apply (c : Dev nD) (t : Fin cfg2.N) (k : Fin 32) (q : Fin 64) :
    wyblk V c t (ix2 k q) = (V c main_v25 : S32x64.Idx → EReal) (ix2 k q) := by
  obtain ⟨-, -, -, -, -, -, e0, e1, -⟩ := block_indices t
  show (V c main_v25 : S32x64.Idx → EReal) (((cfg2.win 3).blk t).view.emb (ix2 k q)) = _
  refine congrArg (V c main_v25 : S32x64.Idx → EReal) (funext fun a => Fin.ext ?_)
  match a with
  | ⟨0, _⟩ => show win2_3.index t (0 : Fin 2) * 32 + 1 * k.val = k.val; omega
  | ⟨1, _⟩ => show win2_3.index t (1 : Fin 2) * 64 + 1 * q.val = q.val; omega

/-- The bias block is its whole one-row array at every point. -/
theorem bblk_apply (c : Dev nD) (t : Fin cfg2.N) (q : Fin 64) :
    bblk V c t (ix2 (0 : Fin 1) q) = (V c main_v27 : S1x64.Idx → EReal) (ix2 (0 : Fin 1) q) := by
  obtain ⟨-, -, -, -, -, -, -, -, e0, e1, -⟩ := block_indices t
  show (V c main_v27 : S1x64.Idx → EReal) (((cfg2.win 4).blk t).view.emb (ix2 (0 : Fin 1) q)) = _
  refine congrArg (V c main_v27 : S1x64.Idx → EReal) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-! ## From the blocks to the array

Every row of the output lies in exactly the block of the point `row / 10000`, and what that point writes back is the
linear form of the matching rows of the two row arrays; so after the last point the array holds the linear form row
by row. -/

/-- The whole output array as one function of the arrays the region finds: the linear form, row by row. -/
abbrev wholeLin (c : Dev nD) (W : Cert.Spec.Mat 160 64) (bias : Cert.Spec.Row 64) : S800000x64.Idx → EReal :=
  fun i => Cert.Spec.lin (n := 800000) (a := 128) (b := 32) (c := 160) (o := 64) (by norm_num)
    (V c main_v26) (V c main_arg2) W bias (i 0) (i 1)

/-- Row `p` of a point's block form is row `10000 t + p` of the whole form: the row blocks are those rows of their
    arrays, the weight and bias blocks are the whole small arrays, which are the two row ranges of `W` and the row `bias`. -/
theorem blockLin_eq (c : Dev nD) (W : Cert.Spec.Mat 160 64) (bias : Cert.Spec.Row 64)
    (hWx : ∀ (k : Fin 128) (q : Fin 64), (V c main_v24 : S128x64.Idx → EReal) (ix2 k q) = W (ix2 (⟨k.val, by omega⟩ : Fin 160) q))
    (hWy : ∀ (k : Fin 32) (q : Fin 64), (V c main_v25 : S32x64.Idx → EReal) (ix2 k q) = W (ix2 (⟨128 + k.val, by omega⟩ : Fin 160) q))
    (hb : ∀ q : Fin 64, (V c main_v27 : S1x64.Idx → EReal) (ix2 (0 : Fin 1) q) = bias (ix1 q))
    (t : Fin cfg2.N) (p : Fin 10000) (q : Fin 64) (P : Fin 800000) (Q : Fin 64)
    (hP : P.val = t.val * 10000 + p.val) (hQ : Q.val = q.val) :
    blockLin (xblk V c t) (yblk V c t) (wxblk V c t) (wyblk V c t) (bblk V c t) p q
      = Cert.Spec.lin (n := 800000) (a := 128) (b := 32) (c := 160) (o := 64) (by norm_num)
          (V c main_v26) (V c main_arg2) W bias P Q := by
  obtain rfl : Q = q := Fin.ext hQ
  unfold blockLin Cert.Spec.lin
  refine congrArg₂ (· + ·) (congrArg₂ (· + ·) (Finset.sum_congr rfl fun k _ => ?_) (Finset.sum_congr rfl fun k _ => ?_)) ?_
  · rw [xblk_apply V c t p k P hP, wxblk_apply V c t k Q, hWx k Q]
  · rw [yblk_apply V c t p k P hP, wyblk_apply V c t k Q, hWy k Q]
  · rw [bblk_apply V c t Q, hb Q]

/-- What point `t` writes back is block `t` of the whole form. -/
theorem flushed_eq (c : Dev nD) (W : Cert.Spec.Mat 160 64) (bias : Cert.Spec.Row 64)
    (hWx : ∀ (k : Fin 128) (q : Fin 64), (V c main_v24 : S128x64.Idx → EReal) (ix2 k q) = W (ix2 (⟨k.val, by omega⟩ : Fin 160) q))
    (hWy : ∀ (k : Fin 32) (q : Fin 64), (V c main_v25 : S32x64.Idx → EReal) (ix2 k q) = W (ix2 (⟨128 + k.val, by omega⟩ : Fin 160) q))
    (hb : ∀ q : Fin 64, (V c main_v27 : S1x64.Idx → EReal) (ix2 (0 : Fin 1) q) = bias (ix1 q))
    (t : Fin cfg2.N) :
    (dat2 (F := Ideal) V c).flushed 5 t = ((cfg2.win 5).blk t).view.read (Elt Ideal) (wholeLin V c W bias) := by
  show (cfg2.win 5).cut (grid2.coords t) ((dat2 (F := Ideal) V c).after 5 t) = _
  rw [after2_5, out_eq]
  funext j
  have hp : (j 0).val < 10000 := (j 0).isLt
  have hq : (j 1).val < 64 := (j 1).isLt
  obtain ⟨-, -, -, -, -, -, -, -, -, -, e0, e1⟩ := block_indices t
  show blockLin (xblk V c t) (yblk V c t) (wxblk V c t) (wyblk V c t) (bblk V c t) ⟨(j 0).val, hp⟩ ⟨(j 1).val, hq⟩
    = wholeLin V c W bias (((cfg2.win 5).blk t).view.emb j)
  exact blockLin_eq V c W bias hWx hWy hb t ⟨(j 0).val, hp⟩ ⟨(j 1).val, hq⟩
    ((((cfg2.win 5).blk t).view.emb j) 0) ((((cfg2.win 5).blk t).view.emb j) 1)
    (by show win2_5.index t (0 : Fin 2) * 10000 + 1 * (j 0).val = t.val * 10000 + (j 0).val; omega)
    (by show win2_5.index t (1 : Fin 2) * 64 + 1 * (j 1).val = (j 1).val; omega)

/-- An index of the output array is in point `t`'s block iff each coordinate is in the block's range on its axis. -/
theorem mem_blk (t : Fin cfg2.N) (i : S800000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v28).slice (win2_5.rect t)).set ↔ _
  rw [View.set_slice_whole, Rect.mem_set_unit]
  exact Iff.rfl

/-- Every index of the output array is in the block of the point `row / 10000`, and every point writes back. -/
theorem covered (i : S800000x64.Idx) :
    ∃ t : Fin cfg2.N, (cfg2.win 5).flush t = true ∧ i ∈ ((cfg2.win 5).blk t).view.set := by
  have hi0 : (i 0).val < 800000 := (i 0).isLt
  have hi1 : (i 1).val < 64 := (i 1).isLt
  have hN : cfg2.N = 80 := N_2
  have ht : (i 0).val / 10000 < cfg2.N := by rw [hN]; omega
  obtain ⟨-, -, -, -, -, -, -, -, -, -, e0, e1⟩ := block_indices ⟨(i 0).val / 10000, ht⟩
  refine ⟨⟨(i 0).val / 10000, ht⟩, flush2_5 _, ?_⟩
  rw [mem_blk]
  intro a
  match a with
  | ⟨0, _⟩ =>
    show win2_5.index ⟨(i 0).val / 10000, ht⟩ (0 : Fin 2) * 10000 ≤ (i 0).val ∧ (i 0).val < win2_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win2_5.index ⟨(i 0).val / 10000, ht⟩ (1 : Fin 2) * 64 ≤ (i 1).val ∧ (i 1).val < win2_5.index ⟨(i 0).val / 10000, ht⟩ (1 : Fin 2) * 64 + 64
    rw [e1]; omega

/-- THE OUTPUT ARRAY after all 80 points, one entry at a time: the linear form of row `p` of the two row arrays
    against `W` and `bias`. -/
theorem value (c : Dev nD) (W : Cert.Spec.Mat 160 64) (bias : Cert.Spec.Row 64)
    (hWx : ∀ (k : Fin 128) (q : Fin 64), (V c main_v24 : S128x64.Idx → EReal) (ix2 k q) = W (ix2 (⟨k.val, by omega⟩ : Fin 160) q))
    (hWy : ∀ (k : Fin 32) (q : Fin 64), (V c main_v25 : S32x64.Idx → EReal) (ix2 k q) = W (ix2 (⟨128 + k.val, by omega⟩ : Fin 160) q))
    (hb : ∀ q : Fin 64, (V c main_v27 : S1x64.Idx → EReal) (ix2 (0 : Fin 1) q) = bias (ix1 q))
    (p : Fin 800000) (q : Fin 64) :
    ((dat2 (F := Ideal) V c).arrAt 5 cfg2.N : S800000x64.Idx → EReal) (ix2 p q)
      = Cert.Spec.lin (a := 128) (b := 32) (by norm_num) (V c main_v26) (V c main_arg2) W bias p q := by
  have h := (dat2 (F := Ideal) V c).arrAt_eq_of_cover 5 (wholeLin V c W bias)
    (fun t _ => flushed_eq V c W bias hWx hWy hb t) covered
  exact congrFun h (ix2 p q)

end Cert.KernelIdeal.Region2

end
-- ==== Proof.Region3.lean ====
import proofs.«418063_j82540681494777_1_alg».proof.Proof.Gen.KernelIdeal.Frame
import proofs.«418063_j82540681494777_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two block products at an index

A product of a block `l : [5000, K]` with a matrix `r : [K, 64]` into a zero accumulator is, at row `p` and column `q`,
the sum over the `K` contracted positions of `l p k · r k q`.  The contraction index of the dimension numbers
(contract axis 1 of the left operand with axis 0 of the right one) has one axis; it is re-indexed by its coordinate. -/

/-- Left operand of the `[5000,128] · [128,64]` product: its row is the output's row. -/
theorem dotX_lhs_row (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … its column is the contracted position. -/
theorem dotX_lhs_col (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
/-- Right operand: its row is the contracted position … -/
theorem dotX_rhs_row (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
/-- … its column is the output's column. -/
theorem dotX_rhs_col (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(p, q)` of the `[5000,128] · [128,64]` block product into the zero accumulator. -/
theorem matmulX_apply (l : FVec Ideal S5000x128 .bf16) (r : FVec Ideal S128x64 .bf16) (p : Fin 5000) (q : Fin 64) :
    (matmul dot_S5000x128_S128x64_S5000x64_1_0_0_1_n_n none l r (constant S5000x64 .f32 0x00000000#32) : FVec Ideal S5000x64 .f32) (ix2 p q)
      = ∑ k : Fin 128, (l (ix2 p k) : EReal) * (r (ix2 k q) : EReal) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact dotX_lhs_row _ _
    | ⟨1, _⟩ => exact (dotX_lhs_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (dotX_rhs_row _ _).trans hk
    | ⟨1, _⟩ => exact dotX_rhs_col _ _)
  rw [el, er]

/-- Left operand of the `[5000,64] · [64,64]` product: its row is the output's row. -/
theorem dotY_lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … its column is the contracted position. -/
theorem dotY_lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- Right operand: its row is the contracted position … -/
theorem dotY_rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- … its column is the output's column. -/
theorem dotY_rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry `(p, q)` of the `[5000,64] · [64,64]` block product into the zero accumulator. -/
theorem matmulY_apply (l : FVec Ideal S5000x64 .bf16) (r : FVec Ideal S64x64 .bf16) (p : Fin 5000) (q : Fin 64) :
    (matmul dot_S5000x64_S64x64_S5000x64_1_0_0_1_n_n none l r (constant S5000x64 .f32 0x00000000#32) : FVec Ideal S5000x64 .f32) (ix2 p q)
      = ∑ k : Fin 64, (l (ix2 p k) : EReal) * (r (ix2 k q) : EReal) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact dotY_lhs_row _ _
    | ⟨1, _⟩ => exact (dotY_lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dotY_rhs_row _ _).trans hk
    | ⟨1, _⟩ => exact dotY_rhs_col _ _)
  rw [el, er]

/-! ## The body's arithmetic at an index -/

/-- The bias row `[1, 64]` repeated down the 5000 rows of a block, read at `(p, q)`, is its entry `(0, q)`. -/
theorem biasRows_apply (x4 : S1x64.Idx → EReal) (h : S1x64.Broadcasts S5000x64) (p : Fin 5000) (q : Fin 64) :
    broadcastTo S5000x64 x4 h (ix2 p q) = x4 (ix2 (0 : Fin 1) q) :=
  broadcastTo_apply x4 h (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- Entry `(p, q)` of what the body stores: with the format changes the identity on the extended reals and each block
    product a plain sum, it is `max ((x·Wx + y·Wy) + bias, 0)` of row `p` of the two row blocks. -/
theorem pay_apply (x0 : Vec Ideal S5000x128 .f32) (x1 : Vec Ideal S5000x64 .f32) (x2 : Vec Ideal S128x64 .f32) (x3 : Vec Ideal S64x64 .f32) (x4 : Vec Ideal S1x64 .f32) (p : Fin 5000) (q : Fin 64) :
    (k3_pay1 (F := Ideal) x0 x1 x2 x3 x4 : S5000x64.Idx → EReal) (ix2 p q)
      = max ((∑ k : Fin 128, (x0 (ix2 p k) : EReal) * (x2 (ix2 k q) : EReal) + ∑ k : Fin 64, (x1 (ix2 p k) : EReal) * (x3 (ix2 k q) : EReal)) + (x4 (ix2 (0 : Fin 1) q) : EReal)) 0 := by
  unfold k3_pay1
  simp only [shapeCast_self]
  rw [maximumf_apply, addf_apply, addf_apply, matmulX_apply, matmulY_apply, biasRows_apply, broadcast_apply]
  simp only [truncf_apply]
  show max _ (Ideal.ofBits .f32 0x00000000#32) = _
  rw [Ideal.ofBits_zero_f32]

/-! ## From the ten blocks to the array

Point `t` of the grid reads rows `5000·t … 5000·t + 4999` of the two row arrays and the three small arrays whole,
and writes rows `5000·t … 5000·t + 4999` of the output; the ten row ranges tile the 50000 rows. -/

theorem hz : (![0, 0] : Fin 2 → Nat) = fun _ => 0 := funext fun a => by fin_cases a <;> rfl

/-- The block indices of the six windows at each of the ten points (decided): the three row windows sit at row block
    `t`, column block 0; the three small windows at block (0, 0). -/
theorem blockIdx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The five arrays the region reads, as it finds them, at their literal shapes: the two row arrays … -/
abbrev xArr (c : Dev nD) : S50000x128.Idx → EReal := V c main_v23
abbrev yArr (c : Dev nD) : S50000x64.Idx → EReal := V c main_v39
/-- … the two weight matrices and the bias row. -/
abbrev wxArr (c : Dev nD) : S128x64.Idx → EReal := V c main_v40
abbrev wyArr (c : Dev nD) : S64x64.Idx → EReal := V c main_v41
abbrev bArr (c : Dev nD) : S1x64.Idx → EReal := V c main_v42

/-- Entry `(p, q)` of the output as a function of those arrays: row `p` of the two row arrays against the two weight
    matrices, plus the bias row, clamped below at zero. -/
abbrev outAt (c : Dev nD) (p : Fin 50000) (q : Fin 64) : EReal :=
  max ((∑ k : Fin 128, xArr V c (ix2 p k) * wxArr V c (ix2 k q) + ∑ k : Fin 64, yArr V c (ix2 p k) * wyArr V c (ix2 k q))
    + bArr V c (ix2 (0 : Fin 1) q)) 0

/-- The whole output array as that function of its index. -/
abbrev outArr (c : Dev nD) : S50000x64.Idx → EReal := fun i => outAt V c (i 0) (i 1)

/-- Row `p` of the first row window's block at point `t` is row `5000·t + p` of its array. -/
theorem xblk_apply (c : Dev nD) (t : Fin cfg3.N) (p : Fin 5000) (k : Fin 128) (r : Fin 50000) (hr : r.val = t.val * 5000 + p.val) :
    (iblk3 (F := Ideal) V c 0 t : S5000x128.Idx → EReal) (ix2 p k) = xArr V c (ix2 r k) := by
  obtain ⟨e0, e1, -⟩ := blockIdx t
  show V c main_v23 (((cfg3.win 0).blk t).view.emb (ix2 p k)) = V c main_v23 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- Row `p` of the second row window's block at point `t` is row `5000·t + p` of its array. -/
theorem yblk_apply (c : Dev nD) (t : Fin cfg3.N) (p : Fin 5000) (k : Fin 64) (r : Fin 50000) (hr : r.val = t.val * 5000 + p.val) :
    (iblk3 (F := Ideal) V c 1 t : S5000x64.Idx → EReal) (ix2 p k) = yArr V c (ix2 r k) := by
  obtain ⟨-, -, e0, e1, -⟩ := blockIdx t
  show V c main_v39 (((cfg3.win 1).blk t).view.emb (ix2 p k)) = V c main_v39 (ix2 r k)
  refine congrArg _ (funext fun a => Fin.ext ?_)
  match a with
  | ⟨0, _⟩ => show win3_1.index t (0 : Fin 2) * 5000 + 1 * p.val = r.val; omega
  | ⟨1, _⟩ => show win3_1.index t (1 : Fin 2) * 64 + 1 * k.val = k.val; omega

/-- The first weight window's block is its whole array at every point. -/
theorem wxblk_apply (c : Dev nD) (t : Fin cfg3.N) (k : Fin 128) (q : Fin 64) :
    (iblk3 (F := Ideal) V c 2 t : S128x64.Idx → EReal) (ix2 k q) = wxArr V c (ix2 k q) := by
  obtain ⟨-, -, -, -, e0, e1, -⟩ := blockIdx t
  show V c main_v40 (((cfg3.win 2).blk t).view.emb (ix2 k q)) = V c main_v40 (ix2 k q)
  refine congrArg _ (funext fun a => Fin.ext ?_)
  match a with
  | ⟨0, _⟩ => show win3_2.index t (0 : Fin 2) * 128 + 1 * k.val = k.val; omega
  | ⟨1, _⟩ => show win3_2.index t (1 : Fin 2) * 64 + 1 * q.val = q.val; omega

/-- The second weight window's block is its whole array at every point. -/
theorem wyblk_apply (c : Dev nD) (t : Fin cfg3.N) (k : Fin 64) (q : Fin 64) :
    (iblk3 (F := Ideal) V c 3 t : S64x64.Idx → EReal) (ix2 k q) = wyArr V c (ix2 k q) := by
  obtain ⟨-, -, -, -, -, -, e0, e1, -⟩ := blockIdx t
  show V c main_v41 (((cfg3.win 3).blk t).view.emb (ix2 k q)) = V c main_v41 (ix2 k q)
  refine congrArg _ (funext fun a => Fin.ext ?_)
  match a with
  | ⟨0, _⟩ => show win3_3.index t (0 : Fin 2) * 64 + 1 * k.val = k.val; omega
  | ⟨1, _⟩ => show win3_3.index t (1 : Fin 2) * 64 + 1 * q.val = q.val; omega

/-- The bias window's block is its whole array at every point. -/
theorem bblk_apply (c : Dev nD) (t : Fin cfg3.N) (z : Fin 1) (q : Fin 64) :
    (iblk3 (F := Ideal) V c 4 t : S1x64.Idx → EReal) (ix2 z q) = bArr V c (ix2 z q) := by
  obtain ⟨-, -, -, -, -, -, -, -, e0, e1, -⟩ := blockIdx t
  show V c main_v42 (((cfg3.win 4).blk t).view.emb (ix2 z q)) = V c main_v42 (ix2 z q)
  refine congrArg _ (funext fun a => Fin.ext ?_)
  match a with
  | ⟨0, _⟩ => show win3_4.index t (0 : Fin 2) * 1 + 1 * z.val = z.val; omega
  | ⟨1, _⟩ => show win3_4.index t (1 : Fin 2) * 64 + 1 * q.val = q.val; omega

/-- What point `t` writes back is block `t` of `outArr`: the body's stored value at `(p, q)` of the block, with each
    input block read where it sits in its array, is `outAt` at row `5000·t + p`. -/
theorem flushed_eq (c : Dev nD) (t : Fin cfg3.N) :
    (dat3 (F := Ideal) V c).flushed 5 t = ((cfg3.win 5).blk t).view.read (Elt Ideal) (outArr V c) := by
  show (cfg3.win 5).cut (grid3.coords t) ((dat3 (F := Ideal) V c).after 5 t) = _
  rw [after3_5]
  unfold out3_5
  rw [View.canon_unit_zero hz]
  simp only [View.ld_unit_zero (S := S5000x128) hz, View.ld_unit_zero (S := S5000x64) hz, View.ld_unit_zero (S := S128x64) hz, View.ld_unit_zero (S := S64x64) hz, View.ld_unit_zero (S := S1x64) hz]
  obtain ⟨-, -, -, -, -, -, -, -, -, -, e0, e1⟩ := blockIdx t
  funext j
  obtain ⟨p, q, rfl⟩ : ∃ (p : Fin 5000) (q : Fin 64), j = ix2 p q := ⟨j 0, j 1, eq_ix2 j⟩
  have ht : t.val < 10 := t.isLt
  have hr : t.val * 5000 + p.val < 50000 := by omega
  have hemb : ((cfg3.win 5).blk t).view.emb (ix2 p q) = (ix2 (⟨t.val * 5000 + p.val, hr⟩ : Fin 50000) q : S50000x64.Idx) :=
    funext fun a => Fin.ext (by
      match a with
      | ⟨0, _⟩ => show win3_5.index t (0 : Fin 2) * 5000 + 1 * p.val = t.val * 5000 + p.val; omega
      | ⟨1, _⟩ => show win3_5.index t (1 : Fin 2) * 64 + 1 * q.val = q.val; omega)
  refine (pay_apply (iblk3 V c 0 t) (iblk3 V c 1 t) (iblk3 V c 2 t) (iblk3 V c 3 t) (iblk3 V c 4 t) p q).trans ?_
  show _ = outArr V c (((cfg3.win 5).blk t).view.emb (ix2 p q))
  rw [hemb]
  exact congrArg (fun z : EReal => max z 0) (congrArg₂ (· + ·) (congrArg₂ (· + ·)
    (Finset.sum_congr rfl fun k _ => congrArg₂ (· * ·) (xblk_apply V c t p k _ rfl) (wxblk_apply V c t k q))
    (Finset.sum_congr rfl fun k _ => congrArg₂ (· * ·) (yblk_apply V c t p k _ rfl) (wyblk_apply V c t k q)))
    (bblk_apply V c t 0 q))

/-- An index of the output array is in point `t`'s block iff each coordinate is in the block's range on its axis. -/
theorem mem_blk (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v43).slice (win3_5.rect t)).set ↔ _
  rw [View.set_slice_whole, Rect.mem_set_unit]
  exact Iff.rfl

/-- Every row `r` of the output lies in the block of the point `r / 5000`, which writes back. -/
theorem covered (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by show (i 0).val / 5000 < 10; omega⟩, rfl⟩
  obtain ⟨-, -, -, -, -, -, -, -, -, -, e0, e1⟩ := blockIdx t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The output array after the ten points is `outArr`. -/
theorem final (c : Dev nD) : (dat3 (F := Ideal) V c).arrAt 5 cfg3.N = outArr V c :=
  (dat3 (F := Ideal) V c).arrAt_eq_of_cover 5 (outArr V c) (fun t _ => flushed_eq V c t) covered

theorem value (c : Dev nD) (W : Cert.Spec.Mat 192 64) (bias : Cert.Spec.Row 64)
    (hWx : ∀ (k : Fin 128) (q : Fin 64), (V c main_v40 : S128x64.Idx → EReal) (ix2 k q) = W (ix2 (⟨k.val, by omega⟩ : Fin 192) q))
    (hWy : ∀ (k : Fin 64) (q : Fin 64), (V c main_v41 : S64x64.Idx → EReal) (ix2 k q) = W (ix2 (⟨128 + k.val, by omega⟩ : Fin 192) q))
    (hb : ∀ q : Fin 64, (V c main_v42 : S1x64.Idx → EReal) (ix2 (0 : Fin 1) q) = bias (ix1 q))
    (p : Fin 50000) (q : Fin 64) :
    ((dat3 (F := Ideal) V c).arrAt 5 cfg3.N : S50000x64.Idx → EReal) (ix2 p q)
      = Cert.Spec.linRelu (a := 128) (b := 64) (by norm_num) (V c main_v23) (V c main_v39) W bias p q := by
  refine (congrFun (final V c) (ix2 p q)).trans ?_
  show outAt V c p q = _
  unfold Cert.Spec.linRelu Cert.Spec.lin
  exact congrArg (fun z : EReal => max z 0) (congrArg₂ (· + ·) (congrArg₂ (· + ·)
    (Finset.sum_congr rfl fun k _ => congrArg (xArr V c (ix2 p k) * ·) (hWx k q))
    (Finset.sum_congr rfl fun k _ => congrArg (yArr V c (ix2 p k) * ·) (hWy k q)))
    (hb q))

end Cert.KernelIdeal.Region3

end
-- ==== Proof.Take.lean ====
import proofs.«418063_j82540681494777_1_alg».proof.Proof.HostDefs
import Idealize.ShloMosaic.Lib.ValueIdx
import Idealize.ShloMosaic.Lib.ReduceAll
import Idealize.ShloMosaic.Lib.StableHlo.Predicate

set_option maxRecDepth 16384

noncomputable section

namespace Cert.KernelIdeal.Take

open Cert.KernelIdeal Cert.KernelIdeal.Facts₀ Cert.KernelIdeal.Facts Cert.KernelIdeal.Host
open Idealize.ShloMosaic Idealize.ShloMosaic.ValueIdx

/-- A signed word in [-50000, 50000), moved up by 50000 when it is negative, lies in [0, 49999]: both range tests give the
    bit 1, and so does their `and`. The sum does not wrap (read through the unsigned values, modulo 2³²). -/
theorem wrap_bits (w : BitVec 32) (h1 : -50000 ≤ w.toInt) (h2 : w.toInt < 50000) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have h0 : (0#32 : BitVec 32).toInt = 0 := by decide
  have h9 : (49999#32 : BitVec 32).toInt = 49999 := by decide
  rw [IntOp.andi_eq_one, IntOp.cmpi_sge, IntOp.cmpi_sle, h0, h9]
  by_cases hc : IntOp.cmpi .slt w 0#32 = 1#1
  · -- a negative word: w + 50000 lies in [0, 49999]
    rw [hc, select_one]
    rw [IntOp.cmpi_slt, h0] at hc
    have hadd : (IntOp.addi w 50000#32).toInt = w.toInt + 50000 := by
      unfold IntOp.addi
      simp only [BitVec.toInt_eq_toNat_cond, BitVec.toNat_add, BitVec.toNat_ofNat] at h1 h2 hc ⊢
      omega
    rw [hadd]
    omega
  · -- a non-negative word is kept
    rw [eq_zero_of_ne_one hc, select_zero]
    rw [IntOp.cmpi_slt, h0] at hc
    omega

/-- A left fold by `and` that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, h => by
    rw [List.foldl_cons]
    exact foldl_andi_one f l _ (IntOp.andi_eq_one.2 ⟨hi, h a List.mem_cons_self⟩)
      (fun n hn => h n (List.mem_cons_of_mem _ hn))

/-- A `broadcast_in_dim` read at an index is its operand at SOME index (which one does not matter to a claim that holds
    of every element of the operand). -/
theorem broadcastInDim_exists {α : Type} {s t : Shape} (dims : Fin s.rank → Fin t.rank) (hb : s.BroadcastsInDim t dims)
    (x : s.Idx → α) (j : t.Idx) : ∃ k : s.Idx, broadcastInDim t dims hb x j = x k := ⟨_, rfl⟩

/-- An element of the column of wrapped indices is some source index, moved up by 50000 when it is negative. -/
theorem srcWrap_apply (v : IVec S800000 32) (i : S800000x1.Idx) :
    ∃ e : Fin 800000, srcWrap v i
      = Scalar.select (IntOp.cmpi .slt (v (ix1 e)) 0#32) (IntOp.addi (v (ix1 e)) 50000#32) (v (ix1 e)) := by
  unfold srcWrap
  obtain ⟨k, hk⟩ := broadcastInDim_exists ![0] bcast_S800000_S800000x1_0
    (select (cmpi .slt v (broadcastInDim S800000 ![] bcast_S_S800000 (constantI S_ 32 0#32)))
      (addi v (broadcastInDim S800000 ![] bcast_S_S800000 (constantI S_ 32 50000#32))) v) i
  obtain ⟨e, rfl⟩ : ∃ e : Fin 800000, k = ix1 e := ⟨k 0, eq_ix1 k⟩
  exact ⟨e, hk⟩

/-- Under `SrcOk` every wrapped index passes the range test: the `and` over the one-element axis, from 1, of bits that
    are all 1. -/
theorem inRange_srcWrap (v : IVec S800000 32) (h : SrcOk v) (j : S800000.Idx) : inRange (srcWrap v) j = 1#1 := by
  unfold inRange
  rw [Host.reduce_eq_foldl]
  refine foldl_andi_one _ _ _ rfl (fun i _ => ?_)
  show IntOp.andi (IntOp.cmpi .sge (srcWrap v i) 0#32) (IntOp.cmpi .sle (srcWrap v i) 49999#32) = 1#1
  obtain ⟨e, he⟩ := srcWrap_apply v i
  rw [he]
  exact wrap_bits _ (h e).1 (h e).2

theorem take64_eq (x : FVec Ideal S50000x64 .f32) (v : IVec S800000 32) (h : SrcOk v) :
    take64 x v = Host.gather gather_S50000x64_S800000x1_S800000x64_1_0_n_n_0_1_164 x (srcWrap v) := by
  funext j
  unfold take64
  rw [select_apply]
  obtain ⟨k, hk⟩ := broadcastInDim_exists ![0] bcast_S800000_S800000x64_0 (inRange (srcWrap v)) j
  rw [hk, inRange_srcWrap v h k, select_one]

theorem take128_eq (x : FVec Ideal S50000x128 .f32) (v : IVec S800000 32) (h : SrcOk v) :
    take128 x v = Host.gather gather_S50000x128_S800000x1_S800000x128_1_0_n_n_0_1_1128 x (srcWrap v) := by
  funext j
  unfold take128
  rw [select_apply]
  obtain ⟨k, hk⟩ := broadcastInDim_exists ![0] bcast_S800000_S800000x128_0 (inRange (srcWrap v)) j
  rw [hk, inRange_srcWrap v h k, select_one]

end Cert.KernelIdeal.Take

end
-- ==== Proof.Reads.lean ====
import proofs.«418063_j82540681494777_1_alg».proof.Proof.Gen.KernelIdeal
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.Reads

open Cert.KernelIdeal Cert.KernelIdeal.Facts₀ Cert.KernelIdeal.Facts
open Idealize.ShloMosaic Idealize.ShloMosaic.ValueIdx

/-- Rows `off … off + R' - 1` of an [R, C] matrix, read at row `k`, column `q`: the matrix at row `off + k` (named `r`),
    the same column.  A unit-stride slice reads its operand at the index shifted by the offsets. -/
theorem slice_rows {α : Type} {R R' C : Nat} (off : Nat) (x : (⟨2, ![R, C]⟩ : Shape).Idx → α)
    (h : (⟨2, ![R, C]⟩ : Shape).Slices ![off, 0] ⟨2, ![R', C]⟩) (k : Fin R') (q : Fin C) (r : Fin R)
    (hr : r.val = off + k.val) :
    extractStridedSlice ⟨2, ![R', C]⟩ ![off, 0] x h (ix2 k q) = x (ix2 r q) :=
  extractStridedSlice_apply ![off, 0] x h (ix2 k q) (ix2 r q) (fun a => match a with
    | ⟨0, _⟩ => by show r.val = off + k.val; exact hr
    | ⟨1, _⟩ => by show q.val = 0 + q.val; omega)

/-- A vector of `N` entries viewed as a [1, N] row, read at row 0, column `q`: the vector's entry `q`.  Both indices sit
    at row-major position `q`. -/
theorem row_of_vec {α : Type} {N : Nat} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h (ix2 (0 : Fin 1) q) (ix1 q)
    (by rewrite [Shape.rowMajor_val_two, Shape.rowMajor_val_one]; show q.val = 0 * N + q.val; omega)

theorem slice96_lo (x : FVec Ideal S96x128 .f32) (k : Fin 64) (q : Fin 128) :
    extractStridedSlice S64x128 ![0, 0] x slices_S96x128_S64x128_0_0 (ix2 k q) = x (ix2 (⟨k.val, by omega⟩ : Fin 96) q) := by
  exact slice_rows 0 x slices_S96x128_S64x128_0_0 k q _ (Nat.zero_add k.val).symm
theorem slice96_hi (x : FVec Ideal S96x128 .f32) (k : Fin 32) (q : Fin 128) :
    extractStridedSlice S32x128 ![64, 0] x slices_S96x128_S32x128_64_0 (ix2 k q) = x (ix2 (⟨64 + k.val, by omega⟩ : Fin 96) q) := by
  exact slice_rows 64 x slices_S96x128_S32x128_64_0 k q _ rfl
theorem slice192x128_lo (x : FVec Ideal S192x128 .f32) (k : Fin 64) (q : Fin 128) :
    extractStridedSlice S64x128 ![0, 0] x slices_S192x128_S64x128_0_0 (ix2 k q) = x (ix2 (⟨k.val, by omega⟩ : Fin 192) q) := by
  exact slice_rows 0 x slices_S192x128_S64x128_0_0 k q _ (Nat.zero_add k.val).symm
theorem slice192x128_hi (x : FVec Ideal S192x128 .f32) (k : Fin 128) (q : Fin 128) :
    extractStridedSlice S128x128 ![64, 0] x slices_S192x128_S128x128_64_0 (ix2 k q) = x (ix2 (⟨64 + k.val, by omega⟩ : Fin 192) q) := by
  exact slice_rows 64 x slices_S192x128_S128x128_64_0 k q _ rfl
theorem slice160_lo (x : FVec Ideal S160x64 .f32) (k : Fin 128) (q : Fin 64) :
    extractStridedSlice S128x64 ![0, 0] x slices_S160x64_S128x64_0_0 (ix2 k q) = x (ix2 (⟨k.val, by omega⟩ : Fin 160) q) := by
  exact slice_rows 0 x slices_S160x64_S128x64_0_0 k q _ (Nat.zero_add k.val).symm
theorem slice160_hi (x : FVec Ideal S160x64 .f32) (k : Fin 32) (q : Fin 64) :
    extractStridedSlice S32x64 ![128, 0] x slices_S160x64_S32x64_128_0 (ix2 k q) = x (ix2 (⟨128 + k.val, by omega⟩ : Fin 160) q) := by
  exact slice_rows 128 x slices_S160x64_S32x64_128_0 k q _ rfl
theorem slice192x64_lo (x : FVec Ideal S192x64 .f32) (k : Fin 128) (q : Fin 64) :
    extractStridedSlice S128x64 ![0, 0] x slices_S192x64_S128x64_0_0 (ix2 k q) = x (ix2 (⟨k.val, by omega⟩ : Fin 192) q) := by
  exact slice_rows 0 x slices_S192x64_S128x64_0_0 k q _ (Nat.zero_add k.val).symm
theorem slice192x64_hi (x : FVec Ideal S192x64 .f32) (k : Fin 64) (q : Fin 64) :
    extractStridedSlice S64x64 ![128, 0] x slices_S192x64_S64x64_128_0 (ix2 k q) = x (ix2 (⟨128 + k.val, by omega⟩ : Fin 192) q) := by
  exact slice_rows 128 x slices_S192x64_S64x64_128_0 k q _ rfl
theorem row128 (b : FVec Ideal S128 .f32) (q : Fin 128) :
    shapeCast S1x128 b shapeCasts_S128_S1x128 (ix2 (0 : Fin 1) q) = b (ix1 q) := by
  exact row_of_vec b shapeCasts_S128_S1x128 q
theorem row64 (b : FVec Ideal S64 .f32) (q : Fin 64) :
    shapeCast S1x64 b shapeCasts_S64_S1x64 (ix2 (0 : Fin 1) q) = b (ix1 q) := by
  exact row_of_vec b shapeCasts_S64_S1x64 q

end Cert.KernelIdeal.Reads

end
-- ==== Proof.Layers.lean ====
/-
  The kernel program's four results as functions of the eleven argument arrays, on the extended reals.

  A layer sends along every edge the message  [x[src] | edge_attr] · W_msg + b_msg  (`Spec.lin`), averages at every node the
  messages arriving there (`Host.aggr…`: their sum divided by their number, or by 1 where there is none) and updates the node
  to  relu ([x | mean] · W_app + b_app)  (`Spec.linRelu`).  `msg1`, `hid` are the first layer's messages and result, `msg2`,
  `out` the second layer's, which reads `hid` where the first reads the input features.  The rows `x[src]` are the gather
  at the wrapped source indices (`Host.srcWrap`).
-/
import proofs.«418063_j82540681494777_1_alg».proof.Proof.HostDefs
import proofs.«418063_j82540681494777_1_alg».proof.Proof.Spec

noncomputable section

namespace Cert.KernelIdeal.Layers

open Cert.KernelIdeal Cert.KernelIdeal.Host
open Idealize.ShloMosaic Idealize.ShloMosaic.ValueIdx

variable (x0 : FVec Ideal S50000x64 .f32) (x1 : IVec S2x800000 32) (x2 : FVec Ideal S800000x32 .f32)
  (x3 : FVec Ideal S96x128 .f32) (x4 : FVec Ideal S128 .f32) (x5 : FVec Ideal S192x128 .f32) (x6 : FVec Ideal S128 .f32)
  (x7 : FVec Ideal S160x64 .f32) (x8 : FVec Ideal S64 .f32) (x9 : FVec Ideal S192x64 .f32) (x10 : FVec Ideal S64 .f32)

/-- The first layer's message on every edge. -/
def msg1 : FVec Ideal S800000x128 .f32 := fun j =>
  Cert.Spec.lin (n := 800000) (a := 64) (b := 32) (c := 96) (o := 128) (by norm_num)
    (Host.gather gather_S50000x64_S800000x1_S800000x64_1_0_n_n_0_1_164 x0 (srcWrap (srcOf x1))) x2 x3 x4 (j 0) (j 1)

/-- The first layer's result at every node. -/
def hid : FVec Ideal S50000x128 .f32 := fun j =>
  Cert.Spec.linRelu (n := 50000) (a := 64) (b := 128) (c := 192) (o := 128) (by norm_num)
    x0 (aggr128 (msg1 x0 x1 x2 x3 x4) (dstOf x1)) x5 x6 (j 0) (j 1)

/-- The second layer's message on every edge. -/
def msg2 : FVec Ideal S800000x64 .f32 := fun j =>
  Cert.Spec.lin (n := 800000) (a := 128) (b := 32) (c := 160) (o := 64) (by norm_num)
    (Host.gather gather_S50000x128_S800000x1_S800000x128_1_0_n_n_0_1_1128 (hid x0 x1 x2 x3 x4 x5 x6) (srcWrap (srcOf x1))) x2 x7 x8 (j 0) (j 1)

/-- The second layer's result at every node: what the program returns. -/
def out : FVec Ideal S50000x64 .f32 := fun j =>
  Cert.Spec.linRelu (n := 50000) (a := 128) (b := 64) (c := 192) (o := 64) (by norm_num)
    (hid x0 x1 x2 x3 x4 x5 x6) (aggr64 (msg2 x0 x1 x2 x3 x4 x5 x6 x7 x8) (dstOf x1)) x9 x10 (j 0) (j 1)

/-- An array of rank 2 that agrees with a function of the two coordinates at every pair of coordinates is that function
    of an index's coordinates. -/
theorem eq_of_entries {n o : Nat} (A : (⟨2, ![n, o]⟩ : Shape).Idx → EReal) (f : Fin n → Fin o → EReal)
    (h : ∀ (p : Fin n) (q : Fin o), A (ix2 p q) = f p q) : A = fun j => f (j 0) (j 1) := by
  funext j
  exact (congrArg A (eq_ix2 j)).trans (h (j 0) (j 1))

end Cert.KernelIdeal.Layers

end
-- ==== Proof.KernelValue.lean ====
/-
  The kernel program's result buffer as a function of its eleven argument arrays.

  Each pallas_call's output array is its block function read over the whole array (the four region modules); the arrays a
  call finds at its entry are the host stretches' functions of earlier buffers (the boundary lemmas); a gather whose every
  source index names a row of its table returns the rows it read (`Take`).  Composed from the last call back to the
  launch, the result buffer holds `Layers.out` of the arguments.
-/
import proofs.«418063_j82540681494777_1_alg».proof.Proof.Boundary
import proofs.«418063_j82540681494777_1_alg».proof.Proof.Region0
import proofs.«418063_j82540681494777_1_alg».proof.Proof.Region1
import proofs.«418063_j82540681494777_1_alg».proof.Proof.Region2
import proofs.«418063_j82540681494777_1_alg».proof.Proof.Region3
import proofs.«418063_j82540681494777_1_alg».proof.Proof.Take
import proofs.«418063_j82540681494777_1_alg».proof.Proof.Reads
import proofs.«418063_j82540681494777_1_alg».proof.Proof.Layers

set_option maxRecDepth 16384

noncomputable section

namespace Cert.KernelIdeal.KValue

open Cert.KernelIdeal Cert.KernelIdeal.Gen Cert.KernelIdeal.Host Cert.KernelIdeal.Layers Cert.KernelIdeal.Boundary
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The argument arrays as launched, at their literal types. -/
abbrev X0 : FVec Ideal S50000x64 .f32 := m ((c : Thread nD τ).loc main_arg0)
abbrev X1 : IVec S2x800000 32 := m ((c : Thread nD τ).loc main_arg1)
abbrev X2 : FVec Ideal S800000x32 .f32 := m ((c : Thread nD τ).loc main_arg2)
abbrev X3 : FVec Ideal S96x128 .f32 := m ((c : Thread nD τ).loc main_arg3)
abbrev X4 : FVec Ideal S128 .f32 := m ((c : Thread nD τ).loc main_arg4)
abbrev X5 : FVec Ideal S192x128 .f32 := m ((c : Thread nD τ).loc main_arg5)
abbrev X6 : FVec Ideal S128 .f32 := m ((c : Thread nD τ).loc main_arg6)
abbrev X7 : FVec Ideal S160x64 .f32 := m ((c : Thread nD τ).loc main_arg7)
abbrev X8 : FVec Ideal S64 .f32 := m ((c : Thread nD τ).loc main_arg8)
abbrev X9 : FVec Ideal S192x64 .f32 := m ((c : Thread nD τ).loc main_arg9)
abbrev X10 : FVec Ideal S64 .f32 := m ((c : Thread nD τ).loc main_arg10)

variable (hs : SrcOk (srcOf (X1 m c)))
include hs

/-- The first message call leaves the first layer's messages. -/
theorem k8_eq : K8 m ρ c = msg1 (X0 m c) (X1 m c) (X2 m c) (X3 m c) (X4 m c) := by
  unfold msg1
  refine eq_of_entries _ _ fun p q => ?_
  have h := Region0.value (V3 m ρ) c (X3 m c) (X4 m c)
    (fun k q => (congrFun (w3_v4 m ρ c) (ix2 k q)).trans (Reads.slice96_lo _ k q))
    (fun k q => (congrFun (w3_v5 m ρ c) (ix2 k q)).trans (Reads.slice96_hi _ k q))
    (fun q => (congrFun (w3_v7 m ρ c) (ix2 (0 : Fin 1) q)).trans (Reads.row128 _ q)) p q
  have e6 : V3 m ρ c main_v6 = take64 (X0 m c) (srcOf (X1 m c)) := w3_v6 m ρ c
  have e2 : V3 m ρ c main_arg2 = (X2 m c) := w3_arg2 m ρ c
  rw [e6, Take.take64_eq _ _ hs, e2] at h
  exact h

/-- The first update call leaves the first layer's result. -/
theorem k23_eq : K23 m ρ c = hid (X0 m c) (X1 m c) (X2 m c) (X3 m c) (X4 m c) (X5 m c) (X6 m c) := by
  unfold hid
  refine eq_of_entries _ _ fun p q => ?_
  have h := Region1.value (V5 m ρ) c (X5 m c) (X6 m c)
    (fun k q => (congrFun (w5_v20 m ρ c) (ix2 k q)).trans (Reads.slice192x128_lo _ k q))
    (fun k q => (congrFun (w5_v21 m ρ c) (ix2 k q)).trans (Reads.slice192x128_hi _ k q))
    (fun q => (congrFun (w5_v22 m ρ c) (ix2 (0 : Fin 1) q)).trans (Reads.row128 _ q)) p q
  have e0 : V5 m ρ c main_arg0 = (X0 m c) := w5_arg0 m ρ c
  have e19 : V5 m ρ c main_v19 = aggr128 (K8 m ρ c) (dstOf (X1 m c)) := w5_v19 m ρ c
  rw [e0, e19, k8_eq m ρ c hs] at h
  exact h

/-- The second message call leaves the second layer's messages. -/
theorem k28_eq : K28 m ρ c = msg2 (X0 m c) (X1 m c) (X2 m c) (X3 m c) (X4 m c) (X5 m c) (X6 m c) (X7 m c) (X8 m c) := by
  unfold msg2
  refine eq_of_entries _ _ fun p q => ?_
  have h := Region2.value (V9 m ρ) c (X7 m c) (X8 m c)
    (fun k q => (congrFun (w9_v24 m ρ c) (ix2 k q)).trans (Reads.slice160_lo _ k q))
    (fun k q => (congrFun (w9_v25 m ρ c) (ix2 k q)).trans (Reads.slice160_hi _ k q))
    (fun q => (congrFun (w9_v27 m ρ c) (ix2 (0 : Fin 1) q)).trans (Reads.row64 _ q)) p q
  have e26 : V9 m ρ c main_v26 = take128 (K23 m ρ c) (srcOf (X1 m c)) := w9_v26 m ρ c
  have e2 : V9 m ρ c main_arg2 = (X2 m c) := w9_arg2 m ρ c
  rw [e26, Take.take128_eq _ _ hs, k23_eq m ρ c hs, e2] at h
  exact h

/-- The second update call leaves the second layer's result. -/
theorem k43_eq : K43 m ρ c = out (X0 m c) (X1 m c) (X2 m c) (X3 m c) (X4 m c) (X5 m c) (X6 m c) (X7 m c) (X8 m c) (X9 m c) (X10 m c) := by
  unfold out
  refine eq_of_entries _ _ fun p q => ?_
  have h := Region3.value (V11 m ρ) c (X9 m c) (X10 m c)
    (fun k q => (congrFun (w11_v40 m ρ c) (ix2 k q)).trans (Reads.slice192x64_lo _ k q))
    (fun k q => (congrFun (w11_v41 m ρ c) (ix2 k q)).trans (Reads.slice192x64_hi _ k q))
    (fun q => (congrFun (w11_v42 m ρ c) (ix2 (0 : Fin 1) q)).trans (Reads.row64 _ q)) p q
  have e23 : V11 m ρ c main_v23 = K23 m ρ c := w11_v23 m ρ c
  have e39 : V11 m ρ c main_v39 = aggr64 (K28 m ρ c) (dstOf (X1 m c)) := w11_v39 m ρ c
  rw [e23, e39, k28_eq m ρ c hs, k23_eq m ρ c hs] at h
  exact h

/-- THE RESULT BUFFER at the last boundary: the second layer's result of the arguments as launched. -/
theorem result : W12 m ρ c (Proc.devRef .tc main_v43) = out (X0 m c) (X1 m c) (X2 m c) (X3 m c) (X4 m c) (X5 m c) (X6 m c) (X7 m c) (X8 m c) (X9 m c) (X10 m c) :=
  (w12_v43 m ρ c).trans (k43_eq m ρ c hs)

end Cert.KernelIdeal.KValue

end
-- ==== Proof.PreDecode.lean ====
/-
  The precondition's last conjunct, read back.  The printed predicate is a chain of conjunctions; its last term is the
  conjunction, over all 800000 edges, of "row 0 of the edge list is at least -50000 and below 50000" (two signed
  compares against broadcast scalars).  The whole predicate being the bit 1 makes that last term 1; a conjunction over
  all positions that is 1 has a 1 at every position; a signed compare that is 1 orders the two words as integers; and the
  word 4294917296 read signed is -50000.
-/
import proofs.«418063_j82540681494777_1_alg».proof.Defs
import proofs.«418063_j82540681494777_1_alg».proof.Proof.Gen.Pre_finite_inputs
import proofs.«418063_j82540681494777_1_alg».proof.Proof.HostDefs
import Idealize.ShloMosaic.Lib.ValueIdx
import Idealize.ShloMosaic.Lib.ReduceAll
import Idealize.ShloMosaic.Lib.StableHlo.Predicate

set_option maxRecDepth 16384

noncomputable section

namespace Cert.PreDecode

open Idealize.ShloMosaic Idealize.ShloMosaic.TcCoe Idealize.ShloMosaic.ValueIdx Idealize.SL.Sem

/-- The rank-0 shape has one index. -/
instance subsingleton_scalar_idx : Subsingleton (⟨0, ![]⟩ : Shape).Idx := ⟨fun a b => funext fun d => d.elim0⟩

/-- The two's-complement word of -50000, read signed. -/
theorem toInt_neg50000 : (4294917296#32 : BitVec 32).toInt = -50000 := by decide

/-- The word of 50000, read signed. -/
theorem toInt_50000 : (50000#32 : BitVec 32).toInt = 50000 := by decide

/-- A scalar broadcast to any shape reads the scalar's one entry at every position. -/
theorem bcast0 {α : Type} {t : Shape} (h : (⟨0, ![]⟩ : Shape).BroadcastsInDim t ![]) (v : (⟨0, ![]⟩ : Shape).Idx → α)
    (j : t.Idx) : broadcastInDim t ![] h v j = v ValueIdx.ix0 := by
  unfold broadcastInDim
  exact congrArg v (funext fun a => a.elim0)

/-- The predicate's last part: if it is 1 at its one index, then so is its last conjunct, the conjunction over all edges
    of the two compares; hence at every edge the first word is at least the scalar it is compared with, read signed, and
    row 0 of the edge list is below 50000. -/
theorem part3_last (x1 : IVec Cert.Pre_finite_inputs.S2x800000 32) (v48 : IVec Cert.Pre_finite_inputs.S_ 1)
    (v50 : IVec Cert.Pre_finite_inputs.S800000 32) (c18 : IVec Cert.Pre_finite_inputs.S_ 32)
    (h : Cert.Pre_finite_inputs.fn_part3 (F := Ideal) x1 v48 v50 c18 ValueIdx.ix0 = 1#1) (e : Fin 800000) :
    (c18 ValueIdx.ix0).toInt ≤ (v50 (ValueIdx.ix1 e)).toInt ∧
      (shapeCast Cert.Pre_finite_inputs.S800000
        (extractStridedSlice Cert.Pre_finite_inputs.S1x800000 ![0, 0] x1
          Cert.Pre_finite_inputs.Facts.slices_S2x800000_S1x800000_0_0)
        Cert.Pre_finite_inputs.Facts.shapeCasts_S1x800000_S800000 (ValueIdx.ix1 e)).toInt < 50000 := by
  -- the part's result is (everything before) ∧ (the conjunction over all edges)
  obtain ⟨-, h58⟩ := IntOp.andi_eq_one.1 h
  -- a conjunction over all positions that is 1 is 1 at each
  have h57 := Host.reduce_andi_all _ _ _ _ _ h58 (ValueIdx.ix1 e)
  obtain ⟨h52, h56⟩ := IntOp.andi_eq_one.1 h57
  -- a signed compare that is 1 orders its operands as integers
  have h52' := IntOp.cmpi_sge.1 h52
  have h56' := IntOp.cmpi_slt.1 h56
  refine ⟨?_, ?_⟩
  · exact (congrArg BitVec.toInt (bcast0 _ c18 (ValueIdx.ix1 e))).ge.trans h52'
  · exact lt_of_lt_of_eq h56' toInt_50000

theorem srcOk_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.KernelIdeal.Host.SrcOk (Cert.KernelIdeal.Host.srcOf (m ((c.tc : Thread Cert.KernelIdeal.nD Cert.KernelIdeal.τ).loc Cert.KernelIdeal.main_arg1))) := by
  intro e
  -- the predicate at its one index; its three parts call one another, the last holding the edge-list conjunct
  have h0 : Cert.Pre_finite_inputs.fn (F := Ideal) _ _ _ _ _ _ _ _ _ _ _ ValueIdx.ix0 = 1#1 := congrFun (h c) ValueIdx.ix0
  have h3 := part3_last _ _ _ _ h0 e
  -- the scalar compared from below is the word of -50000; the first word is row 0 of the edge list
  exact ⟨le_of_eq_of_le toInt_neg50000.symm h3.1, h3.2⟩

end Cert.PreDecode

end
-- ==== Proof.RefMsg.lean ====
import proofs.«418063_j82540681494777_1_alg».proof.Proof.ReadStages
import proofs.«418063_j82540681494777_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefMsg

open Cert.ReferenceIdeal Cert.ReferenceIdeal.Gen Cert.ReferenceIdeal.ReadP
open Idealize.ShloMosaic Idealize.ShloMosaic.TcCoe Idealize.ShloMosaic.ValueIdx Idealize.SL.Sem

/-! ## A row-wise concatenation of two blocks, read one entry at a time

`[x | y]` with `x : [n, a]` and `y : [n, b]` has, in row `p`, the entries of `x`'s row `p` in its first `a` columns
and the entries of `y`'s row `p` in the next `b`. -/

section Concat
variable {α : Type}

/-- `[x | y]` at row `p` and a column `k < a` of the first block is `x p k`. -/
theorem concat_left {n a b c : Nat}
    (hc : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin a) (hk : k.val < c) :
    concatenate (⟨2, ![n, c]⟩ : Shape) 1 [⟨⟨2, ![n, a]⟩, x⟩, ⟨⟨2, ![n, b]⟩, y⟩] hc (ix2 p (⟨k.val, hk⟩ : Fin c))
      = x (ix2 p k) :=
  concatenate_pair_apply_left (t := ⟨2, ![n, c]⟩) (s₁ := ⟨2, ![n, a]⟩) (s₂ := ⟨2, ![n, b]⟩) 1 x y hc _ rfl (ix2 p k)
    (fun d => by match d with | ⟨0, _⟩ => rfl | ⟨1, _⟩ => rfl)

/-- `[x | y]` at row `p` and column `a + k`, `k < b`, is `y p k`: the column counted from the start of the second
    block. -/
theorem concat_right {n a b c : Nat}
    (hc : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin b) (hk : a + k.val < c) :
    concatenate (⟨2, ![n, c]⟩ : Shape) 1 [⟨⟨2, ![n, a]⟩, x⟩, ⟨⟨2, ![n, b]⟩, y⟩] hc (ix2 p (⟨a + k.val, hk⟩ : Fin c))
      = y (ix2 p k) :=
  concatenate_pair_apply_right (t := ⟨2, ![n, c]⟩) (s₁ := ⟨2, ![n, a]⟩) (s₂ := ⟨2, ![n, b]⟩) 1 x y hc _ rfl rfl (ix2 p k)
    (fun d hd => by match d with | ⟨0, _⟩ => rfl | ⟨1, _⟩ => exact absurd rfl hd)
    (by show k.val + a = a + k.val; omega)

end Concat

/-- Entry `(p, q)` of `[x | y] · W + bias`, the product taken over all `c = a + b` columns of the concatenated block
    at once, is the sum of the two partial products plus the bias: the sum over `c` columns splits into the first `a`
    and the last `b` (commutativity and associativity of addition only), and in each half the concatenated block is
    `x`, respectively `y`. -/
theorem lin_of_concat {n a b c o : Nat} (hab : a + b = c)
    (hc : Shape.Concatenates [(⟨2, ![n, a]⟩ : Shape), ⟨2, ![n, b]⟩] ⟨2, ![n, c]⟩ 1)
    (x : Cert.Spec.Mat n a) (y : Cert.Spec.Mat n b) (W : Cert.Spec.Mat c o) (bias : Cert.Spec.Row o)
    (p : Fin n) (q : Fin o) :
    (∑ k : Fin c, concatenate (⟨2, ![n, c]⟩ : Shape) 1 [⟨⟨2, ![n, a]⟩, x⟩, ⟨⟨2, ![n, b]⟩, y⟩] hc (ix2 p k) * W (ix2 k q))
        + bias (ix1 q)
      = Cert.Spec.lin (le_of_eq hab) x y W bias p q := by
  unfold Cert.Spec.lin
  rw [Cert.Spec.sum_split hab]
  congr 2
  · refine Finset.sum_congr rfl fun k _ => ?_
    rw [concat_left hc x y p k (by omega)]
  · refine Finset.sum_congr rfl fun k _ => ?_
    rw [concat_right hc x y p k (by omega)]

/-! ## The two message layers of the reference

Each layer is a concatenation `[h | e]` along the columns, a product with the weight matrix contracting the columns
with the weight's rows, and the bias row broadcast over all rows and added. -/

/-- Layer 1: entry `(p, q)` of `[gathered x | e] · W₁ + b₁` is `lin` of the gathered block, the edge block, `W₁`, `b₁`. -/
theorem msg1 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (p : Fin 800000) (q : Fin 128) :
    val_main_v15 (F := Ideal) x0 x1 x2 x3 x4 (ix2 p q)
      = Cert.Spec.lin (a := 64) (b := 32) (by norm_num) (val_main_v10 (F := Ideal) x0 x1) x2 x3 x4 p q := by
  -- the sum of the product's entry and the bias's, each read at the index
  rw [val_main_v15_apply, val_main_v12_apply, val_main_v14_apply, val_main_v13_apply, Ideal.addf_def]
  unfold val_main_v11
  -- the gathered block is used only as an array
  generalize val_main_v10 (F := Ideal) x0 x1 = g
  -- the indices the product and the broadcasts read, by coordinates
  have el : ∀ k : Fin 96, lidx_main_v12 (ix2 p q) k = ix2 p k := fun k =>
    funext fun d => by match d with | ⟨0, _⟩ => rfl | ⟨1, _⟩ => rfl
  have er : ∀ k : Fin 96, ridx_main_v12 (ix2 p q) k = ix2 k q := fun k =>
    funext fun d => by match d with | ⟨0, _⟩ => rfl | ⟨1, _⟩ => rfl
  have eb : idx_main_v13 (idx_main_v14 (ix2 p q)) = ix1 q :=
    funext fun d => by match d with | ⟨0, _⟩ => rfl
  simp only [el, er, eb]
  exact lin_of_concat (n := 800000) (a := 64) (b := 32) (c := 96) (o := 128) rfl
    concatenates_S800000x64_S800000x32_S800000x96_d1 g x2 x3 x4 p q

/-- Layer 2: entry `(p, q)` of `[gathered h | e] · W₂ + b₂` is `lin` of the gathered block, the edge block, `W₂`, `b₂`. -/
theorem msg2 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S192x128, .f32⟩ : BufTy).Contents (Elt Ideal)) (x6 : (⟨S128, .f32⟩ : BufTy).Contents (Elt Ideal)) (x7 : (⟨S160x64, .f32⟩ : BufTy).Contents (Elt Ideal)) (x8 : (⟨S64, .f32⟩ : BufTy).Contents (Elt Ideal)) (p : Fin 800000) (q : Fin 64) :
    val_main_v44 (F := Ideal) x0 x1 x2 x3 x4 x5 x6 x7 x8 (ix2 p q)
      = Cert.Spec.lin (a := 128) (b := 32) (by norm_num) (val_main_v39 (F := Ideal) x0 x1 x2 x3 x4 x5 x6) x2 x7 x8 p q := by
  rw [val_main_v44_apply, val_main_v41_apply, val_main_v43_apply, val_main_v42_apply, Ideal.addf_def]
  unfold val_main_v40
  generalize val_main_v39 (F := Ideal) x0 x1 x2 x3 x4 x5 x6 = g
  have el : ∀ k : Fin 160, lidx_main_v41 (ix2 p q) k = ix2 p k := fun k =>
    funext fun d => by match d with | ⟨0, _⟩ => rfl | ⟨1, _⟩ => rfl
  have er : ∀ k : Fin 160, ridx_main_v41 (ix2 p q) k = ix2 k q := fun k =>
    funext fun d => by match d with | ⟨0, _⟩ => rfl | ⟨1, _⟩ => rfl
  have eb : idx_main_v42 (idx_main_v43 (ix2 p q)) = ix1 q :=
    funext fun d => by match d with | ⟨0, _⟩ => rfl
  simp only [el, er, eb]
  exact lin_of_concat (n := 800000) (a := 128) (b := 32) (c := 160) (o := 64) rfl
    concatenates_S800000x128_S800000x32_S800000x160_d1 g x2 x7 x8 p q

end Cert.ReferenceIdeal.RefMsg

end
-- ==== Proof.RefUpd.lean ====
import proofs.«418063_j82540681494777_1_alg».proof.Proof.ReadStages
import proofs.«418063_j82540681494777_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefUpd

open Cert.ReferenceIdeal Cert.ReferenceIdeal.Gen Cert.ReferenceIdeal.ReadP
open Idealize.ShloMosaic Idealize.ShloMosaic.TcCoe Idealize.ShloMosaic.ValueIdx Idealize.SL.Sem
open scoped BigOperators

/-!
  One node-update layer of the reference computes, at row `p` and column `q`,

      max ( Σ_{k < a + b} [x | y] p k · W k q  +  bias q ) 0 ,

  where `[x | y]` is the two blocks `x : [n, a]` and `y : [n, b]` joined along the columns. Column `k < a` of the joined
  array is column `k` of `x`, and column `a + k` is column `k` of `y`; a sum over `a + b` indices is the sum over the
  first `a` plus the sum over the last `b` (commutativity and associativity of addition on the extended reals only).
  So the layer's entry is `Cert.Spec.linRelu` of the two blocks, the weights and the bias.
-/

variable {α : Type}

/-- Two blocks of `n` rows joined along the columns, read at a column of the first block. -/
theorem concat_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (p : Fin n) (k : Fin a) (hk : k.val < c) :
    concatenate ⟨2, ![n, c]⟩ 1 [⟨⟨2, ![n, a]⟩, x⟩, ⟨⟨2, ![n, b]⟩, y⟩] h (ix2 p (⟨k.val, hk⟩ : Fin c)) = x (ix2 p k) := by
  refine concatenate_pair_apply_left (t := ⟨2, ![n, c]⟩) (s₁ := ⟨2, ![n, a]⟩) (s₂ := ⟨2, ![n, b]⟩) (1 : Fin 2) x y h _ rfl (ix2 p k) ?_
  intro d
  match d with
  | ⟨0, _⟩ => rfl
  | ⟨1, _⟩ => rfl

/-- The same, read at a column of the second block: column `a + k` of the joined array is column `k` of `y`. -/
theorem concat_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (p : Fin n) (k : Fin b) (hk : a + k.val < c) :
    concatenate ⟨2, ![n, c]⟩ 1 [⟨⟨2, ![n, a]⟩, x⟩, ⟨⟨2, ![n, b]⟩, y⟩] h (ix2 p (⟨a + k.val, hk⟩ : Fin c)) = y (ix2 p k) := by
  refine concatenate_pair_apply_right (t := ⟨2, ![n, c]⟩) (s₁ := ⟨2, ![n, a]⟩) (s₂ := ⟨2, ![n, b]⟩) (1 : Fin 2) x y h _ rfl rfl (ix2 p k) ?_ ?_
  · intro d hd
    match d, hd with
    | ⟨0, _⟩, _ => rfl
    | ⟨1, _⟩, hd => exact absurd rfl hd
  · show k.val + a = a + k.val
    omega

/-- The product of the joined block with the weights, plus the bias, clipped below at zero, is `linRelu`. -/
theorem linRelu_of_concat {n a b c o : Nat} (hc : a + b = c) (x : Cert.Spec.Mat n a) (y : Cert.Spec.Mat n b)
    (W : Cert.Spec.Mat c o) (bias : Cert.Spec.Row o)
    (h : Shape.Concatenates [(⟨2, ![n, a]⟩ : Shape), ⟨2, ![n, b]⟩] ⟨2, ![n, c]⟩ 1) (p : Fin n) (q : Fin o) :
    max ((∑ k : Fin c, concatenate ⟨2, ![n, c]⟩ 1 [⟨⟨2, ![n, a]⟩, x⟩, ⟨⟨2, ![n, b]⟩, y⟩] h (ix2 p k) * W (ix2 k q))
          + bias (ix1 q)) 0
      = Cert.Spec.linRelu (Nat.le_of_eq hc) x y W bias p q := by
  unfold Cert.Spec.linRelu Cert.Spec.lin
  rw [Cert.Spec.sum_split hc]
  congr 2
  congr 1
  · refine Finset.sum_congr rfl fun k _ => ?_
    rw [concat_left]
  · refine Finset.sum_congr rfl fun k _ => ?_
    rw [concat_right]

/-- Layer 1: blocks of 64 and 128 columns against the 192 rows of the weights `x5`, bias `x6`. The second block is
    the aggregated messages, carried as an unknown array. -/
theorem upd1 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S192x128, .f32⟩ : BufTy).Contents (Elt Ideal)) (x6 : (⟨S128, .f32⟩ : BufTy).Contents (Elt Ideal)) (p : Fin 50000) (q : Fin 128) :
    val_main_v32 (F := Ideal) x0 x1 x2 x3 x4 x5 x6 (ix2 p q)
      = Cert.Spec.linRelu (a := 64) (b := 128) (by norm_num) x0 (val_main_v26 (F := Ideal) x0 x1 x2 x3 x4) x5 x6 p q := by
  rw [val_main_v32_apply, val_main_v31_apply, val_main_v28_apply, val_main_v30_apply, val_main_v29_apply,
    val_main_call0_v0_apply, val_main_call0_cst_apply]
  unfold val_main_v27
  generalize val_main_v26 (F := Ideal) x0 x1 x2 x3 x4 = y
  rw [Ideal.maximumf_def, Ideal.addf_def, Ideal.ofBits_def, Ideal.ofBits_zero_f32]
  have hl : ∀ k : Fin 192, lidx_main_v28 (ix2 p q) k = ix2 p k := fun k => funext fun d => by
    match d with
    | ⟨0, _⟩ => rfl
    | ⟨1, _⟩ => rfl
  have hr : ∀ k : Fin 192, ridx_main_v28 (ix2 p q) k = ix2 k q := fun k => funext fun d => by
    match d with
    | ⟨0, _⟩ => rfl
    | ⟨1, _⟩ => rfl
  have hb : idx_main_v29 (idx_main_v30 (ix2 p q)) = ix1 q := funext fun d => by
    match d with
    | ⟨0, _⟩ => rfl
  simp only [hl, hr, hb]
  exact linRelu_of_concat (by norm_num) x0 y x5 x6 concatenates_S50000x64_S50000x128_S50000x192_d1 p q

/-- Layer 2: blocks of 128 and 64 columns against the 192 rows of the weights `x9`, bias `x10`. Both blocks (the
    first layer's result and the second layer's aggregated messages) are carried as unknown arrays. -/
theorem upd2 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S192x128, .f32⟩ : BufTy).Contents (Elt Ideal)) (x6 : (⟨S128, .f32⟩ : BufTy).Contents (Elt Ideal)) (x7 : (⟨S160x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) (p : Fin 50000) (q : Fin 64) :
    val_main_v61 (F := Ideal) x0 x1 x2 x3 x4 x5 x6 x7 x8 x9 x10 (ix2 p q)
      = Cert.Spec.linRelu (a := 128) (b := 64) (by norm_num) (val_main_v32 (F := Ideal) x0 x1 x2 x3 x4 x5 x6) (val_main_v55 (F := Ideal) x0 x1 x2 x3 x4 x5 x6 x7 x8) x9 x10 p q := by
  rw [val_main_v61_apply, val_main_v60_apply, val_main_v57_apply, val_main_v59_apply, val_main_v58_apply,
    val_main_call1_v0_apply, val_main_call1_cst_apply]
  unfold val_main_v56
  generalize val_main_v32 (F := Ideal) x0 x1 x2 x3 x4 x5 x6 = u
  generalize val_main_v55 (F := Ideal) x0 x1 x2 x3 x4 x5 x6 x7 x8 = y
  rw [Ideal.maximumf_def, Ideal.addf_def, Ideal.ofBits_def, Ideal.ofBits_zero_f32]
  have hl : ∀ k : Fin 192, lidx_main_v57 (ix2 p q) k = ix2 p k := fun k => funext fun d => by
    match d with
    | ⟨0, _⟩ => rfl
    | ⟨1, _⟩ => rfl
  have hr : ∀ k : Fin 192, ridx_main_v57 (ix2 p q) k = ix2 k q := fun k => funext fun d => by
    match d with
    | ⟨0, _⟩ => rfl
    | ⟨1, _⟩ => rfl
  have hb : idx_main_v58 (idx_main_v59 (ix2 p q)) = ix1 q := funext fun d => by
    match d with
    | ⟨0, _⟩ => rfl
  simp only [hl, hr, hb]
  exact linRelu_of_concat (by norm_num) u y x9 x10 concatenates_S50000x128_S50000x64_S50000x192_d1 p q

end Cert.ReferenceIdeal.RefUpd

end
-- ==== Proof.RefBridge.lean ====
/-
  The reference program's result as the kernel program's function of the arguments.

  Layer by layer the reference's stages are the kernel program's: its gathers read the same rows at the same wrapped source
  indices, its means over incoming edges are the same scatter-adds and quotient, and its products with the concatenated
  blocks are the two partial products the kernel adds (`RefMsg`, `RefUpd`).
-/
import proofs.«418063_j82540681494777_1_alg».proof.Proof.ReadStages
import proofs.«418063_j82540681494777_1_alg».proof.Proof.Gen.KernelIdeal
import proofs.«418063_j82540681494777_1_alg».proof.Proof.RefMsg
import proofs.«418063_j82540681494777_1_alg».proof.Proof.RefUpd
import proofs.«418063_j82540681494777_1_alg».proof.Proof.Layers

set_option maxRecDepth 16384

noncomputable section

namespace Cert.RefBridge

open Cert.ReferenceIdeal Cert.ReferenceIdeal.ReadP
open Idealize.ShloMosaic Idealize.ShloMosaic.ValueIdx

section AnyInstance

variable {F : FTy → Type} [FloatOps F]

/-- The reference's first gather reads the rows the kernel program's wrapped source indices name. -/
theorem gather64 (x0 : (⟨S50000x64, .f32⟩ : BufTy).Contents (Elt F)) (x1 : (⟨S2x800000, .i32⟩ : BufTy).Contents (Elt F)) :
    val_main_v10 (F := F) x0 x1
      = Host.gather Cert.KernelIdeal.gather_S50000x64_S800000x1_S800000x64_1_0_n_n_0_1_164 x0 (Cert.KernelIdeal.Host.srcWrap (Cert.KernelIdeal.Host.srcOf x1)) := by
  unfold val_main_v10 val_main_v9 val_main_v8 val_main_v5 val_main_v7 val_main_v4 val_main_v6 val_main_c val_main_c_0 val_main_v1 val_main_v0
    Cert.KernelIdeal.Host.srcWrap Cert.KernelIdeal.Host.srcOf
  rfl

/-- The reference's first mean over incoming edges is the kernel program's, of the same messages. -/
theorem aggr128 (x0 : (⟨S50000x64, .f32⟩ : BufTy).Contents (Elt F)) (x1 : (⟨S2x800000, .i32⟩ : BufTy).Contents (Elt F)) (x2 : (⟨S800000x32, .f32⟩ : BufTy).Contents (Elt F)) (x3 : (⟨S96x128, .f32⟩ : BufTy).Contents (Elt F)) (x4 : (⟨S128, .f32⟩ : BufTy).Contents (Elt F)) :
    val_main_v26 (F := F) x0 x1 x2 x3 x4 = Cert.KernelIdeal.Host.aggr128 (val_main_v15 (F := F) x0 x1 x2 x3 x4) (Cert.KernelIdeal.Host.dstOf x1) := by
  unfold val_main_v26 val_main_v18 val_main_v25 val_main_v24
  generalize val_main_v15 (F := F) x0 x1 x2 x3 x4 = msg
  unfold val_main_v22 val_main_v23 val_main_v16 val_main_v17 val_main_v19 val_main_v20 val_main_v21 val_main_v3 val_main_v2
    val_main_cst val_main_cst_1 val_main_cst_2 val_main_cst_3 Cert.KernelIdeal.Host.aggr128 Cert.KernelIdeal.Host.degree Cert.KernelIdeal.Host.dstOf
  rfl

/-- The reference's second gather reads rows of the first layer's result at the same wrapped indices. -/
theorem gather128 (x0 : (⟨S50000x64, .f32⟩ : BufTy).Contents (Elt F)) (x1 : (⟨S2x800000, .i32⟩ : BufTy).Contents (Elt F)) (x2 : (⟨S800000x32, .f32⟩ : BufTy).Contents (Elt F)) (x3 : (⟨S96x128, .f32⟩ : BufTy).Contents (Elt F)) (x4 : (⟨S128, .f32⟩ : BufTy).Contents (Elt F)) (x5 : (⟨S192x128, .f32⟩ : BufTy).Contents (Elt F)) (x6 : (⟨S128, .f32⟩ : BufTy).Contents (Elt F)) :
    val_main_v39 (F := F) x0 x1 x2 x3 x4 x5 x6
      = Host.gather Cert.KernelIdeal.gather_S50000x128_S800000x1_S800000x128_1_0_n_n_0_1_1128 (val_main_v32 (F := F) x0 x1 x2 x3 x4 x5 x6) (Cert.KernelIdeal.Host.srcWrap (Cert.KernelIdeal.Host.srcOf x1)) := by
  unfold val_main_v39
  generalize val_main_v32 (F := F) x0 x1 x2 x3 x4 x5 x6 = h
  unfold val_main_v38 val_main_v37 val_main_v34 val_main_v36 val_main_v33 val_main_v35 val_main_c_4 val_main_c_5 val_main_v1 val_main_v0
    Cert.KernelIdeal.Host.srcWrap Cert.KernelIdeal.Host.srcOf
  rfl

/-- The reference's second mean over incoming edges is the kernel program's, of the same messages. -/
theorem aggr64 (x0 : (⟨S50000x64, .f32⟩ : BufTy).Contents (Elt F)) (x1 : (⟨S2x800000, .i32⟩ : BufTy).Contents (Elt F)) (x2 : (⟨S800000x32, .f32⟩ : BufTy).Contents (Elt F)) (x3 : (⟨S96x128, .f32⟩ : BufTy).Contents (Elt F)) (x4 : (⟨S128, .f32⟩ : BufTy).Contents (Elt F)) (x5 : (⟨S192x128, .f32⟩ : BufTy).Contents (Elt F)) (x6 : (⟨S128, .f32⟩ : BufTy).Contents (Elt F)) (x7 : (⟨S160x64, .f32⟩ : BufTy).Contents (Elt F)) (x8 : (⟨S64, .f32⟩ : BufTy).Contents (Elt F)) :
    val_main_v55 (F := F) x0 x1 x2 x3 x4 x5 x6 x7 x8 = Cert.KernelIdeal.Host.aggr64 (val_main_v44 (F := F) x0 x1 x2 x3 x4 x5 x6 x7 x8) (Cert.KernelIdeal.Host.dstOf x1) := by
  unfold val_main_v55 val_main_v47 val_main_v54 val_main_v53
  generalize val_main_v44 (F := F) x0 x1 x2 x3 x4 x5 x6 x7 x8 = msg
  unfold val_main_v51 val_main_v52 val_main_v45 val_main_v46 val_main_v48 val_main_v49 val_main_v50 val_main_v3 val_main_v2
    val_main_cst_6 val_main_cst_7 val_main_cst_8 val_main_cst_9 Cert.KernelIdeal.Host.aggr64 Cert.KernelIdeal.Host.degree Cert.KernelIdeal.Host.dstOf
  rfl

end AnyInstance

open Cert.KernelIdeal.Layers

/-- The reference's first-layer messages are the kernel program's. -/
theorem msg1_eq (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) : val_main_v15 (F := Ideal) x0 x1 x2 x3 x4 = msg1 x0 x1 x2 x3 x4 := by
  unfold msg1
  refine eq_of_entries _ _ fun p q => ?_
  rw [Cert.ReferenceIdeal.RefMsg.msg1, gather64]

/-- The reference's first-layer result is the kernel program's. -/
theorem hid_eq (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S192x128, .f32⟩ : BufTy).Contents (Elt Ideal)) (x6 : (⟨S128, .f32⟩ : BufTy).Contents (Elt Ideal)) : val_main_v32 (F := Ideal) x0 x1 x2 x3 x4 x5 x6 = hid x0 x1 x2 x3 x4 x5 x6 := by
  unfold hid
  refine eq_of_entries _ _ fun p q => ?_
  rw [Cert.ReferenceIdeal.RefUpd.upd1, aggr128, msg1_eq]

/-- The reference's second-layer messages are the kernel program's. -/
theorem msg2_eq (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S192x128, .f32⟩ : BufTy).Contents (Elt Ideal)) (x6 : (⟨S128, .f32⟩ : BufTy).Contents (Elt Ideal)) (x7 : (⟨S160x64, .f32⟩ : BufTy).Contents (Elt Ideal)) (x8 : (⟨S64, .f32⟩ : BufTy).Contents (Elt Ideal)) : val_main_v44 (F := Ideal) x0 x1 x2 x3 x4 x5 x6 x7 x8 = msg2 x0 x1 x2 x3 x4 x5 x6 x7 x8 := by
  unfold msg2
  refine eq_of_entries _ _ fun p q => ?_
  rw [Cert.ReferenceIdeal.RefMsg.msg2, gather128, hid_eq]

/-- THE REFERENCE'S RESULT is the kernel program's function of the arguments. -/
theorem out_eq (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S96x128, .f32⟩ : BufTy).Contents (Elt Ideal)) (x4 : (⟨S128, .f32⟩ : BufTy).Contents (Elt Ideal)) (x5 : (⟨S192x128, .f32⟩ : BufTy).Contents (Elt Ideal)) (x6 : (⟨S128, .f32⟩ : BufTy).Contents (Elt Ideal)) (x7 : (⟨S160x64, .f32⟩ : BufTy).Contents (Elt Ideal)) (x8 : (⟨S64, .f32⟩ : BufTy).Contents (Elt Ideal)) (x9 : (⟨S192x64, .f32⟩ : BufTy).Contents (Elt Ideal)) (x10 : (⟨S64, .f32⟩ : BufTy).Contents (Elt Ideal)) :
    val_main_v61 (F := Ideal) x0 x1 x2 x3 x4 x5 x6 x7 x8 x9 x10 = out x0 x1 x2 x3 x4 x5 x6 x7 x8 x9 x10 := by
  unfold out
  refine eq_of_entries _ _ fun p q => ?_
  rw [Cert.ReferenceIdeal.RefUpd.upd2, hid_eq, aggr64, msg2_eq]

end Cert.RefBridge

end
-- ==== Proof.lean ====
/-
  The certificate of the two-layer graph convolution: the kernel program (edge "message" and node "update" linear maps
  as four pallas_calls, the gathers and scatter-adds between them on the host) against the plain reference.

  Both programs compute, layer by layer, the message  [x[src] | edge_attr] · W_msg + b_msg  on every edge, its mean over
  the edges arriving at each node, and the update  relu ([x | mean] · W_app + b_app).  The kernel multiplies the two blocks
  of a concatenation separately and adds the products where the reference multiplies the concatenated block; on the
  extended reals a finite sum over the joined index range is the sum of the two partial sums, so the two agree with no
  appeal to finiteness.  The one place where the programs differ is the gather of source rows: the kernel's overwrites a row
  whose index lies outside the table with a not-a-number pattern, the reference's reads the nearest row.  Under the
  precondition every source index names a row of the table (0 … 49999, or -50000 … -1 counted from the end), no row is
  overwritten and both read the same rows.

  The two kernel frames are the generated ones; the reference's is its run, read back chunk by chunk, with the result dropped; `preserves` has no ledger
  entry; `algebraic` pairs the kernel program's run, its result buffer read back through its twelve segments to
  `Layers.out` of the arguments, with the reference's run, whose result stage is the same function.
-/
import proofs.«418063_j82540681494777_1_alg».proof.Defs
import proofs.«418063_j82540681494777_1_alg».proof.Proof.Gen.Kernel
import proofs.«418063_j82540681494777_1_alg».proof.Proof.Gen.Kernel.Frame
import proofs.«418063_j82540681494777_1_alg».proof.Proof.Gen.KernelIdeal
import proofs.«418063_j82540681494777_1_alg».proof.Proof.Gen.KernelIdeal.Frame
import proofs.«418063_j82540681494777_1_alg».proof.Proof.Gen.ReferenceIdeal
import proofs.«418063_j82540681494777_1_alg».proof.Proof.RefRunHand
import proofs.«418063_j82540681494777_1_alg».proof.Proof.Gen.Pre_finite_inputs
import proofs.«418063_j82540681494777_1_alg».proof.Proof.KernelRun
import proofs.«418063_j82540681494777_1_alg».proof.Proof.KernelValue
import proofs.«418063_j82540681494777_1_alg».proof.Proof.PreDecode
import proofs.«418063_j82540681494777_1_alg».proof.Proof.RefBridge
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- The ideal pass rewrote nothing. -/
theorem preserves : Cert.preserves_Kernel_KernelIdeal := trivial

/-- From memories agreeing on the arguments, whose source indices name rows of the node table, both programs end with the
    second layer's result `Layers.out` of the arguments in their result buffers. -/
theorem algebraic : Cert.algebraic_KernelIdeal_ReferenceIdeal := by
  intro m ρ m' ρ' hpre hagree
  refine ⟨fun c => Cert.KernelIdeal.Layers.out (Cert.KernelIdeal.KValue.X0 m c) (Cert.KernelIdeal.KValue.X1 m c) (Cert.KernelIdeal.KValue.X2 m c) (Cert.KernelIdeal.KValue.X3 m c) (Cert.KernelIdeal.KValue.X4 m c) (Cert.KernelIdeal.KValue.X5 m c) (Cert.KernelIdeal.KValue.X6 m c) (Cert.KernelIdeal.KValue.X7 m c) (Cert.KernelIdeal.KValue.X8 m c) (Cert.KernelIdeal.KValue.X9 m c) (Cert.KernelIdeal.KValue.X10 m c), ?_, ?_⟩
  · exact (θ_run Cert.KernelIdeal.defs _ _).mono
      (fun r h c => ⟨((h c).1).trans (Cert.KernelIdeal.KValue.result m ρ c (Cert.PreDecode.srcOk_of_pre m hpre c)), (h c).2⟩)
      (Cert.KernelIdeal.RunValue.run_value m ρ)
  · refine (θ_run Cert.ReferenceIdeal.defs _ _).mono (fun r h c => ⟨(h c).1.trans ?_, (h c).2⟩)
      (Cert.ReferenceIdeal.RunHand.run (F := Ideal) m' ρ')
    rw [Cert.RefBridge.out_eq]
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
